-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S100000x64 : Shape := ⟨2, ![100000, 64]⟩
abbrev S1200000 : Shape := ⟨1, ![1200000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S50000x64 .f32) (main_arg1 : FVec F S100000x64 .f32) (main_arg2 : IVec S1200000 32) (main_arg3 : IVec S1200000 32) (main_arg4 : FVec F S1200000 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1200000 .f32 := Host.absf main_arg4
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  main_v13
-- ==== Kernel.lean ====
abbrev S50000x64 : Shape := ⟨2, ![50000, 64]⟩
abbrev S100000x64 : Shape := ⟨2, ![100000, 64]⟩
abbrev S1200000 : Shape := ⟨1, ![1200000]⟩
abbrev S150000x64 : Shape := ⟨2, ![150000, 64]⟩
abbrev S_ : Shape := ⟨0, ![]⟩
abbrev S1200000x1 : Shape := ⟨2, ![1200000, 1]⟩
abbrev S1200000x64 : Shape := ⟨2, ![1200000, 64]⟩
abbrev S1x1200000 : Shape := ⟨2, ![1, 1200000]⟩
abbrev S1x9600 : Shape := ⟨2, ![1, 9600]⟩
abbrev S9600x64 : Shape := ⟨2, ![9600, 64]⟩
abbrev S1200x64 : Shape := ⟨2, ![1200, 64]⟩
abbrev S1200x1 : Shape := ⟨2, ![1200, 1]⟩
abbrev S1200x9600 : Shape := ⟨2, ![1200, 9600]⟩

abbrev nBuf : Space → Nat
  | .hbm => 56
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S100000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S150000x64, .f32⟩
  | .hbm, ⟨6, _⟩ => ⟨S_, .i32⟩
  | .hbm, ⟨7, _⟩ => ⟨S1200000, .i32⟩
  | .hbm, ⟨8, _⟩ => ⟨S1200000, .i1⟩
  | .hbm, ⟨9, _⟩ => ⟨S_, .i32⟩
  | .hbm, ⟨10, _⟩ => ⟨S1200000, .i32⟩
  | .hbm, ⟨11, _⟩ => ⟨S1200000, .i32⟩
  | .hbm, ⟨12, _⟩ => ⟨S1200000, .i32⟩
  | .hbm, ⟨13, _⟩ => ⟨S1200000x1, .i32⟩
  | .hbm, ⟨14, _⟩ => ⟨S1200000x64, .f32⟩
  | .hbm, ⟨15, _⟩ => ⟨S1200000x1, .f32⟩
  | .hbm, ⟨16, _⟩ => ⟨S1200000x64, .f32⟩
  | .hbm, ⟨17, _⟩ => ⟨S1200000x64, .f32⟩
  | .hbm, ⟨18, _⟩ => ⟨S1x1200000, .i32⟩
  | .hbm, ⟨19, _⟩ => ⟨S150000x64, .f32⟩
  | .hbm, ⟨20, _⟩ => ⟨S150000x64, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S1200000x1, .f32⟩
  | .hbm, ⟨31, _⟩ => ⟨S1200000x64, .f32⟩
  | .hbm, ⟨32, _⟩ => ⟨S1200000x64, .f32⟩
  | .hbm, ⟨33, _⟩ => ⟨S1x1200000, .i32⟩
  | .hbm, ⟨34, _⟩ => ⟨S150000x64, .f32⟩
  | .hbm, ⟨35, _⟩ => ⟨S150000x64, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S1200000x1, .f32⟩
  | .hbm, ⟨46, _⟩ => ⟨S1200000x64, .f32⟩
  | .hbm, ⟨47, _⟩ => ⟨S1200000x64, .f32⟩
  | .hbm, ⟨48, _⟩ => ⟨S1x1200000, .i32⟩
  | .hbm, ⟨49, _⟩ => ⟨S150000x64, .f32⟩
  | .hbm, ⟨50, _⟩ => ⟨S150000x64, .f32⟩
  | .hbm, ⟨51, _⟩ => ⟨S_, .f32⟩
  | .hbm, ⟨52, _⟩ => ⟨S150000x64, .f32⟩
  | .hbm, ⟨53, _⟩ => ⟨S150000x64, .f32⟩
  | .hbm, ⟨54, _⟩ => ⟨S50000x64, .f32⟩
  | .hbm, ⟨55, _⟩ => ⟨S100000x64, .f32⟩
  | .local _ .vmem, ⟨0, _⟩ => ⟨S1x9600, .i32⟩
  | .local _ .vmem, ⟨1, _⟩ => ⟨S1x9600, .i32⟩
  | .local _ .vmem, ⟨2, _⟩ => ⟨S9600x64, .f32⟩
  | .local _ .vmem, ⟨3, _⟩ => ⟨S9600x64, .f32⟩
  | .local _ .vmem, ⟨4, _⟩ => ⟨S1200x64, .f32⟩
  | .local _ .vmem, ⟨5, _⟩ => ⟨S1200x64, .f32⟩
  | .local _ .vmem, ⟨6, _⟩ => ⟨S1200x64, .f32⟩
  | .local _ .vmem, ⟨7, _⟩ => ⟨S1x9600, .i32⟩
  | .local _ .vmem, ⟨8, _⟩ => ⟨S1x9600, .i32⟩
  | .local _ .vmem, ⟨9, _⟩ => ⟨S9600x64, .f32⟩
  | .local _ .vmem, ⟨10, _⟩ => ⟨S9600x64, .f32⟩
  | .local _ .vmem, ⟨11, _⟩ => ⟨S1200x64, .f32⟩
  | .local _ .vmem, ⟨12, _⟩ => ⟨S1200x64, .f32⟩
  | .local _ .vmem, ⟨13, _⟩ => ⟨S1200x64, .f32⟩
  | .local _ .vmem, ⟨14, _⟩ => ⟨S1x9600, .i32⟩
  | .local _ .vmem, ⟨15, _⟩ => ⟨S1x9600, .i32⟩
  | .local _ .vmem, ⟨16, _⟩ => ⟨S9600x64, .f32⟩
  | .local _ .vmem, ⟨17, _⟩ => ⟨S9600x64, .f32⟩
  | .local _ .vmem, ⟨18, _⟩ => ⟨S1200x64, .f32⟩
  | .local _ .vmem, ⟨19, _⟩ => ⟨S1200x64, .f32⟩
  | .local _ .vmem, ⟨20, _⟩ => ⟨S1200x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![125, 125], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x9600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S9600x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![125, 125], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x9600 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S9600x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![125, 125], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x9600 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S9600x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1200x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  concatenates_S50000x64_S100000x64_S150000x64_d0 : Shape.Concatenates [S50000x64, S100000x64] S150000x64 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  shapeCasts_S1200000_S1x1200000 : S1200000.ShapeCasts S1x1200000
  inb_S1200x64_S1200x64_0_0 : ∀ a, (![0, 0] : Fin 2 → Nat) a + S1200x64.size a ≤ S1200x64.size a
  h_S1200x64 : 0 < S1200x64.numel
  shapeCasts_S1200x64_S1200x64 : S1200x64.ShapeCasts S1200x64
  iota_S1200x1_d0_w32 : S1200x1.Iotas .tc 32 [0]
  inb_S1x9600_S1x9600_0_0 : ∀ a, (![0, 0] : Fin 2 → Nat) a + S1x9600.size a ≤ S1x9600.size a
  h_S1x9600 : 0 < S1x9600.numel
  shapeCasts_S1x9600_S1x9600 : S1x9600.ShapeCasts S1x9600
  broadcasts_S1200x1_S1200x9600 : S1200x1.Broadcasts S1200x9600
  broadcasts_S1x9600_S1200x9600 : S1x9600.Broadcasts S1200x9600
  natLt_1_32 : 1 < 32
  bitsLt_bf16_f32 : FTy.bits .bf16 < FTy.bits .f32
  inb_S9600x64_S9600x64_0_0 : ∀ a, (![0, 0] : Fin 2 → Nat) a + S9600x64.size a ≤ S9600x64.size a
  h_S9600x64 : 0 < S9600x64.numel
  shapeCasts_S9600x64_S9600x64 : S9600x64.ShapeCasts S9600x64
  bcast_S_S150000x64 : S_.BroadcastsInDim S150000x64 (![] : Fin 0 → Fin S150000x64.rank)
  slices_S150000x64_S50000x64_0_0 : S150000x64.Slices ![0, 0] S50000x64
  slices_S150000x64_S100000x64_50000_0 : S150000x64.Slices ![50000, 0] S100000x64
  gather_S150000x64_S1200000x1_S1200000x64_1_0_n_n_0_1_164_wf : GatherDims.WF S150000x64 S1200000x1 S1200000x64 [1] [0] [] [0] [] 1 ![1, 64]
  dot_S1200x9600_S9600x64_S1200x64_1_0_0_1_n_n_wf : DotDims.WF S1200x9600 S9600x64 S1200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9600.size a ≤ S1x1200000.size a
  hwx0_0 : ∀ i : grid0.Coords, EltTy.bits .i32 = 32 ∨ (Rect.block (s := S1x1200000) S1x9600.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9600x64.size a ≤ S1200000x64.size a
  hwx0_1 : ∀ i : grid0.Coords, EltTy.bits .f32 = 32 ∨ (Rect.block (s := S1200000x64) S9600x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x64.size a ≤ S150000x64.size a
  hwx0_2 : ∀ i : grid0.Coords, EltTy.bits .f32 = 32 ∨ (Rect.block (s := S150000x64) S1200x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x9600.size a ≤ S1x1200000.size a
  hwx1_0 : ∀ i : grid1.Coords, EltTy.bits .i32 = 32 ∨ (Rect.block (s := S1x1200000) S1x9600.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S9600x64.size a ≤ S1200000x64.size a
  hwx1_1 : ∀ i : grid1.Coords, EltTy.bits .f32 = 32 ∨ (Rect.block (s := S1200000x64) S9600x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1200x64.size a ≤ S150000x64.size a
  hwx1_2 : ∀ i : grid1.Coords, EltTy.bits .f32 = 32 ∨ (Rect.block (s := S150000x64) S1200x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x9600.size a ≤ S1x1200000.size a
  hwx2_0 : ∀ i : grid2.Coords, EltTy.bits .i32 = 32 ∨ (Rect.block (s := S1x1200000) S1x9600.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S9600x64.size a ≤ S1200000x64.size a
  hwx2_1 : ∀ i : grid2.Coords, EltTy.bits .f32 = 32 ∨ (Rect.block (s := S1200000x64) S9600x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1200x64.size a ≤ S150000x64.size a
  hwx2_2 : ∀ i : grid2.Coords, EltTy.bits .f32 = 32 ∨ (Rect.block (s := S150000x64) S1200x64.size (cc2_transform_2 i) (hinb2_2 i)).WholeWords (EltTy.packing .f32)

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def dot_S1200x9600_S9600x64_S1200x64_1_0_0_1_n_n : DotDims S1200x9600 S9600x64 S1200x64 where
  lhsContracting := [1]
  rhsContracting := [0]
  lhsNonContracting := [0]
  rhsNonContracting := [1]
  lhsBatch := []
  rhsBatch := []
  wf := dot_S1200x9600_S9600x64_S1200x64_1_0_0_1_n_n_wf

abbrev win0_0 : Pipeline.Window sig grid0 :=
  Pipeline.Window.ofSpec (Memref.whole main_v11) S1x9600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S9600x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S1x9600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S9600x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1200x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S1x9600.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S9600x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1200x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S100000x64 : Shape := ⟨2, ![100000, 64]⟩
abbrev S1200000 : Shape := ⟨1, ![1200000]⟩
abbrev S150000x64 : Shape := ⟨2, ![150000, 64]⟩
abbrev S1200000x1 : Shape := ⟨2, ![1200000, 1]⟩
abbrev S_ : Shape := ⟨0, ![]⟩
abbrev S1200000x64 : Shape := ⟨2, ![1200000, 64]⟩

abbrev nBuf : Space → Nat
  | .hbm => 62
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S100000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S150000x64, .f32⟩
  | .hbm, ⟨6, _⟩ => ⟨S1200000x1, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S1200000x64, .f32⟩
  | .hbm, ⟨17, _⟩ => ⟨S1200000x64, .f32⟩
  | .hbm, ⟨18, _⟩ => ⟨S_, .f32⟩
  | .hbm, ⟨19, _⟩ => ⟨S150000x64, .f32⟩
  | .hbm, ⟨20, _⟩ => ⟨S1200000x1, .i32⟩
  | .hbm, ⟨21, _⟩ => ⟨S150000x64, .f32⟩
  | .hbm, ⟨22, _⟩ => ⟨S150000x64, .f32⟩
  | .hbm, ⟨23, _⟩ => ⟨S1200000x1, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S1200000x64, .f32⟩
  | .hbm, ⟨34, _⟩ => ⟨S1200000x64, .f32⟩
  | .hbm, ⟨35, _⟩ => ⟨S_, .f32⟩
  | .hbm, ⟨36, _⟩ => ⟨S150000x64, .f32⟩
  | .hbm, ⟨37, _⟩ => ⟨S1200000x1, .i32⟩
  | .hbm, ⟨38, _⟩ => ⟨S150000x64, .f32⟩
  | .hbm, ⟨39, _⟩ => ⟨S150000x64, .f32⟩
  | .hbm, ⟨40, _⟩ => ⟨S1200000x1, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S1200000x64, .f32⟩
  | .hbm, ⟨51, _⟩ => ⟨S1200000x64, .f32⟩
  | .hbm, ⟨52, _⟩ => ⟨S_, .f32⟩
  | .hbm, ⟨53, _⟩ => ⟨S150000x64, .f32⟩
  | .hbm, ⟨54, _⟩ => ⟨S1200000x1, .i32⟩
  | .hbm, ⟨55, _⟩ => ⟨S150000x64, .f32⟩
  | .hbm, ⟨56, _⟩ => ⟨S150000x64, .f32⟩
  | .hbm, ⟨57, _⟩ => ⟨S_, .f32⟩
  | .hbm, ⟨58, _⟩ => ⟨S150000x64, .f32⟩
  | .hbm, ⟨59, _⟩ => ⟨S150000x64, .f32⟩
  | .hbm, ⟨60, _⟩ => ⟨S50000x64, .f32⟩
  | .hbm, ⟨61, _⟩ => ⟨S100000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  concatenates_S50000x64_S100000x64_S150000x64_d0 : Shape.Concatenates [S50000x64, S100000x64] S150000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  slices_S150000x64_S50000x64_0_0 : S150000x64.Slices ![0, 0] S50000x64
  slices_S150000x64_S100000x64_50000_0 : S150000x64.Slices ![50000, 0] S100000x64
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

class Facts : Prop extends Facts₀ where

variable [Facts]
-- ==== Proof.GridFacts.lean ====
/-
  The grid every launch of the segment sum walks, 125 row tiles × 125 edge tiles, point t = 125·i + j, and the one
  fact about it the proofs use: the body's test "edge tile index j is 0", which the program spells as a chain of word
  comparisons on the coordinate, holds exactly at the points t ≡ 0 (mod 125).
-/
import Idealize.ShloMosaic.Lib.Pipeline.Kit
import Idealize.ShloMosaic.PureOps

noncomputable section

namespace Cert.SegSum

open Idealize.ShloMosaic

/-- The 125 × 125 grid. -/
abbrev G : Pipeline.Grid := ⟨2, ![125, 125], ![false, false]⟩

/-- The body's condition "the edge tile index is 0" over the grid coordinates, as the program spells it. -/
abbrev firstTile (i : G.Coords) : Prop :=
  (Scalar.cmpi .ne (Scalar.extui (Scalar.cmpi .eq (BitVec.ofNat 32 (i 1).val) 0#32)) 0#32) = 1#1

/-- It holds exactly at the points t ≡ 0 (mod 125). -/
theorem firstTile_iff : ∀ t : Fin G.N, firstTile (G.coords t) ↔ t.val % 125 = 0 := by decide +kernel

end Cert.SegSum

end
-- ==== Proof.Kernel.Region0.Base.lean ====
/-
  Segment sum, one launch: the setting every later module of this launch is stated in.
  The launch walks a 125 × 125 grid, point t = 125·i + j: row tile i of the 150000 destination rows (1200 rows each)
  against edge tile j of the 1200000 edges (9600 edges each). At j = 0 the body zeroes a 1200 × 64 scratch; at every
  point it adds to the scratch the product of the 0/1 matrix [row id = destination of edge] with the tile's messages,
  and copies the scratch into the output block of row tile i, which is written back after j = 124.
  Here: a window's block at a point read off the arrays the launch finds (a parameter V), the fact that an input
  window's staging buffer holds that block at every point, the branch condition in closed form (j = 0 iff t ≡ 0 mod 125),
  that no window is idle, and the scratch split out of the scoped buffers the body may use.
-/
import proofs.«425571_j63591285785042_1_alg».proof.Proof.Gen.Kernel.Launch
import proofs.«425571_j63591285785042_1_alg».proof.Proof.Gen.Kernel.Skeleton
import proofs.«425571_j63591285785042_1_alg».proof.Proof.Gen.Kernel.Points
import proofs.«425571_j63591285785042_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The destinations' staging buffer holds edge tile j's destinations at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The messages' staging buffer holds edge tile j's messages at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch: the scratch is zeroed exactly at the first edge tile -/

/-- The body's condition "edge tile index is 0", over the grid coordinates. -/
abbrev cond (i : grid0.Coords) : Prop := (Scalar.cmpi .ne (Scalar.extui (Scalar.cmpi .eq (BitVec.ofNat 32 (i 1).val) 0#32)) 0#32) = 1#1
/-- It holds at the points t ≡ 0 (mod 125): t = 125·i + j and the condition says j = 0. -/
theorem hcond : ∀ t : Fin cfg0.N, cond (grid0.coords t) ↔ t.val % 125 = 0 := Cert.SegSum.firstTile_iff

/-! ## No window is idle -/

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl

/-! ## The memrefs the body is called on -/

/-- One staging buffer of the output window, through which its contents are stated. -/
abbrev VO : View sig .tc .vmem S1200x64 .f32 := (Memref.whole cc0_stg2_0 : Memref sig .tc .vmem S1200x64 .f32).view
abbrev ms_0 (t : Fin cfg0.N) : Memref sig .tc .vmem S1x9600 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S9600x64 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1200x64 .f32 := win0_2.stage (cfg0.slots t 2)
abbrev hs_2 (t : Fin cfg0.N) : (ms_2 t).IsWhole := hstage0_2 ((cfg0.slots t 2).cast nbuf0_2)
/-- The running-sum scratch: a whole scoped buffer of the launch's own. -/
abbrev scM : Memref sig .tc .vmem S1200x64 .f32 := Memref.whole cc0_scratch0
abbrev VS : View sig .tc .vmem S1200x64 .f32 := scM.view

/-- What the body may use and need not describe, with the running-sum scratch split out: the scratch at some contents,
    every other scoped buffer that is no staging buffer of this launch unopened, and the generator register. -/
theorem PhiA_eq (c : Dev nD) :
    (Pipeline.ΦA spec0 c : sProp 𝕄)
      = iprop(iprop((∃ d, owns (c : Thread nD τ) scM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM, owns_whole, bigSepL]
  try rfl

end Cert.Kernel.Region0

end
-- ==== Proof.Kernel.Region0.RunA.lean ====
/-
  Segment sum, one launch: the body run once at a point of the FIRST edge tile (j = 0).
  There the scratch is found at anything, is overwritten with zeros, and then receives zeros + (0/1 matrix) · messages;
  the output block's buffer, found at anything, receives a copy of the scratch. The run yields, for the output buffer and
  for the scratch, the list of pieces the stores left (last first), together with the fact that from whole buffers — the
  two inputs at given contents — the body runs to the end leaving the inputs as they were and those pieces written.
-/
import proofs.«425571_j63591285785042_1_alg».proof.Proof.Kernel.Region0.Base

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j = 0, on any whole buffers: the pieces it leaves in the output buffer (`.1`) and in the
    scratch (`.2.1`), and the run itself (`.2.2`). -/
noncomputable def kernelRun_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i)
    (x0 : Vec F S1x9600 .i32) (x1 : Vec F S9600x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Region0

end
-- ==== Proof.Kernel.Region0.RunB.lean ====
/-
  Segment sum, one launch: the body run once at a point of a LATER edge tile (j ≠ 0).
  There the scratch is found at the running sum the point before left (xs) and receives xs + (0/1 matrix) · messages; the
  output block's buffer, found at anything, receives a copy of the scratch. Same shape of result as at j = 0.
-/
import proofs.«425571_j63591285785042_1_alg».proof.Proof.Kernel.Region0.RunA

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j ≠ 0, on any whole buffers, the scratch at `xs`: the pieces it leaves in the output buffer
    (`.1`) and in the scratch (`.2.1`), and the run itself (`.2.2`). -/
noncomputable def kernelRun_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i)
    (x0 : Vec F S1x9600 .i32) (x1 : Vec F S9600x64 .f32) (xs : Vec F S1200x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Region0

end
-- ==== Proof.Kernel.Region0.Data.lean ====
/-
  Segment sum, one launch: what the output block's buffer and the running-sum scratch hold after every grid point, and the
  proof data of the launch built on it.
  After point t = 125·i + j the pair (output buffer, scratch) is: at j = 0 what the first-tile run leaves from the two
  input blocks; at j ≠ 0 what the later-tile run leaves from the two input blocks and the scratch the point before left.
  The invariant between points holds the scratch at exactly that running sum (before the first point: at anything), every
  other scoped buffer unopened, and the generator register. The body obligation at a point is then the matching case's run.
-/
import proofs.«425571_j63591285785042_1_alg».proof.Proof.Kernel.Region0.RunB

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 the stores into the output buffer cover it. -/
theorem cover_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).1, y ∈ pc.1.set :=
  View.cover_of_tiledL (kernelRun_A c i arg2 harg2 arg3 harg3 arg4 harg4 arg5 harg5 hc x0 x1).1 S1200x64.size (by sl_kernel_rfl) y
/-- What the output buffer holds after a point with j = 0. -/
def out_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VO.read (Elt F) (VO.writes (Elt F) VO.junk (kernelRun_A c i arg2 harg2 arg3 harg3 arg4 harg4 arg5 harg5 hc x0 x1).1)
/-- At j = 0 the stores into the scratch cover it. -/
theorem scover_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).2.1, y ∈ pc.1.set :=
  View.cover_of_tiledL (kernelRun_A c i arg2 harg2 arg3 harg3 arg4 harg4 arg5 harg5 hc x0 x1).2.1 S1200x64.size (by sl_kernel_rfl) y
/-- What the scratch holds after a point with j = 0. -/
def sout_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VS.read (Elt F) (VS.writes (Elt F) VS.junk (kernelRun_A c i arg2 harg2 arg3 harg3 arg4 harg4 arg5 harg5 hc x0 x1).2.1)

/-- At j ≠ 0 the stores into the output buffer cover it. -/
theorem cover_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).1, y ∈ pc.1.set :=
  View.cover_of_tiledL (kernelRun_B c i arg2 harg2 arg3 harg3 arg4 harg4 arg5 harg5 hc x0 x1 xs).1 S1200x64.size (by sl_kernel_rfl) y
/-- What the output buffer holds after a point with j ≠ 0. -/
def out_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VO.read (Elt F) (VO.writes (Elt F) VO.junk (kernelRun_B c i arg2 harg2 arg3 harg3 arg4 harg4 arg5 harg5 hc x0 x1 xs).1)
/-- At j ≠ 0 the stores into the scratch cover it. -/
theorem scover_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).2.1, y ∈ pc.1.set :=
  View.cover_of_tiledL (kernelRun_B c i arg2 harg2 arg3 harg3 arg4 harg4 arg5 harg5 hc x0 x1 xs).2.1 S1200x64.size (by sl_kernel_rfl) y
/-- What the scratch holds after a point with j ≠ 0. -/
def sout_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VS.read (Elt F) (VS.writes (Elt F) VS.junk (kernelRun_B c i arg2 harg2 arg3 harg3 arg4 harg4 arg5 harg5 hc x0 x1 xs).2.1)

/-! ## The accumulation over the grid -/

/-- (output buffer, scratch) after the body at position `n`: the first-tile case where n ≡ 0 (mod 125), else the
    later-tile case over the scratch the position before left. -/
def outsAt (c : Dev nD) : (n : ℕ) → n < cfg0.N → Vec F S1200x64 .f32 × Vec F S1200x64 .f32
  | 0, hn => (out_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩),
      sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩))
  | n + 1, hn =>
    if h0 : (n + 1) % 125 = 0 then
      (out_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩),
        sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩))
    else
      (out_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2,
        sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2)

/-- At a point of the first edge tile. -/
theorem outsAt_A (c : Dev nD) (t : Fin cfg0.N) (h0 : t.val % 125 = 0) :
    outsAt V c t.val t.isLt = (out_A c (grid0.coords t) (ms_0 t) (hs_0 t) (ms_1 t) (hs_1 t) (ms_2 t) (hs_2 t) scM (Memref.isWhole_whole _) ((hcond t).mpr h0) (iblk V c 0 t) (iblk V c 1 t),
      sout_A c (grid0.coords t) (ms_0 t) (hs_0 t) (ms_1 t) (hs_1 t) (ms_2 t) (hs_2 t) scM (Memref.isWhole_whole _) ((hcond t).mpr h0) (iblk V c 0 t) (iblk V c 1 t)) := by
  obtain ⟨n, hn⟩ := t
  cases n with
  | zero => exact rfl
  | succ n => exact (dif_pos h0).trans rfl

/-- At a point of a later edge tile: over the scratch the point before left. -/
theorem outsAt_B (c : Dev nD) (t : Fin cfg0.N) (h0 : ¬t.val % 125 = 0) :
    outsAt V c t.val t.isLt = (out_B c (grid0.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2,
      sout_B c (grid0.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- Before position `n`: at n = 0 what the launch hands over (the scratch at anything); afterwards the scratch at the
    running sum position n − 1 left, every other scoped buffer unopened, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The launch's proof data -/

/-- The arrays as the launch finds them; after the body at a point each input buffer at its block and the output buffer
    at the accumulation's first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their blocks; the closed form says whether the point is of the first
    edge tile; the invariant hands over the scratch (at anything at the very first point, else at the running sum) and
    takes it back at this point's running sum; the output buffer, found at anything, is left at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 125 = 0
  · rw [outsAt_A V c t h0]
    unfold out_A sout_A; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRun_A c (grid0.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
    · rw [PhiS_castSucc V c t, PhiS_pos V c _ _ hz]
      iintro ⟨⟨⟨HS, Hrest⟩, Hg⟩, Ho, ⟨%d0, H0⟩, ⟨%d1, H1⟩, ⟨%d2, H2⟩⟩
      iapply ((kernelRun_A c (grid0.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
  · rw [outsAt_B V c t h0]
    unfold out_B sout_B; (try dsimp only)
    have hz : t.val ≠ 0 := fun h => h0 (by rw [h])
    rw [PhiS_castSucc V c t, PhiS_pos V c _ _ hz]
    iintro ⟨⟨⟨HS, Hrest⟩, Hg⟩, Ho, ⟨%d0, H0⟩, ⟨%d1, H1⟩, ⟨%d2, H2⟩⟩
    iapply ((kernelRun_B c (grid0.coords t) _ _ _ _ _ _ _ _ (fun h => h0 ((hcond t).mp h)) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover_B c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _ _)

/-- The body obligation at every point. -/
theorem body_obligation (c : Dev nD) : BodyObligation (dat (F := F) V c) (defs₀ (F := F)) Variants.none () Set.univ := fun t => by
  rw [bigSep_W0, bigSep_W0]
  exact sound_body V c t

/-- What the launch hands over is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives it back, the running sum forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 15625 := N_0; omega)

end Cert.Kernel.Region0

end
-- ==== Proof.Kernel.Region1.Base.lean ====
/-
  Segment sum, one launch: the setting every later module of this launch is stated in.
  The launch walks a 125 × 125 grid, point t = 125·i + j: row tile i of the 150000 destination rows (1200 rows each)
  against edge tile j of the 1200000 edges (9600 edges each). At j = 0 the body zeroes a 1200 × 64 scratch; at every
  point it adds to the scratch the product of the 0/1 matrix [row id = destination of edge] with the tile's messages,
  and copies the scratch into the output block of row tile i, which is written back after j = 124.
  Here: a window's block at a point read off the arrays the launch finds (a parameter V), the fact that an input
  window's staging buffer holds that block at every point, the branch condition in closed form (j = 0 iff t ≡ 0 mod 125),
  that no window is idle, and the scratch split out of the scoped buffers the body may use.
-/
import proofs.«425571_j63591285785042_1_alg».proof.Proof.Gen.Kernel.Launch
import proofs.«425571_j63591285785042_1_alg».proof.Proof.Gen.Kernel.Skeleton
import proofs.«425571_j63591285785042_1_alg».proof.Proof.Gen.Kernel.Points
import proofs.«425571_j63591285785042_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The destinations' staging buffer holds edge tile j's destinations at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The messages' staging buffer holds edge tile j's messages at every point. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch: the scratch is zeroed exactly at the first edge tile -/

/-- The body's condition "edge tile index is 0", over the grid coordinates. -/
abbrev cond (i : grid1.Coords) : Prop := (Scalar.cmpi .ne (Scalar.extui (Scalar.cmpi .eq (BitVec.ofNat 32 (i 1).val) 0#32)) 0#32) = 1#1
/-- It holds at the points t ≡ 0 (mod 125): t = 125·i + j and the condition says j = 0. -/
theorem hcond : ∀ t : Fin cfg1.N, cond (grid1.coords t) ↔ t.val % 125 = 0 := Cert.SegSum.firstTile_iff

/-! ## No window is idle -/

theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl

/-! ## The memrefs the body is called on -/

/-- One staging buffer of the output window, through which its contents are stated. -/
abbrev VO : View sig .tc .vmem S1200x64 .f32 := (Memref.whole cc1_stg2_0 : Memref sig .tc .vmem S1200x64 .f32).view
abbrev ms_0 (t : Fin cfg1.N) : Memref sig .tc .vmem S1x9600 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S9600x64 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1200x64 .f32 := win1_2.stage (cfg1.slots t 2)
abbrev hs_2 (t : Fin cfg1.N) : (ms_2 t).IsWhole := hstage1_2 ((cfg1.slots t 2).cast nbuf1_2)
/-- The running-sum scratch: a whole scoped buffer of the launch's own. -/
abbrev scM : Memref sig .tc .vmem S1200x64 .f32 := Memref.whole cc1_scratch0
abbrev VS : View sig .tc .vmem S1200x64 .f32 := scM.view

/-- What the body may use and need not describe, with the running-sum scratch split out: the scratch at some contents,
    every other scoped buffer that is no staging buffer of this launch unopened, and the generator register. -/
theorem PhiA_eq (c : Dev nD) :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM, owns_whole, bigSepL]
  try rfl

end Cert.Kernel.Region1

end
-- ==== Proof.Kernel.Region1.RunA.lean ====
/-
  Segment sum, one launch: the body run once at a point of the FIRST edge tile (j = 0).
  There the scratch is found at anything, is overwritten with zeros, and then receives zeros + (0/1 matrix) · messages;
  the output block's buffer, found at anything, receives a copy of the scratch. The run yields, for the output buffer and
  for the scratch, the list of pieces the stores left (last first), together with the fact that from whole buffers — the
  two inputs at given contents — the body runs to the end leaving the inputs as they were and those pieces written.
-/
import proofs.«425571_j63591285785042_1_alg».proof.Proof.Kernel.Region1.Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j = 0, on any whole buffers: the pieces it leaves in the output buffer (`.1`) and in the
    scratch (`.2.1`), and the run itself (`.2.2`). -/
noncomputable def kernelRun_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i)
    (x0 : Vec F S1x9600 .i32) (x1 : Vec F S9600x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨?_, ?_, fun E K => ?run⟩
  case run =>
    simp only [cc1__segment_sum_kernel_eq_skeleton]; unfold cc1__segment_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Region1

end
-- ==== Proof.Kernel.Region1.RunB.lean ====
/-
  Segment sum, one launch: the body run once at a point of a LATER edge tile (j ≠ 0).
  There the scratch is found at the running sum the point before left (xs) and receives xs + (0/1 matrix) · messages; the
  output block's buffer, found at anything, receives a copy of the scratch. Same shape of result as at j = 0.
-/
import proofs.«425571_j63591285785042_1_alg».proof.Proof.Kernel.Region1.RunA

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j ≠ 0, on any whole buffers, the scratch at `xs`: the pieces it leaves in the output buffer
    (`.1`) and in the scratch (`.2.1`), and the run itself (`.2.2`). -/
noncomputable def kernelRun_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i)
    (x0 : Vec F S1x9600 .i32) (x1 : Vec F S9600x64 .f32) (xs : Vec F S1200x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨?_, ?_, fun E K => ?run⟩
  case run =>
    simp only [cc1__segment_sum_kernel_eq_skeleton]; unfold cc1__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Region1

end
-- ==== Proof.Kernel.Region1.Data.lean ====
/-
  Segment sum, one launch: what the output block's buffer and the running-sum scratch hold after every grid point, and the
  proof data of the launch built on it.
  After point t = 125·i + j the pair (output buffer, scratch) is: at j = 0 what the first-tile run leaves from the two
  input blocks; at j ≠ 0 what the later-tile run leaves from the two input blocks and the scratch the point before left.
  The invariant between points holds the scratch at exactly that running sum (before the first point: at anything), every
  other scoped buffer unopened, and the generator register. The body obligation at a point is then the matching case's run.
-/
import proofs.«425571_j63591285785042_1_alg».proof.Proof.Kernel.Region1.RunB

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 the stores into the output buffer cover it. -/
theorem cover_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).1, y ∈ pc.1.set :=
  View.cover_of_tiledL (kernelRun_A c i arg2 harg2 arg3 harg3 arg4 harg4 arg5 harg5 hc x0 x1).1 S1200x64.size (by sl_kernel_rfl) y
/-- What the output buffer holds after a point with j = 0. -/
def out_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VO.read (Elt F) (VO.writes (Elt F) VO.junk (kernelRun_A c i arg2 harg2 arg3 harg3 arg4 harg4 arg5 harg5 hc x0 x1).1)
/-- At j = 0 the stores into the scratch cover it. -/
theorem scover_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).2.1, y ∈ pc.1.set :=
  View.cover_of_tiledL (kernelRun_A c i arg2 harg2 arg3 harg3 arg4 harg4 arg5 harg5 hc x0 x1).2.1 S1200x64.size (by sl_kernel_rfl) y
/-- What the scratch holds after a point with j = 0. -/
def sout_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VS.read (Elt F) (VS.writes (Elt F) VS.junk (kernelRun_A c i arg2 harg2 arg3 harg3 arg4 harg4 arg5 harg5 hc x0 x1).2.1)

/-- At j ≠ 0 the stores into the output buffer cover it. -/
theorem cover_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).1, y ∈ pc.1.set :=
  View.cover_of_tiledL (kernelRun_B c i arg2 harg2 arg3 harg3 arg4 harg4 arg5 harg5 hc x0 x1 xs).1 S1200x64.size (by sl_kernel_rfl) y
/-- What the output buffer holds after a point with j ≠ 0. -/
def out_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VO.read (Elt F) (VO.writes (Elt F) VO.junk (kernelRun_B c i arg2 harg2 arg3 harg3 arg4 harg4 arg5 harg5 hc x0 x1 xs).1)
/-- At j ≠ 0 the stores into the scratch cover it. -/
theorem scover_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).2.1, y ∈ pc.1.set :=
  View.cover_of_tiledL (kernelRun_B c i arg2 harg2 arg3 harg3 arg4 harg4 arg5 harg5 hc x0 x1 xs).2.1 S1200x64.size (by sl_kernel_rfl) y
/-- What the scratch holds after a point with j ≠ 0. -/
def sout_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VS.read (Elt F) (VS.writes (Elt F) VS.junk (kernelRun_B c i arg2 harg2 arg3 harg3 arg4 harg4 arg5 harg5 hc x0 x1 xs).2.1)

/-! ## The accumulation over the grid -/

/-- (output buffer, scratch) after the body at position `n`: the first-tile case where n ≡ 0 (mod 125), else the
    later-tile case over the scratch the position before left. -/
def outsAt (c : Dev nD) : (n : ℕ) → n < cfg1.N → Vec F S1200x64 .f32 × Vec F S1200x64 .f32
  | 0, hn => (out_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩),
      sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩))
  | n + 1, hn =>
    if h0 : (n + 1) % 125 = 0 then
      (out_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩),
        sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩))
    else
      (out_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2,
        sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2)

/-- At a point of the first edge tile. -/
theorem outsAt_A (c : Dev nD) (t : Fin cfg1.N) (h0 : t.val % 125 = 0) :
    outsAt V c t.val t.isLt = (out_A c (grid1.coords t) (ms_0 t) (hs_0 t) (ms_1 t) (hs_1 t) (ms_2 t) (hs_2 t) scM (Memref.isWhole_whole _) ((hcond t).mpr h0) (iblk V c 0 t) (iblk V c 1 t),
      sout_A c (grid1.coords t) (ms_0 t) (hs_0 t) (ms_1 t) (hs_1 t) (ms_2 t) (hs_2 t) scM (Memref.isWhole_whole _) ((hcond t).mpr h0) (iblk V c 0 t) (iblk V c 1 t)) := by
  obtain ⟨n, hn⟩ := t
  cases n with
  | zero => exact rfl
  | succ n => exact (dif_pos h0).trans rfl

/-- At a point of a later edge tile: over the scratch the point before left. -/
theorem outsAt_B (c : Dev nD) (t : Fin cfg1.N) (h0 : ¬t.val % 125 = 0) :
    outsAt V c t.val t.isLt = (out_B c (grid1.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2,
      sout_B c (grid1.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- Before position `n`: at n = 0 what the launch hands over (the scratch at anything); afterwards the scratch at the
    running sum position n − 1 left, every other scoped buffer unopened, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The launch's proof data -/

/-- The arrays as the launch finds them; after the body at a point each input buffer at its block and the output buffer
    at the accumulation's first component; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their blocks; the closed form says whether the point is of the first
    edge tile; the invariant hands over the scratch (at anything at the very first point, else at the running sum) and
    takes it back at this point's running sum; the output buffer, found at anything, is left at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 125 = 0
  · rw [outsAt_A V c t h0]
    unfold out_A sout_A; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRun_A c (grid1.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
    · rw [PhiS_castSucc V c t, PhiS_pos V c _ _ hz]
      iintro ⟨⟨⟨HS, Hrest⟩, Hg⟩, Ho, ⟨%d0, H0⟩, ⟨%d1, H1⟩, ⟨%d2, H2⟩⟩
      iapply ((kernelRun_A c (grid1.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
  · rw [outsAt_B V c t h0]
    unfold out_B sout_B; (try dsimp only)
    have hz : t.val ≠ 0 := fun h => h0 (by rw [h])
    rw [PhiS_castSucc V c t, PhiS_pos V c _ _ hz]
    iintro ⟨⟨⟨HS, Hrest⟩, Hg⟩, Ho, ⟨%d0, H0⟩, ⟨%d1, H1⟩, ⟨%d2, H2⟩⟩
    iapply ((kernelRun_B c (grid1.coords t) _ _ _ _ _ _ _ _ (fun h => h0 ((hcond t).mp h)) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover_B c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _ _)

/-- The body obligation at every point. -/
theorem body_obligation (c : Dev nD) : BodyObligation (dat (F := F) V c) (defs₀ (F := F)) Variants.none () Set.univ := fun t => by
  rw [bigSep_W1, bigSep_W1]
  exact sound_body V c t

/-- What the launch hands over is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives it back, the running sum forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

/-- The same after the last point. -/
theorem hout (c : Dev nD) : (dat V c).Φ (Fin.last cfg1.N) ⊢ Pipeline.ΦA spec1 c :=
  Phi_out V c _ (by rw [Fin.val_last]; have : cfg1.N = 15625 := N_1; omega)

end Cert.Kernel.Region1

end
-- ==== Proof.Kernel.Region2.Base.lean ====
/-
  Segment sum, one launch: the setting every later module of this launch is stated in.
  The launch walks a 125 × 125 grid, point t = 125·i + j: row tile i of the 150000 destination rows (1200 rows each)
  against edge tile j of the 1200000 edges (9600 edges each). At j = 0 the body zeroes a 1200 × 64 scratch; at every
  point it adds to the scratch the product of the 0/1 matrix [row id = destination of edge] with the tile's messages,
  and copies the scratch into the output block of row tile i, which is written back after j = 124.
  Here: a window's block at a point read off the arrays the launch finds (a parameter V), the fact that an input
  window's staging buffer holds that block at every point, the branch condition in closed form (j = 0 iff t ≡ 0 mod 125),
  that no window is idle, and the scratch split out of the scoped buffers the body may use.
-/
import proofs.«425571_j63591285785042_1_alg».proof.Proof.Gen.Kernel.Launch
import proofs.«425571_j63591285785042_1_alg».proof.Proof.Gen.Kernel.Skeleton
import proofs.«425571_j63591285785042_1_alg».proof.Proof.Gen.Kernel.Points
import proofs.«425571_j63591285785042_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The destinations' staging buffer holds edge tile j's destinations at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The messages' staging buffer holds edge tile j's messages at every point. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch: the scratch is zeroed exactly at the first edge tile -/

/-- The body's condition "edge tile index is 0", over the grid coordinates. -/
abbrev cond (i : grid2.Coords) : Prop := (Scalar.cmpi .ne (Scalar.extui (Scalar.cmpi .eq (BitVec.ofNat 32 (i 1).val) 0#32)) 0#32) = 1#1
/-- It holds at the points t ≡ 0 (mod 125): t = 125·i + j and the condition says j = 0. -/
theorem hcond : ∀ t : Fin cfg2.N, cond (grid2.coords t) ↔ t.val % 125 = 0 := Cert.SegSum.firstTile_iff

/-! ## No window is idle -/

theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl

/-! ## The memrefs the body is called on -/

/-- One staging buffer of the output window, through which its contents are stated. -/
abbrev VO : View sig .tc .vmem S1200x64 .f32 := (Memref.whole cc2_stg2_0 : Memref sig .tc .vmem S1200x64 .f32).view
abbrev ms_0 (t : Fin cfg2.N) : Memref sig .tc .vmem S1x9600 .i32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S9600x64 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1200x64 .f32 := win2_2.stage (cfg2.slots t 2)
abbrev hs_2 (t : Fin cfg2.N) : (ms_2 t).IsWhole := hstage2_2 ((cfg2.slots t 2).cast nbuf2_2)
/-- The running-sum scratch: a whole scoped buffer of the launch's own. -/
abbrev scM : Memref sig .tc .vmem S1200x64 .f32 := Memref.whole cc2_scratch0
abbrev VS : View sig .tc .vmem S1200x64 .f32 := scM.view

/-- What the body may use and need not describe, with the running-sum scratch split out: the scratch at some contents,
    every other scoped buffer that is no staging buffer of this launch unopened, and the generator register. -/
theorem PhiA_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM, owns_whole, bigSepL]
  try rfl

end Cert.Kernel.Region2

end
-- ==== Proof.Kernel.Region2.RunA.lean ====
/-
  Segment sum, one launch: the body run once at a point of the FIRST edge tile (j = 0).
  There the scratch is found at anything, is overwritten with zeros, and then receives zeros + (0/1 matrix) · messages;
  the output block's buffer, found at anything, receives a copy of the scratch. The run yields, for the output buffer and
  for the scratch, the list of pieces the stores left (last first), together with the fact that from whole buffers — the
  two inputs at given contents — the body runs to the end leaving the inputs as they were and those pieces written.
-/
import proofs.«425571_j63591285785042_1_alg».proof.Proof.Kernel.Region2.Base

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j = 0, on any whole buffers: the pieces it leaves in the output buffer (`.1`) and in the
    scratch (`.2.1`), and the run itself (`.2.2`). -/
noncomputable def kernelRun_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i)
    (x0 : Vec F S1x9600 .i32) (x1 : Vec F S9600x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__segment_sum_kernel i arg2 harg2 arg3 harg3 arg4 harg4 arg5 harg5) K } := by
  refine ⟨?_, ?_, fun E K => ?run⟩
  case run =>
    simp only [cc2__segment_sum_kernel_eq_skeleton]; unfold cc2__segment_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Region2

end
-- ==== Proof.Kernel.Region2.RunB.lean ====
/-
  Segment sum, one launch: the body run once at a point of a LATER edge tile (j ≠ 0).
  There the scratch is found at the running sum the point before left (xs) and receives xs + (0/1 matrix) · messages; the
  output block's buffer, found at anything, receives a copy of the scratch. Same shape of result as at j = 0.
-/
import proofs.«425571_j63591285785042_1_alg».proof.Proof.Kernel.Region2.RunA

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j ≠ 0, on any whole buffers, the scratch at `xs`: the pieces it leaves in the output buffer
    (`.1`) and in the scratch (`.2.1`), and the run itself (`.2.2`). -/
noncomputable def kernelRun_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i)
    (x0 : Vec F S1x9600 .i32) (x1 : Vec F S9600x64 .f32) (xs : Vec F S1200x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__segment_sum_kernel i arg2 harg2 arg3 harg3 arg4 harg4 arg5 harg5) K } := by
  refine ⟨?_, ?_, fun E K => ?run⟩
  case run =>
    simp only [cc2__segment_sum_kernel_eq_skeleton]; unfold cc2__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Region2

end
-- ==== Proof.Kernel.Region2.Data.lean ====
/-
  Segment sum, one launch: what the output block's buffer and the running-sum scratch hold after every grid point, and the
  proof data of the launch built on it.
  After point t = 125·i + j the pair (output buffer, scratch) is: at j = 0 what the first-tile run leaves from the two
  input blocks; at j ≠ 0 what the later-tile run leaves from the two input blocks and the scratch the point before left.
  The invariant between points holds the scratch at exactly that running sum (before the first point: at anything), every
  other scoped buffer unopened, and the generator register. The body obligation at a point is then the matching case's run.
-/
import proofs.«425571_j63591285785042_1_alg».proof.Proof.Kernel.Region2.RunB

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 the stores into the output buffer cover it. -/
theorem cover_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).1, y ∈ pc.1.set :=
  View.cover_of_tiledL (kernelRun_A c i arg2 harg2 arg3 harg3 arg4 harg4 arg5 harg5 hc x0 x1).1 S1200x64.size (by sl_kernel_rfl) y
/-- What the output buffer holds after a point with j = 0. -/
def out_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VO.read (Elt F) (VO.writes (Elt F) VO.junk (kernelRun_A c i arg2 harg2 arg3 harg3 arg4 harg4 arg5 harg5 hc x0 x1).1)
/-- At j = 0 the stores into the scratch cover it. -/
theorem scover_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).2.1, y ∈ pc.1.set :=
  View.cover_of_tiledL (kernelRun_A c i arg2 harg2 arg3 harg3 arg4 harg4 arg5 harg5 hc x0 x1).2.1 S1200x64.size (by sl_kernel_rfl) y
/-- What the scratch holds after a point with j = 0. -/
def sout_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VS.read (Elt F) (VS.writes (Elt F) VS.junk (kernelRun_A c i arg2 harg2 arg3 harg3 arg4 harg4 arg5 harg5 hc x0 x1).2.1)

/-- At j ≠ 0 the stores into the output buffer cover it. -/
theorem cover_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).1, y ∈ pc.1.set :=
  View.cover_of_tiledL (kernelRun_B c i arg2 harg2 arg3 harg3 arg4 harg4 arg5 harg5 hc x0 x1 xs).1 S1200x64.size (by sl_kernel_rfl) y
/-- What the output buffer holds after a point with j ≠ 0. -/
def out_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VO.read (Elt F) (VO.writes (Elt F) VO.junk (kernelRun_B c i arg2 harg2 arg3 harg3 arg4 harg4 arg5 harg5 hc x0 x1 xs).1)
/-- At j ≠ 0 the stores into the scratch cover it. -/
theorem scover_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).2.1, y ∈ pc.1.set :=
  View.cover_of_tiledL (kernelRun_B c i arg2 harg2 arg3 harg3 arg4 harg4 arg5 harg5 hc x0 x1 xs).2.1 S1200x64.size (by sl_kernel_rfl) y
/-- What the scratch holds after a point with j ≠ 0. -/
def sout_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VS.read (Elt F) (VS.writes (Elt F) VS.junk (kernelRun_B c i arg2 harg2 arg3 harg3 arg4 harg4 arg5 harg5 hc x0 x1 xs).2.1)

/-! ## The accumulation over the grid -/

/-- (output buffer, scratch) after the body at position `n`: the first-tile case where n ≡ 0 (mod 125), else the
    later-tile case over the scratch the position before left. -/
def outsAt (c : Dev nD) : (n : ℕ) → n < cfg2.N → Vec F S1200x64 .f32 × Vec F S1200x64 .f32
  | 0, hn => (out_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩),
      sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩))
  | n + 1, hn =>
    if h0 : (n + 1) % 125 = 0 then
      (out_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩),
        sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩))
    else
      (out_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2,
        sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2)

/-- At a point of the first edge tile. -/
theorem outsAt_A (c : Dev nD) (t : Fin cfg2.N) (h0 : t.val % 125 = 0) :
    outsAt V c t.val t.isLt = (out_A c (grid2.coords t) (ms_0 t) (hs_0 t) (ms_1 t) (hs_1 t) (ms_2 t) (hs_2 t) scM (Memref.isWhole_whole _) ((hcond t).mpr h0) (iblk V c 0 t) (iblk V c 1 t),
      sout_A c (grid2.coords t) (ms_0 t) (hs_0 t) (ms_1 t) (hs_1 t) (ms_2 t) (hs_2 t) scM (Memref.isWhole_whole _) ((hcond t).mpr h0) (iblk V c 0 t) (iblk V c 1 t)) := by
  obtain ⟨n, hn⟩ := t
  cases n with
  | zero => exact rfl
  | succ n => exact (dif_pos h0).trans rfl

/-- At a point of a later edge tile: over the scratch the point before left. -/
theorem outsAt_B (c : Dev nD) (t : Fin cfg2.N) (h0 : ¬t.val % 125 = 0) :
    outsAt V c t.val t.isLt = (out_B c (grid2.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2,
      sout_B c (grid2.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- Before position `n`: at n = 0 what the launch hands over (the scratch at anything); afterwards the scratch at the
    running sum position n − 1 left, every other scoped buffer unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The launch's proof data -/

/-- The arrays as the launch finds them; after the body at a point each input buffer at its block and the output buffer
    at the accumulation's first component; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their blocks; the closed form says whether the point is of the first
    edge tile; the invariant hands over the scratch (at anything at the very first point, else at the running sum) and
    takes it back at this point's running sum; the output buffer, found at anything, is left at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 125 = 0
  · rw [outsAt_A V c t h0]
    unfold out_A sout_A; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRun_A c (grid2.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
    · rw [PhiS_castSucc V c t, PhiS_pos V c _ _ hz]
      iintro ⟨⟨⟨HS, Hrest⟩, Hg⟩, Ho, ⟨%d0, H0⟩, ⟨%d1, H1⟩, ⟨%d2, H2⟩⟩
      iapply ((kernelRun_A c (grid2.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
  · rw [outsAt_B V c t h0]
    unfold out_B sout_B; (try dsimp only)
    have hz : t.val ≠ 0 := fun h => h0 (by rw [h])
    rw [PhiS_castSucc V c t, PhiS_pos V c _ _ hz]
    iintro ⟨⟨⟨HS, Hrest⟩, Hg⟩, Ho, ⟨%d0, H0⟩, ⟨%d1, H1⟩, ⟨%d2, H2⟩⟩
    iapply ((kernelRun_B c (grid2.coords t) _ _ _ _ _ _ _ _ (fun h => h0 ((hcond t).mp h)) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover_B c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _ _)

/-- The body obligation at every point. -/
theorem body_obligation (c : Dev nD) : BodyObligation (dat (F := F) V c) (defs₀ (F := F)) Variants.none () Set.univ := fun t => by
  rw [bigSep_W2, bigSep_W2]
  exact sound_body V c t

/-- What the launch hands over is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives it back, the running sum forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

/-- The same after the last point. -/
theorem hout (c : Dev nD) : (dat V c).Φ (Fin.last cfg2.N) ⊢ Pipeline.ΦA spec2 c :=
  Phi_out V c _ (by rw [Fin.val_last]; have : cfg2.N = 15625 := N_2; omega)

end Cert.Kernel.Region2

end
-- ==== Proof.Kernel.Run.lean ====
/-
  The whole program, run from the launch to the return.

  The program is four stretches of host operations around three segment-sum launches. Between two of these seven items
  a core holds every unscoped buffer whole at known contents, and the contents are a fold through the program: the
  launch memory; after a host stretch, the stretch's result on the contents before it; after a launch, the contents
  before it with the launch's three arrays at what its write-backs leave (the two inputs as found, the output at the
  accumulated blocks) and every other buffer as it was.
  A launch's invariant between grid points carries its running-sum scratch. It is entered from, and gives back, "every
  scoped buffer no window stages, at anything, beside the generator register": that is all a launch exchanges with
  the rest of the program, so the three launches thread through the same state between items.
  The run: every weakly fair execution terminates, and the final memory holds at EVERY unscoped buffer the last contents
  of the fold. An argument is a window of no launch and is written by no stretch, so the fold at an argument walks back
  to the launch memory: the arguments end as launched.
-/
import proofs.«425571_j63591285785042_1_alg».proof.Proof.Kernel.Region0.Data
import proofs.«425571_j63591285785042_1_alg».proof.Proof.Kernel.Region1.Data
import proofs.«425571_j63591285785042_1_alg».proof.Proof.Kernel.Region2.Data
import proofs.«425571_j63591285785042_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core c's buffers at launch. -/
abbrev W0 : Dev nD → Valuation τ sig (Elt F) := fun c b => (s₀ m ρ).mem ((c : Dev nD), b)
/-- After the first host stretch: what launch 0 is entered from. -/
abbrev W1 : Dev nD → Valuation τ sig (Elt F) := fun c => StableHlo.after hostOps0 (W0 m ρ c)
/-- The same, read at the TensorCore's references (what launch 0's proof data take). -/
abbrev Vin0 : (c : Dev nD) → (b : Ref sig .tc) → Buf (Elt F) ((c : Thread nD τ).loc b) := fun c b => W1 m ρ c b
/-- After launch 0: its arrays at what the write-backs leave, every other buffer as entered. -/
def W2 (c : Dev nD) : Valuation τ sig (Elt F) :=
  Pipeline.withArrays spec0 c (W1 m ρ c) fun w => (Region0.dat (Vin0 m ρ) c).arrAt w cfg0.N
theorem W2_arr (c : Dev nD) (w : Fin cfg0.W) :
    W2 m ρ c (Proc.devRef .tc (Pipeline.arrRef spec0 w)) = (Region0.dat (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (launch 0's exit contents). -/
abbrev Vout0 : (c : Dev nD) → (b : Ref sig .tc) → Buf (Elt F) ((c : Thread nD τ).loc b) := fun c b => W2 m ρ c b
/-- At launch 0's exit each of its arrays holds what the write-backs leave, and every other buffer what it held at entry. -/
theorem hF0 (c : Dev nD) (w : Fin cfg0.W) : (Region0.dat (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the second host stretch: what launch 1 is entered from. -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b
/-- After launch 1. -/
def W4 (c : Dev nD) : Valuation τ sig (Elt F) :=
  Pipeline.withArrays spec1 c (W3 m ρ c) fun w => (Region1.dat (Vin1 m ρ) c).arrAt w cfg1.N
theorem W4_arr (c : Dev nD) (w : Fin cfg1.W) :
    W4 m ρ c (Proc.devRef .tc (Pipeline.arrRef spec1 w)) = (Region1.dat (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (Region1.dat (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-- After the third host stretch: what launch 2 is entered from. -/
abbrev W5 : Dev nD → Valuation τ sig (Elt F) := fun c => StableHlo.after hostOps2 (W4 m ρ c)
abbrev Vin2 : (c : Dev nD) → (b : Ref sig .tc) → Buf (Elt F) ((c : Thread nD τ).loc b) := fun c b => W5 m ρ c b
/-- After launch 2. -/
def W6 (c : Dev nD) : Valuation τ sig (Elt F) :=
  Pipeline.withArrays spec2 c (W5 m ρ c) fun w => (Region2.dat (Vin2 m ρ) c).arrAt w cfg2.N
theorem W6_arr (c : Dev nD) (w : Fin cfg2.W) :
    W6 m ρ c (Proc.devRef .tc (Pipeline.arrRef spec2 w)) = (Region2.dat (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vout2 : (c : Dev nD) → (b : Ref sig .tc) → Buf (Elt F) ((c : Thread nD τ).loc b) := fun c b => W6 m ρ c b
theorem hF2 (c : Dev nD) (w : Fin cfg2.W) : (Region2.dat (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-! ### A host stretch leaves every buffer it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-! ### The arguments end as launched: no host stretch writes one and none is a launch's array, so the fold at an
    argument walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => Region0.dat (Vin0 m ρ) c
  | ⟨1, _⟩ => fun c => Region1.dat (Vin1 m ρ) c
  | ⟨2, _⟩ => fun c => Region2.dat (Vin2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: over the unscoped references from the contents W, R riding along; it leaves those
    references at the stretch's result on W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m ρ c) ∗ ∃ r, prngReg c r)

/-! ## The launches as items -/

set_option backward.isDefEq.respectTransparency.types false in
/-- LAUNCH 0 over the thread state: entered from every unscoped buffer at W1, left at W2. Its arrays are split out
    of the unscoped buffers and put back at the exit contents; the generator register and the scoped buffers no window
    stages go into the launch's invariant before the first point and come back after the last; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (Vin0 m ρ) c)
    unfold Pipeline.ΦA
    iintro ⟨Hp, -, Hr⟩
    isplitl [Hr]; · iexact Hr
    iexact Hp
  hout c := by
    rw [Pipeline.ownSems0_none]
    refine BIBase.Entails.trans (Region0.hout (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at W3, left at W4. Its arrays are split out
    of the unscoped buffers and put back at the exit contents; the generator register and the scoped buffers no window
    stages go into the launch's invariant before the first point and come back after the last; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (Vin1 m ρ) c)
    unfold Pipeline.ΦA
    iintro ⟨Hp, -, Hr⟩
    isplitl [Hr]; · iexact Hr
    iexact Hp
  hout c := by
    rw [Pipeline.ownSems0_none]
    refine BIBase.Entails.trans (Region1.hout (Vin1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at W5, left at W6. Its arrays are split out
    of the unscoped buffers and put back at the exit contents; the generator register and the scoped buffers no window
    stages go into the launch's invariant before the first point and come back after the last; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region2.hin (Vin2 m ρ) c)
    unfold Pipeline.ΦA
    iintro ⟨Hp, -, Hr⟩
    isplitl [Hr]; · iexact Hr
    iexact Hp
  hout c := by
    rw [Pipeline.ownSems0_none]
    refine BIBase.Entails.trans (Region2.hout (Vin2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

/-- The program's 7 items in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program IS the run of the items. -/
theorem main_run (c : Dev nD) : main (F := F) c = Pipeline.Seg.run (items m ρ) := (main_chain c).trans (by chain_rfl)

set_option backward.isDefEq.respectTransparency.types false in
/-- THE RUN: from any memory with zero counters every weakly fair execution of the program on the TensorCores
    terminates, nothing faulting, and every final memory holds at every unscoped buffer the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: the run, read at the five arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

/-- info: 'Cert.Kernel.Run.frame' depends on axioms: [propext, Classical.choice, Quot.sound] -/
#guard_msgs in #print axioms frame

end Cert.Kernel.Run

end
-- ==== Proof.KernelIdeal.Region0.Base.lean ====
/-
  Segment sum, one launch: the setting every later module of this launch is stated in.
  The launch walks a 125 × 125 grid, point t = 125·i + j: row tile i of the 150000 destination rows (1200 rows each)
  against edge tile j of the 1200000 edges (9600 edges each). At j = 0 the body zeroes a 1200 × 64 scratch; at every
  point it adds to the scratch the product of the 0/1 matrix [row id = destination of edge] with the tile's messages,
  and copies the scratch into the output block of row tile i, which is written back after j = 124.
  Here: a window's block at a point read off the arrays the launch finds (a parameter V), the fact that an input
  window's staging buffer holds that block at every point, the branch condition in closed form (j = 0 iff t ≡ 0 mod 125),
  that no window is idle, and the scratch split out of the scoped buffers the body may use.
-/
import proofs.«425571_j63591285785042_1_alg».proof.Proof.Gen.KernelIdeal.Launch
import proofs.«425571_j63591285785042_1_alg».proof.Proof.Gen.KernelIdeal.Skeleton
import proofs.«425571_j63591285785042_1_alg».proof.Proof.Gen.KernelIdeal.Points
import proofs.«425571_j63591285785042_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The destinations' staging buffer holds edge tile j's destinations at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The messages' staging buffer holds edge tile j's messages at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch: the scratch is zeroed exactly at the first edge tile -/

/-- The body's condition "edge tile index is 0", over the grid coordinates. -/
abbrev cond (i : grid0.Coords) : Prop := (Scalar.cmpi .ne (Scalar.extui (Scalar.cmpi .eq (BitVec.ofNat 32 (i 1).val) 0#32)) 0#32) = 1#1
/-- It holds at the points t ≡ 0 (mod 125): t = 125·i + j and the condition says j = 0. -/
theorem hcond : ∀ t : Fin cfg0.N, cond (grid0.coords t) ↔ t.val % 125 = 0 := Cert.SegSum.firstTile_iff

/-! ## No window is idle -/

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl

/-! ## The memrefs the body is called on -/

/-- One staging buffer of the output window, through which its contents are stated. -/
abbrev VO : View sig .tc .vmem S1200x64 .f32 := (Memref.whole cc0_stg2_0 : Memref sig .tc .vmem S1200x64 .f32).view
abbrev ms_0 (t : Fin cfg0.N) : Memref sig .tc .vmem S1x9600 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S9600x64 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1200x64 .f32 := win0_2.stage (cfg0.slots t 2)
abbrev hs_2 (t : Fin cfg0.N) : (ms_2 t).IsWhole := hstage0_2 ((cfg0.slots t 2).cast nbuf0_2)
/-- The running-sum scratch: a whole scoped buffer of the launch's own. -/
abbrev scM : Memref sig .tc .vmem S1200x64 .f32 := Memref.whole cc0_scratch0
abbrev VS : View sig .tc .vmem S1200x64 .f32 := scM.view

/-- What the body may use and need not describe, with the running-sum scratch split out: the scratch at some contents,
    every other scoped buffer that is no staging buffer of this launch unopened, and the generator register. -/
theorem PhiA_eq (c : Dev nD) :
    (Pipeline.ΦA spec0 c : sProp 𝕄)
      = iprop(iprop((∃ d, owns (c : Thread nD τ) scM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM, owns_whole, bigSepL]
  try rfl

end Cert.KernelIdeal.Region0

end
-- ==== Proof.KernelIdeal.Region0.RunA.lean ====
/-
  Segment sum, one launch: the body run once at a point of the FIRST edge tile (j = 0).
  There the scratch is found at anything, is overwritten with zeros, and then receives zeros + (0/1 matrix) · messages;
  the output block's buffer, found at anything, receives a copy of the scratch. The run yields, for the output buffer and
  for the scratch, the list of pieces the stores left (last first), together with the fact that from whole buffers — the
  two inputs at given contents — the body runs to the end leaving the inputs as they were and those pieces written.
-/
import proofs.«425571_j63591285785042_1_alg».proof.Proof.KernelIdeal.Region0.Base

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j = 0, on any whole buffers: the pieces it leaves in the output buffer (`.1`) and in the
    scratch (`.2.1`), and the run itself (`.2.2`). -/
noncomputable def kernelRun_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i)
    (x0 : Vec F S1x9600 .i32) (x1 : Vec F S9600x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Region0

end
-- ==== Proof.KernelIdeal.Region0.RunB.lean ====
/-
  Segment sum, one launch: the body run once at a point of a LATER edge tile (j ≠ 0).
  There the scratch is found at the running sum the point before left (xs) and receives xs + (0/1 matrix) · messages; the
  output block's buffer, found at anything, receives a copy of the scratch. Same shape of result as at j = 0.
-/
import proofs.«425571_j63591285785042_1_alg».proof.Proof.KernelIdeal.Region0.RunA

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j ≠ 0, on any whole buffers, the scratch at `xs`: the pieces it leaves in the output buffer
    (`.1`) and in the scratch (`.2.1`), and the run itself (`.2.2`). -/
noncomputable def kernelRun_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i)
    (x0 : Vec F S1x9600 .i32) (x1 : Vec F S9600x64 .f32) (xs : Vec F S1200x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Region0

end
-- ==== Proof.KernelIdeal.Region0.Data.lean ====
/-
  Segment sum, one launch: what the output block's buffer and the running-sum scratch hold after every grid point, and the
  proof data of the launch built on it.
  After point t = 125·i + j the pair (output buffer, scratch) is: at j = 0 what the first-tile run leaves from the two
  input blocks; at j ≠ 0 what the later-tile run leaves from the two input blocks and the scratch the point before left.
  The invariant between points holds the scratch at exactly that running sum (before the first point: at anything), every
  other scoped buffer unopened, and the generator register. The body obligation at a point is then the matching case's run.
-/
import proofs.«425571_j63591285785042_1_alg».proof.Proof.KernelIdeal.Region0.RunB

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 the stores into the output buffer cover it. -/
theorem cover_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).1, y ∈ pc.1.set :=
  View.cover_of_tiledL (kernelRun_A c i arg2 harg2 arg3 harg3 arg4 harg4 arg5 harg5 hc x0 x1).1 S1200x64.size (by sl_kernel_rfl) y
/-- What the output buffer holds after a point with j = 0. -/
def out_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VO.read (Elt F) (VO.writes (Elt F) VO.junk (kernelRun_A c i arg2 harg2 arg3 harg3 arg4 harg4 arg5 harg5 hc x0 x1).1)
/-- At j = 0 the stores into the scratch cover it. -/
theorem scover_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).2.1, y ∈ pc.1.set :=
  View.cover_of_tiledL (kernelRun_A c i arg2 harg2 arg3 harg3 arg4 harg4 arg5 harg5 hc x0 x1).2.1 S1200x64.size (by sl_kernel_rfl) y
/-- What the scratch holds after a point with j = 0. -/
def sout_A (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VS.read (Elt F) (VS.writes (Elt F) VS.junk (kernelRun_A c i arg2 harg2 arg3 harg3 arg4 harg4 arg5 harg5 hc x0 x1).2.1)

/-- At j ≠ 0 the stores into the output buffer cover it. -/
theorem cover_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).1, y ∈ pc.1.set :=
  View.cover_of_tiledL (kernelRun_B c i arg2 harg2 arg3 harg3 arg4 harg4 arg5 harg5 hc x0 x1 xs).1 S1200x64.size (by sl_kernel_rfl) y
/-- What the output buffer holds after a point with j ≠ 0. -/
def out_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VO.read (Elt F) (VO.writes (Elt F) VO.junk (kernelRun_B c i arg2 harg2 arg3 harg3 arg4 harg4 arg5 harg5 hc x0 x1 xs).1)
/-- At j ≠ 0 the stores into the scratch cover it. -/
theorem scover_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).2.1, y ∈ pc.1.set :=
  View.cover_of_tiledL (kernelRun_B c i arg2 harg2 arg3 harg3 arg4 harg4 arg5 harg5 hc x0 x1 xs).2.1 S1200x64.size (by sl_kernel_rfl) y
/-- What the scratch holds after a point with j ≠ 0. -/
def sout_B (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VS.read (Elt F) (VS.writes (Elt F) VS.junk (kernelRun_B c i arg2 harg2 arg3 harg3 arg4 harg4 arg5 harg5 hc x0 x1 xs).2.1)

/-! ## The accumulation over the grid -/

/-- (output buffer, scratch) after the body at position `n`: the first-tile case where n ≡ 0 (mod 125), else the
    later-tile case over the scratch the position before left. -/
def outsAt (c : Dev nD) : (n : ℕ) → n < cfg0.N → Vec F S1200x64 .f32 × Vec F S1200x64 .f32
  | 0, hn => (out_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩),
      sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩))
  | n + 1, hn =>
    if h0 : (n + 1) % 125 = 0 then
      (out_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩),
        sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩))
    else
      (out_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2,
        sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2)

/-- At a point of the first edge tile. -/
theorem outsAt_A (c : Dev nD) (t : Fin cfg0.N) (h0 : t.val % 125 = 0) :
    outsAt V c t.val t.isLt = (out_A c (grid0.coords t) (ms_0 t) (hs_0 t) (ms_1 t) (hs_1 t) (ms_2 t) (hs_2 t) scM (Memref.isWhole_whole _) ((hcond t).mpr h0) (iblk V c 0 t) (iblk V c 1 t),
      sout_A c (grid0.coords t) (ms_0 t) (hs_0 t) (ms_1 t) (hs_1 t) (ms_2 t) (hs_2 t) scM (Memref.isWhole_whole _) ((hcond t).mpr h0) (iblk V c 0 t) (iblk V c 1 t)) := by
  obtain ⟨n, hn⟩ := t
  cases n with
  | zero => exact rfl
  | succ n => exact (dif_pos h0).trans rfl

/-- At a point of a later edge tile: over the scratch the point before left. -/
theorem outsAt_B (c : Dev nD) (t : Fin cfg0.N) (h0 : ¬t.val % 125 = 0) :
    outsAt V c t.val t.isLt = (out_B c (grid0.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2,
      sout_B c (grid0.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- Before position `n`: at n = 0 what the launch hands over (the scratch at anything); afterwards the scratch at the
    running sum position n − 1 left, every other scoped buffer unopened, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The launch's proof data -/

/-- The arrays as the launch finds them; after the body at a point each input buffer at its block and the output buffer
    at the accumulation's first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their blocks; the closed form says whether the point is of the first
    edge tile; the invariant hands over the scratch (at anything at the very first point, else at the running sum) and
    takes it back at this point's running sum; the output buffer, found at anything, is left at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 125 = 0
  · rw [outsAt_A V c t h0]
    unfold out_A sout_A; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRun_A c (grid0.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
    · rw [PhiS_castSucc V c t, PhiS_pos V c _ _ hz]
      iintro ⟨⟨⟨HS, Hrest⟩, Hg⟩, Ho, ⟨%d0, H0⟩, ⟨%d1, H1⟩, ⟨%d2, H2⟩⟩
      iapply ((kernelRun_A c (grid0.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
  · rw [outsAt_B V c t h0]
    unfold out_B sout_B; (try dsimp only)
    have hz : t.val ≠ 0 := fun h => h0 (by rw [h])
    rw [PhiS_castSucc V c t, PhiS_pos V c _ _ hz]
    iintro ⟨⟨⟨HS, Hrest⟩, Hg⟩, Ho, ⟨%d0, H0⟩, ⟨%d1, H1⟩, ⟨%d2, H2⟩⟩
    iapply ((kernelRun_B c (grid0.coords t) _ _ _ _ _ _ _ _ (fun h => h0 ((hcond t).mp h)) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover_B c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _ _)

/-- The body obligation at every point. -/
theorem body_obligation (c : Dev nD) : BodyObligation (dat (F := F) V c) (defs₀ (F := F)) Variants.none () Set.univ := fun t => by
  rw [bigSep_W0, bigSep_W0]
  exact sound_body V c t

/-- What the launch hands over is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives it back, the running sum forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 15625 := N_0; omega)

end Cert.KernelIdeal.Region0

end
-- ==== Proof.KernelIdeal.Region1.Base.lean ====
/-
  Segment sum, one launch: the setting every later module of this launch is stated in.
  The launch walks a 125 × 125 grid, point t = 125·i + j: row tile i of the 150000 destination rows (1200 rows each)
  against edge tile j of the 1200000 edges (9600 edges each). At j = 0 the body zeroes a 1200 × 64 scratch; at every
  point it adds to the scratch the product of the 0/1 matrix [row id = destination of edge] with the tile's messages,
  and copies the scratch into the output block of row tile i, which is written back after j = 124.
  Here: a window's block at a point read off the arrays the launch finds (a parameter V), the fact that an input
  window's staging buffer holds that block at every point, the branch condition in closed form (j = 0 iff t ≡ 0 mod 125),
  that no window is idle, and the scratch split out of the scoped buffers the body may use.
-/
import proofs.«425571_j63591285785042_1_alg».proof.Proof.Gen.KernelIdeal.Launch
import proofs.«425571_j63591285785042_1_alg».proof.Proof.Gen.KernelIdeal.Skeleton
import proofs.«425571_j63591285785042_1_alg».proof.Proof.Gen.KernelIdeal.Points
import proofs.«425571_j63591285785042_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The destinations' staging buffer holds edge tile j's destinations at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The messages' staging buffer holds edge tile j's messages at every point. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch: the scratch is zeroed exactly at the first edge tile -/

/-- The body's condition "edge tile index is 0", over the grid coordinates. -/
abbrev cond (i : grid1.Coords) : Prop := (Scalar.cmpi .ne (Scalar.extui (Scalar.cmpi .eq (BitVec.ofNat 32 (i 1).val) 0#32)) 0#32) = 1#1
/-- It holds at the points t ≡ 0 (mod 125): t = 125·i + j and the condition says j = 0. -/
theorem hcond : ∀ t : Fin cfg1.N, cond (grid1.coords t) ↔ t.val % 125 = 0 := Cert.SegSum.firstTile_iff

/-! ## No window is idle -/

theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl

/-! ## The memrefs the body is called on -/

/-- One staging buffer of the output window, through which its contents are stated. -/
abbrev VO : View sig .tc .vmem S1200x64 .f32 := (Memref.whole cc1_stg2_0 : Memref sig .tc .vmem S1200x64 .f32).view
abbrev ms_0 (t : Fin cfg1.N) : Memref sig .tc .vmem S1x9600 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S9600x64 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1200x64 .f32 := win1_2.stage (cfg1.slots t 2)
abbrev hs_2 (t : Fin cfg1.N) : (ms_2 t).IsWhole := hstage1_2 ((cfg1.slots t 2).cast nbuf1_2)
/-- The running-sum scratch: a whole scoped buffer of the launch's own. -/
abbrev scM : Memref sig .tc .vmem S1200x64 .f32 := Memref.whole cc1_scratch0
abbrev VS : View sig .tc .vmem S1200x64 .f32 := scM.view

/-- What the body may use and need not describe, with the running-sum scratch split out: the scratch at some contents,
    every other scoped buffer that is no staging buffer of this launch unopened, and the generator register. -/
theorem PhiA_eq (c : Dev nD) :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM, owns_whole, bigSepL]
  try rfl

end Cert.KernelIdeal.Region1

end
-- ==== Proof.KernelIdeal.Region1.RunA.lean ====
/-
  Segment sum, one launch: the body run once at a point of the FIRST edge tile (j = 0).
  There the scratch is found at anything, is overwritten with zeros, and then receives zeros + (0/1 matrix) · messages;
  the output block's buffer, found at anything, receives a copy of the scratch. The run yields, for the output buffer and
  for the scratch, the list of pieces the stores left (last first), together with the fact that from whole buffers — the
  two inputs at given contents — the body runs to the end leaving the inputs as they were and those pieces written.
-/
import proofs.«425571_j63591285785042_1_alg».proof.Proof.KernelIdeal.Region1.Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j = 0, on any whole buffers: the pieces it leaves in the output buffer (`.1`) and in the
    scratch (`.2.1`), and the run itself (`.2.2`). -/
noncomputable def kernelRun_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i)
    (x0 : Vec F S1x9600 .i32) (x1 : Vec F S9600x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨?_, ?_, fun E K => ?run⟩
  case run =>
    simp only [cc1__segment_sum_kernel_eq_skeleton]; unfold cc1__segment_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Region1

end
-- ==== Proof.KernelIdeal.Region1.RunB.lean ====
/-
  Segment sum, one launch: the body run once at a point of a LATER edge tile (j ≠ 0).
  There the scratch is found at the running sum the point before left (xs) and receives xs + (0/1 matrix) · messages; the
  output block's buffer, found at anything, receives a copy of the scratch. Same shape of result as at j = 0.
-/
import proofs.«425571_j63591285785042_1_alg».proof.Proof.KernelIdeal.Region1.RunA

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j ≠ 0, on any whole buffers, the scratch at `xs`: the pieces it leaves in the output buffer
    (`.1`) and in the scratch (`.2.1`), and the run itself (`.2.2`). -/
noncomputable def kernelRun_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i)
    (x0 : Vec F S1x9600 .i32) (x1 : Vec F S9600x64 .f32) (xs : Vec F S1200x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__segment_sum_kernel i arg2 harg2 arg3 harg3 arg4 harg4 arg5 harg5) K } := by
  refine ⟨?_, ?_, fun E K => ?run⟩
  case run =>
    simp only [cc1__segment_sum_kernel_eq_skeleton]; unfold cc1__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Region1

end
-- ==== Proof.KernelIdeal.Region1.Data.lean ====
/-
  Segment sum, one launch: what the output block's buffer and the running-sum scratch hold after every grid point, and the
  proof data of the launch built on it.
  After point t = 125·i + j the pair (output buffer, scratch) is: at j = 0 what the first-tile run leaves from the two
  input blocks; at j ≠ 0 what the later-tile run leaves from the two input blocks and the scratch the point before left.
  The invariant between points holds the scratch at exactly that running sum (before the first point: at anything), every
  other scoped buffer unopened, and the generator register. The body obligation at a point is then the matching case's run.
-/
import proofs.«425571_j63591285785042_1_alg».proof.Proof.KernelIdeal.Region1.RunB

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 the stores into the output buffer cover it. -/
theorem cover_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).1, y ∈ pc.1.set :=
  View.cover_of_tiledL (kernelRun_A c i arg2 harg2 arg3 harg3 arg4 harg4 arg5 harg5 hc x0 x1).1 S1200x64.size (by sl_kernel_rfl) y
/-- What the output buffer holds after a point with j = 0. -/
def out_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VO.read (Elt F) (VO.writes (Elt F) VO.junk (kernelRun_A c i arg2 harg2 arg3 harg3 arg4 harg4 arg5 harg5 hc x0 x1).1)
/-- At j = 0 the stores into the scratch cover it. -/
theorem scover_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).2.1, y ∈ pc.1.set :=
  View.cover_of_tiledL (kernelRun_A c i arg2 harg2 arg3 harg3 arg4 harg4 arg5 harg5 hc x0 x1).2.1 S1200x64.size (by sl_kernel_rfl) y
/-- What the scratch holds after a point with j = 0. -/
def sout_A (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VS.read (Elt F) (VS.writes (Elt F) VS.junk (kernelRun_A c i arg2 harg2 arg3 harg3 arg4 harg4 arg5 harg5 hc x0 x1).2.1)

/-- At j ≠ 0 the stores into the output buffer cover it. -/
theorem cover_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).1, y ∈ pc.1.set :=
  View.cover_of_tiledL (kernelRun_B c i arg2 harg2 arg3 harg3 arg4 harg4 arg5 harg5 hc x0 x1 xs).1 S1200x64.size (by sl_kernel_rfl) y
/-- What the output buffer holds after a point with j ≠ 0. -/
def out_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VO.read (Elt F) (VO.writes (Elt F) VO.junk (kernelRun_B c i arg2 harg2 arg3 harg3 arg4 harg4 arg5 harg5 hc x0 x1 xs).1)
/-- At j ≠ 0 the stores into the scratch cover it. -/
theorem scover_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).2.1, y ∈ pc.1.set :=
  View.cover_of_tiledL (kernelRun_B c i arg2 harg2 arg3 harg3 arg4 harg4 arg5 harg5 hc x0 x1 xs).2.1 S1200x64.size (by sl_kernel_rfl) y
/-- What the scratch holds after a point with j ≠ 0. -/
def sout_B (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VS.read (Elt F) (VS.writes (Elt F) VS.junk (kernelRun_B c i arg2 harg2 arg3 harg3 arg4 harg4 arg5 harg5 hc x0 x1 xs).2.1)

/-! ## The accumulation over the grid -/

/-- (output buffer, scratch) after the body at position `n`: the first-tile case where n ≡ 0 (mod 125), else the
    later-tile case over the scratch the position before left. -/
def outsAt (c : Dev nD) : (n : ℕ) → n < cfg1.N → Vec F S1200x64 .f32 × Vec F S1200x64 .f32
  | 0, hn => (out_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩),
      sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩))
  | n + 1, hn =>
    if h0 : (n + 1) % 125 = 0 then
      (out_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩),
        sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩))
    else
      (out_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2,
        sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2)

/-- At a point of the first edge tile. -/
theorem outsAt_A (c : Dev nD) (t : Fin cfg1.N) (h0 : t.val % 125 = 0) :
    outsAt V c t.val t.isLt = (out_A c (grid1.coords t) (ms_0 t) (hs_0 t) (ms_1 t) (hs_1 t) (ms_2 t) (hs_2 t) scM (Memref.isWhole_whole _) ((hcond t).mpr h0) (iblk V c 0 t) (iblk V c 1 t),
      sout_A c (grid1.coords t) (ms_0 t) (hs_0 t) (ms_1 t) (hs_1 t) (ms_2 t) (hs_2 t) scM (Memref.isWhole_whole _) ((hcond t).mpr h0) (iblk V c 0 t) (iblk V c 1 t)) := by
  obtain ⟨n, hn⟩ := t
  cases n with
  | zero => exact rfl
  | succ n => exact (dif_pos h0).trans rfl

/-- At a point of a later edge tile: over the scratch the point before left. -/
theorem outsAt_B (c : Dev nD) (t : Fin cfg1.N) (h0 : ¬t.val % 125 = 0) :
    outsAt V c t.val t.isLt = (out_B c (grid1.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2,
      sout_B c (grid1.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- Before position `n`: at n = 0 what the launch hands over (the scratch at anything); afterwards the scratch at the
    running sum position n − 1 left, every other scoped buffer unopened, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The launch's proof data -/

/-- The arrays as the launch finds them; after the body at a point each input buffer at its block and the output buffer
    at the accumulation's first component; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their blocks; the closed form says whether the point is of the first
    edge tile; the invariant hands over the scratch (at anything at the very first point, else at the running sum) and
    takes it back at this point's running sum; the output buffer, found at anything, is left at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 125 = 0
  · rw [outsAt_A V c t h0]
    unfold out_A sout_A; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRun_A c (grid1.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
    · rw [PhiS_castSucc V c t, PhiS_pos V c _ _ hz]
      iintro ⟨⟨⟨HS, Hrest⟩, Hg⟩, Ho, ⟨%d0, H0⟩, ⟨%d1, H1⟩, ⟨%d2, H2⟩⟩
      iapply ((kernelRun_A c (grid1.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
  · rw [outsAt_B V c t h0]
    unfold out_B sout_B; (try dsimp only)
    have hz : t.val ≠ 0 := fun h => h0 (by rw [h])
    rw [PhiS_castSucc V c t, PhiS_pos V c _ _ hz]
    iintro ⟨⟨⟨HS, Hrest⟩, Hg⟩, Ho, ⟨%d0, H0⟩, ⟨%d1, H1⟩, ⟨%d2, H2⟩⟩
    iapply ((kernelRun_B c (grid1.coords t) _ _ _ _ _ _ _ _ (fun h => h0 ((hcond t).mp h)) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover_B c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _ _)

/-- The body obligation at every point. -/
theorem body_obligation (c : Dev nD) : BodyObligation (dat (F := F) V c) (defs₀ (F := F)) Variants.none () Set.univ := fun t => by
  rw [bigSep_W1, bigSep_W1]
  exact sound_body V c t

/-- What the launch hands over is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives it back, the running sum forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

/-- The same after the last point. -/
theorem hout (c : Dev nD) : (dat V c).Φ (Fin.last cfg1.N) ⊢ Pipeline.ΦA spec1 c :=
  Phi_out V c _ (by rw [Fin.val_last]; have : cfg1.N = 15625 := N_1; omega)

end Cert.KernelIdeal.Region1

end
-- ==== Proof.KernelIdeal.Region2.Base.lean ====
/-
  Segment sum, one launch: the setting every later module of this launch is stated in.
  The launch walks a 125 × 125 grid, point t = 125·i + j: row tile i of the 150000 destination rows (1200 rows each)
  against edge tile j of the 1200000 edges (9600 edges each). At j = 0 the body zeroes a 1200 × 64 scratch; at every
  point it adds to the scratch the product of the 0/1 matrix [row id = destination of edge] with the tile's messages,
  and copies the scratch into the output block of row tile i, which is written back after j = 124.
  Here: a window's block at a point read off the arrays the launch finds (a parameter V), the fact that an input
  window's staging buffer holds that block at every point, the branch condition in closed form (j = 0 iff t ≡ 0 mod 125),
  that no window is idle, and the scratch split out of the scoped buffers the body may use.
-/
import proofs.«425571_j63591285785042_1_alg».proof.Proof.Gen.KernelIdeal.Launch
import proofs.«425571_j63591285785042_1_alg».proof.Proof.Gen.KernelIdeal.Skeleton
import proofs.«425571_j63591285785042_1_alg».proof.Proof.Gen.KernelIdeal.Points
import proofs.«425571_j63591285785042_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The destinations' staging buffer holds edge tile j's destinations at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The messages' staging buffer holds edge tile j's messages at every point. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch: the scratch is zeroed exactly at the first edge tile -/

/-- The body's condition "edge tile index is 0", over the grid coordinates. -/
abbrev cond (i : grid2.Coords) : Prop := (Scalar.cmpi .ne (Scalar.extui (Scalar.cmpi .eq (BitVec.ofNat 32 (i 1).val) 0#32)) 0#32) = 1#1
/-- It holds at the points t ≡ 0 (mod 125): t = 125·i + j and the condition says j = 0. -/
theorem hcond : ∀ t : Fin cfg2.N, cond (grid2.coords t) ↔ t.val % 125 = 0 := Cert.SegSum.firstTile_iff

/-! ## No window is idle -/

theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl

/-! ## The memrefs the body is called on -/

/-- One staging buffer of the output window, through which its contents are stated. -/
abbrev VO : View sig .tc .vmem S1200x64 .f32 := (Memref.whole cc2_stg2_0 : Memref sig .tc .vmem S1200x64 .f32).view
abbrev ms_0 (t : Fin cfg2.N) : Memref sig .tc .vmem S1x9600 .i32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S9600x64 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1200x64 .f32 := win2_2.stage (cfg2.slots t 2)
abbrev hs_2 (t : Fin cfg2.N) : (ms_2 t).IsWhole := hstage2_2 ((cfg2.slots t 2).cast nbuf2_2)
/-- The running-sum scratch: a whole scoped buffer of the launch's own. -/
abbrev scM : Memref sig .tc .vmem S1200x64 .f32 := Memref.whole cc2_scratch0
abbrev VS : View sig .tc .vmem S1200x64 .f32 := scM.view

/-- What the body may use and need not describe, with the running-sum scratch split out: the scratch at some contents,
    every other scoped buffer that is no staging buffer of this launch unopened, and the generator register. -/
theorem PhiA_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM, owns_whole, bigSepL]
  try rfl

end Cert.KernelIdeal.Region2

end
-- ==== Proof.KernelIdeal.Region2.RunA.lean ====
/-
  Segment sum, one launch: the body run once at a point of the FIRST edge tile (j = 0).
  There the scratch is found at anything, is overwritten with zeros, and then receives zeros + (0/1 matrix) · messages;
  the output block's buffer, found at anything, receives a copy of the scratch. The run yields, for the output buffer and
  for the scratch, the list of pieces the stores left (last first), together with the fact that from whole buffers — the
  two inputs at given contents — the body runs to the end leaving the inputs as they were and those pieces written.
-/
import proofs.«425571_j63591285785042_1_alg».proof.Proof.KernelIdeal.Region2.Base

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j = 0, on any whole buffers: the pieces it leaves in the output buffer (`.1`) and in the
    scratch (`.2.1`), and the run itself (`.2.2`). -/
noncomputable def kernelRun_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i)
    (x0 : Vec F S1x9600 .i32) (x1 : Vec F S9600x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__segment_sum_kernel i arg2 harg2 arg3 harg3 arg4 harg4 arg5 harg5) K } := by
  refine ⟨?_, ?_, fun E K => ?run⟩
  case run =>
    simp only [cc2__segment_sum_kernel_eq_skeleton]; unfold cc2__segment_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Region2

end
-- ==== Proof.KernelIdeal.Region2.RunB.lean ====
/-
  Segment sum, one launch: the body run once at a point of a LATER edge tile (j ≠ 0).
  There the scratch is found at the running sum the point before left (xs) and receives xs + (0/1 matrix) · messages; the
  output block's buffer, found at anything, receives a copy of the scratch. Same shape of result as at j = 0.
-/
import proofs.«425571_j63591285785042_1_alg».proof.Proof.KernelIdeal.Region2.RunA

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with j ≠ 0, on any whole buffers, the scratch at `xs`: the pieces it leaves in the output buffer
    (`.1`) and in the scratch (`.2.1`), and the run itself (`.2.2`). -/
noncomputable def kernelRun_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i)
    (x0 : Vec F S1x9600 .i32) (x1 : Vec F S9600x64 .f32) (xs : Vec F S1200x64 .f32) :
    Σ' (L2 : List (View.Piece (Elt F) S1200x64 .f32)), { LS : List (View.Piece (Elt F) S1200x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__segment_sum_kernel i arg2 harg2 arg3 harg3 arg4 harg4 arg5 harg5) K } := by
  refine ⟨?_, ?_, fun E K => ?run⟩
  case run =>
    simp only [cc2__segment_sum_kernel_eq_skeleton]; unfold cc2__segment_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Region2

end
-- ==== Proof.KernelIdeal.Region2.Data.lean ====
/-
  Segment sum, one launch: what the output block's buffer and the running-sum scratch hold after every grid point, and the
  proof data of the launch built on it.
  After point t = 125·i + j the pair (output buffer, scratch) is: at j = 0 what the first-tile run leaves from the two
  input blocks; at j ≠ 0 what the later-tile run leaves from the two input blocks and the scratch the point before left.
  The invariant between points holds the scratch at exactly that running sum (before the first point: at anything), every
  other scoped buffer unopened, and the generator register. The body obligation at a point is then the matching case's run.
-/
import proofs.«425571_j63591285785042_1_alg».proof.Proof.KernelIdeal.Region2.RunB

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At j = 0 the stores into the output buffer cover it. -/
theorem cover_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).1, y ∈ pc.1.set :=
  View.cover_of_tiledL (kernelRun_A c i arg2 harg2 arg3 harg3 arg4 harg4 arg5 harg5 hc x0 x1).1 S1200x64.size (by sl_kernel_rfl) y
/-- What the output buffer holds after a point with j = 0. -/
def out_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VO.read (Elt F) (VO.writes (Elt F) VO.junk (kernelRun_A c i arg2 harg2 arg3 harg3 arg4 harg4 arg5 harg5 hc x0 x1).1)
/-- At j = 0 the stores into the scratch cover it. -/
theorem scover_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) (y : S1200x64.Idx) :
    ∃ pc ∈ (kernelRun_A c i arg2 harg2 arg3 harg3 arg4 harg4 arg5 harg5 hc x0 x1).2.1, y ∈ pc.1.set :=
  View.cover_of_tiledL (kernelRun_A c i arg2 harg2 arg3 harg3 arg4 harg4 arg5 harg5 hc x0 x1).2.1 S1200x64.size (by sl_kernel_rfl) y
/-- What the scratch holds after a point with j = 0. -/
def sout_A (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) : Vec F S1200x64 .f32 :=
  VS.read (Elt F) (VS.writes (Elt F) VS.junk (kernelRun_A c i arg2 harg2 arg3 harg3 arg4 harg4 arg5 harg5 hc x0 x1).2.1)

/-- At j ≠ 0 the stores into the output buffer cover it. -/
theorem cover_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).1, y ∈ pc.1.set :=
  View.cover_of_tiledL (kernelRun_B c i arg2 harg2 arg3 harg3 arg4 harg4 arg5 harg5 hc x0 x1 xs).1 S1200x64.size (by sl_kernel_rfl) y
/-- What the output buffer holds after a point with j ≠ 0. -/
def out_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VO.read (Elt F) (VO.writes (Elt F) VO.junk (kernelRun_B c i arg2 harg2 arg3 harg3 arg4 harg4 arg5 harg5 hc x0 x1 xs).1)
/-- At j ≠ 0 the stores into the scratch cover it. -/
theorem scover_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) (y : S1200x64.Idx) :
    ∃ pc ∈ (kernelRun_B c i arg2 harg2 arg3 harg3 arg4 harg4 arg5 harg5 hc x0 x1 xs).2.1, y ∈ pc.1.set :=
  View.cover_of_tiledL (kernelRun_B c i arg2 harg2 arg3 harg3 arg4 harg4 arg5 harg5 hc x0 x1 xs).2.1 S1200x64.size (by sl_kernel_rfl) y
/-- What the scratch holds after a point with j ≠ 0. -/
def sout_B (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) : Vec F S1200x64 .f32 :=
  VS.read (Elt F) (VS.writes (Elt F) VS.junk (kernelRun_B c i arg2 harg2 arg3 harg3 arg4 harg4 arg5 harg5 hc x0 x1 xs).2.1)

/-! ## The accumulation over the grid -/

/-- (output buffer, scratch) after the body at position `n`: the first-tile case where n ≡ 0 (mod 125), else the
    later-tile case over the scratch the position before left. -/
def outsAt (c : Dev nD) : (n : ℕ) → n < cfg2.N → Vec F S1200x64 .f32 × Vec F S1200x64 .f32
  | 0, hn => (out_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩),
      sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond ⟨0, hn⟩).mpr (Nat.zero_mod _)) (iblk V c 0 ⟨0, hn⟩) (iblk V c 1 ⟨0, hn⟩))
  | n + 1, hn =>
    if h0 : (n + 1) % 125 = 0 then
      (out_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩),
        sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond ⟨n + 1, hn⟩).mpr h0) (iblk V c 0 ⟨n + 1, hn⟩) (iblk V c 1 ⟨n + 1, hn⟩))
    else
      (out_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2,
        sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond ⟨n + 1, hn⟩).mp h)) (iblk V c 0 ⟨n + 1, hn⟩) (iblk V c 1 ⟨n + 1, hn⟩) (outsAt c n (Nat.lt_of_succ_lt hn)).2)

/-- At a point of the first edge tile. -/
theorem outsAt_A (c : Dev nD) (t : Fin cfg2.N) (h0 : t.val % 125 = 0) :
    outsAt V c t.val t.isLt = (out_A c (grid2.coords t) (ms_0 t) (hs_0 t) (ms_1 t) (hs_1 t) (ms_2 t) (hs_2 t) scM (Memref.isWhole_whole _) ((hcond t).mpr h0) (iblk V c 0 t) (iblk V c 1 t),
      sout_A c (grid2.coords t) (ms_0 t) (hs_0 t) (ms_1 t) (hs_1 t) (ms_2 t) (hs_2 t) scM (Memref.isWhole_whole _) ((hcond t).mpr h0) (iblk V c 0 t) (iblk V c 1 t)) := by
  obtain ⟨n, hn⟩ := t
  cases n with
  | zero => exact rfl
  | succ n => exact (dif_pos h0).trans rfl

/-- At a point of a later edge tile: over the scratch the point before left. -/
theorem outsAt_B (c : Dev nD) (t : Fin cfg2.N) (h0 : ¬t.val % 125 = 0) :
    outsAt V c t.val t.isLt = (out_B c (grid2.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2,
      sout_B c (grid2.coords t) (ms_0 t) (hs_0 t) (ms_1 t) (hs_1 t) (ms_2 t) (hs_2 t) scM (Memref.isWhole_whole _) (fun h => h0 ((hcond t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- Before position `n`: at n = 0 what the launch hands over (the scratch at anything); afterwards the scratch at the
    running sum position n − 1 left, every other scoped buffer unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The launch's proof data -/

/-- The arrays as the launch finds them; after the body at a point each input buffer at its block and the output buffer
    at the accumulation's first component; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their blocks; the closed form says whether the point is of the first
    edge tile; the invariant hands over the scratch (at anything at the very first point, else at the running sum) and
    takes it back at this point's running sum; the output buffer, found at anything, is left at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 125 = 0
  · rw [outsAt_A V c t h0]
    unfold out_A sout_A; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRun_A c (grid2.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
    · rw [PhiS_castSucc V c t, PhiS_pos V c _ _ hz]
      iintro ⟨⟨⟨HS, Hrest⟩, Hg⟩, Ho, ⟨%d0, H0⟩, ⟨%d1, H1⟩, ⟨%d2, H2⟩⟩
      iapply ((kernelRun_A c (grid2.coords t) _ _ _ _ _ _ _ _ ((hcond t).mpr h0) (iblk V c 0 t) (iblk V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover_A c _ _ _ _ _ _ _ _ _ _ _ _)
  · rw [outsAt_B V c t h0]
    unfold out_B sout_B; (try dsimp only)
    have hz : t.val ≠ 0 := fun h => h0 (by rw [h])
    rw [PhiS_castSucc V c t, PhiS_pos V c _ _ hz]
    iintro ⟨⟨⟨HS, Hrest⟩, Hg⟩, Ho, ⟨%d0, H0⟩, ⟨%d1, H1⟩, ⟨%d2, H2⟩⟩
    iapply ((kernelRun_B c (grid2.coords t) _ _ _ _ _ _ _ _ (fun h => h0 ((hcond t).mp h)) (iblk V c 0 t) (iblk V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover_B c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _ _)

/-- The body obligation at every point. -/
theorem body_obligation (c : Dev nD) : BodyObligation (dat (F := F) V c) (defs₀ (F := F)) Variants.none () Set.univ := fun t => by
  rw [bigSep_W2, bigSep_W2]
  exact sound_body V c t

/-- What the launch hands over is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives it back, the running sum forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

/-- The same after the last point. -/
theorem hout (c : Dev nD) : (dat V c).Φ (Fin.last cfg2.N) ⊢ Pipeline.ΦA spec2 c :=
  Phi_out V c _ (by rw [Fin.val_last]; have : cfg2.N = 15625 := N_2; omega)

end Cert.KernelIdeal.Region2

end
-- ==== Proof.KernelIdeal.Run.lean ====
/-
  The whole program, run from the launch to the return.

  The program is four stretches of host operations around three segment-sum launches. Between two of these seven items
  a core holds every unscoped buffer whole at known contents, and the contents are a fold through the program: the
  launch memory; after a host stretch, the stretch's result on the contents before it; after a launch, the contents
  before it with the launch's three arrays at what its write-backs leave (the two inputs as found, the output at the
  accumulated blocks) and every other buffer as it was.
  A launch's invariant between grid points carries its running-sum scratch. It is entered from, and gives back, "every
  scoped buffer no window stages, at anything, beside the generator register": that is all a launch exchanges with
  the rest of the program, so the three launches thread through the same state between items.
  The run: every weakly fair execution terminates, and the final memory holds at EVERY unscoped buffer the last contents
  of the fold. An argument is a window of no launch and is written by no stretch, so the fold at an argument walks back
  to the launch memory: the arguments end as launched.
-/
import proofs.«425571_j63591285785042_1_alg».proof.Proof.KernelIdeal.Region0.Data
import proofs.«425571_j63591285785042_1_alg».proof.Proof.KernelIdeal.Region1.Data
import proofs.«425571_j63591285785042_1_alg».proof.Proof.KernelIdeal.Region2.Data
import proofs.«425571_j63591285785042_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core c's buffers at launch. -/
abbrev W0 : Dev nD → Valuation τ sig (Elt F) := fun c b => (s₀ m ρ).mem ((c : Dev nD), b)
/-- After the first host stretch: what launch 0 is entered from. -/
abbrev W1 : Dev nD → Valuation τ sig (Elt F) := fun c => StableHlo.after hostOps0 (W0 m ρ c)
/-- The same, read at the TensorCore's references (what launch 0's proof data take). -/
abbrev Vin0 : (c : Dev nD) → (b : Ref sig .tc) → Buf (Elt F) ((c : Thread nD τ).loc b) := fun c b => W1 m ρ c b
/-- After launch 0: its arrays at what the write-backs leave, every other buffer as entered. -/
def W2 (c : Dev nD) : Valuation τ sig (Elt F) :=
  Pipeline.withArrays spec0 c (W1 m ρ c) fun w => (Region0.dat (Vin0 m ρ) c).arrAt w cfg0.N
theorem W2_arr (c : Dev nD) (w : Fin cfg0.W) :
    W2 m ρ c (Proc.devRef .tc (Pipeline.arrRef spec0 w)) = (Region0.dat (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (launch 0's exit contents). -/
abbrev Vout0 : (c : Dev nD) → (b : Ref sig .tc) → Buf (Elt F) ((c : Thread nD τ).loc b) := fun c b => W2 m ρ c b
/-- At launch 0's exit each of its arrays holds what the write-backs leave, and every other buffer what it held at entry. -/
theorem hF0 (c : Dev nD) (w : Fin cfg0.W) : (Region0.dat (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the second host stretch: what launch 1 is entered from. -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b
/-- After launch 1. -/
def W4 (c : Dev nD) : Valuation τ sig (Elt F) :=
  Pipeline.withArrays spec1 c (W3 m ρ c) fun w => (Region1.dat (Vin1 m ρ) c).arrAt w cfg1.N
theorem W4_arr (c : Dev nD) (w : Fin cfg1.W) :
    W4 m ρ c (Proc.devRef .tc (Pipeline.arrRef spec1 w)) = (Region1.dat (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (Region1.dat (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-- After the third host stretch: what launch 2 is entered from. -/
abbrev W5 : Dev nD → Valuation τ sig (Elt F) := fun c => StableHlo.after hostOps2 (W4 m ρ c)
abbrev Vin2 : (c : Dev nD) → (b : Ref sig .tc) → Buf (Elt F) ((c : Thread nD τ).loc b) := fun c b => W5 m ρ c b
/-- After launch 2. -/
def W6 (c : Dev nD) : Valuation τ sig (Elt F) :=
  Pipeline.withArrays spec2 c (W5 m ρ c) fun w => (Region2.dat (Vin2 m ρ) c).arrAt w cfg2.N
theorem W6_arr (c : Dev nD) (w : Fin cfg2.W) :
    W6 m ρ c (Proc.devRef .tc (Pipeline.arrRef spec2 w)) = (Region2.dat (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vout2 : (c : Dev nD) → (b : Ref sig .tc) → Buf (Elt F) ((c : Thread nD τ).loc b) := fun c b => W6 m ρ c b
theorem hF2 (c : Dev nD) (w : Fin cfg2.W) : (Region2.dat (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-! ### A host stretch leaves every buffer it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-! ### The arguments end as launched: no host stretch writes one and none is a launch's array, so the fold at an
    argument walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => Region0.dat (Vin0 m ρ) c
  | ⟨1, _⟩ => fun c => Region1.dat (Vin1 m ρ) c
  | ⟨2, _⟩ => fun c => Region2.dat (Vin2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: over the unscoped references from the contents W, R riding along; it leaves those
    references at the stretch's result on W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m ρ c) ∗ ∃ r, prngReg c r)

/-! ## The launches as items -/

set_option backward.isDefEq.respectTransparency.types false in
/-- LAUNCH 0 over the thread state: entered from every unscoped buffer at W1, left at W2. Its arrays are split out
    of the unscoped buffers and put back at the exit contents; the generator register and the scoped buffers no window
    stages go into the launch's invariant before the first point and come back after the last; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (Vin0 m ρ) c)
    unfold Pipeline.ΦA
    iintro ⟨Hp, -, Hr⟩
    isplitl [Hr]; · iexact Hr
    iexact Hp
  hout c := by
    rw [Pipeline.ownSems0_none]
    refine BIBase.Entails.trans (Region0.hout (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at W3, left at W4. Its arrays are split out
    of the unscoped buffers and put back at the exit contents; the generator register and the scoped buffers no window
    stages go into the launch's invariant before the first point and come back after the last; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (Vin1 m ρ) c)
    unfold Pipeline.ΦA
    iintro ⟨Hp, -, Hr⟩
    isplitl [Hr]; · iexact Hr
    iexact Hp
  hout c := by
    rw [Pipeline.ownSems0_none]
    refine BIBase.Entails.trans (Region1.hout (Vin1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at W5, left at W6. Its arrays are split out
    of the unscoped buffers and put back at the exit contents; the generator register and the scoped buffers no window
    stages go into the launch's invariant before the first point and come back after the last; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region2.hin (Vin2 m ρ) c)
    unfold Pipeline.ΦA
    iintro ⟨Hp, -, Hr⟩
    isplitl [Hr]; · iexact Hr
    iexact Hp
  hout c := by
    rw [Pipeline.ownSems0_none]
    refine BIBase.Entails.trans (Region2.hout (Vin2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

/-- The program's 7 items in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program IS the run of the items. -/
theorem main_run (c : Dev nD) : main (F := F) c = Pipeline.Seg.run (items m ρ) := (main_chain c).trans (by chain_rfl)

set_option backward.isDefEq.respectTransparency.types false in
/-- THE RUN: from any memory with zero counters every weakly fair execution of the program on the TensorCores
    terminates, nothing faulting, and every final memory holds at every unscoped buffer the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: the run, read at the five arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

/-- info: 'Cert.KernelIdeal.Run.frame' depends on axioms: [propext, Classical.choice, Quot.sound] -/
#guard_msgs in #print axioms frame

end Cert.KernelIdeal.Run

end
-- ==== Proof.KernelIdeal.Stretches.lean ====
/-
  The host side of the kernel's program, stretch by stretch, as functions of what each stretch finds.
  ego = the two embedding tables stacked; msgs x = (edge weight, repeated along the 64 columns) × (row of x picked by
  the edge's source, a negative source first wrapped by +150000); the destinations reshaped to one row of 1200000 words;
  after each launch the running total gains the launch's result; at the end the total is divided by 4 and cut into its
  first 50000 and last 100000 rows. Each lemma below says what ONE stretch of host operations leaves in ONE buffer,
  over ANY contents the stretch is entered from.
-/
import proofs.«425571_j63591285785042_1_alg».proof.Proof.Gen.KernelIdeal.Launch
import Idealize.ShloMosaic.Lib.StableHlo.Run

noncomputable section

namespace Cert.KernelIdeal.Stretches

open Cert.KernelIdeal Cert.KernelIdeal.Gen
open Idealize.ShloMosaic Idealize.ShloMosaic.TcCoe Idealize.SL.Sem Idealize.ShloMosaic.StableHlo

variable {F : FTy → Type} [FloatOps F]

/-- The two embedding tables stacked: 50000 author rows, then 100000 paper rows. -/
def ego (a0 : FVec F S50000x64 .f32) (a1 : FVec F S100000x64 .f32) : FVec F S150000x64 .f32 :=
  concatenate S150000x64 0 [⟨S50000x64, a0⟩, ⟨S100000x64, a1⟩] concatenates_S50000x64_S100000x64_S150000x64_d0

/-- One layer's messages: edge e, column q ↦ weight e × x (source e, q), a negative source wrapped by +150000. -/
def msgs (x : FVec F S150000x64 .f32) (cols : IVec S1200000 32) (vals : FVec F S1200000 .f32) : FVec F S1200000x64 .f32 :=
  mulf
    (broadcastInDim S1200000x64 ![0, 1] bcast_S1200000x1_S1200000x64_0_1
      (broadcastInDim S1200000x1 ![0] bcast_S1200000_S1200000x1_0 vals))
    (Host.gather gather_S150000x64_S1200000x1_S1200000x64_1_0_n_n_0_1_164 x
      (broadcastInDim S1200000x1 ![0] bcast_S1200000_S1200000x1_0
        (select
          (cmpi CmpIPredicate.slt cols (broadcastInDim S1200000 ![] bcast_S_S1200000 (constantI S_ 32 0#32)))
          (addi cols (broadcastInDim S1200000 ![] bcast_S_S1200000 (constantI S_ 32 150000#32)))
          cols)))

/-- The destinations as one row of 1200000 words. -/
def rows2 (rows : IVec S1200000 32) : IVec S1x1200000 32 :=
  shapeCast S1x1200000 rows shapeCasts_S1200000_S1x1200000

/-- The mean over the four layer outputs: (running total + last layer) / 4. -/
def mean (acc x3 : FVec F S150000x64 .f32) : FVec F S150000x64 .f32 :=
  Host.divf (addf acc x3) (broadcastInDim S150000x64 ![] bcast_S_S150000x64 (constant S_ .f32 0x40800000#32))

/-- The author rows and the paper rows of a 150000-row table. -/
def res1 (y : FVec F S150000x64 .f32) : FVec F S50000x64 .f32 :=
  extractStridedSlice S50000x64 ![0, 0] y slices_S150000x64_S50000x64_0_0
def res2 (y : FVec F S150000x64 .f32) : FVec F S100000x64 .f32 :=
  extractStridedSlice S100000x64 ![50000, 0] y slices_S150000x64_S100000x64_50000_0

variable (W : Valuation τ sig (Elt F))

/-! ## Before the first launch -/

theorem s0_v0 : StableHlo.after hostOps0 W (Proc.devRef .tc main_v0)
    = ego (W (Proc.devRef .tc main_arg0)) (W (Proc.devRef .tc main_arg1)) := by
  after_results <;> rfl
theorem s0_v10 : StableHlo.after hostOps0 W (Proc.devRef .tc main_v10)
    = msgs (ego (W (Proc.devRef .tc main_arg0)) (W (Proc.devRef .tc main_arg1))) (W (Proc.devRef .tc main_arg3)) (W (Proc.devRef .tc main_arg4)) := by
  after_results <;> rfl
theorem s0_v11 : StableHlo.after hostOps0 W (Proc.devRef .tc main_v11) = rows2 (W (Proc.devRef .tc main_arg2)) := by
  after_results <;> rfl

/-! ## Between the first and the second launch -/

theorem s1_v13 : StableHlo.after hostOps1 W (Proc.devRef .tc main_v13)
    = addf (W (Proc.devRef .tc main_v0)) (W (Proc.devRef .tc main_v12)) := by
  after_results <;> rfl
theorem s1_v23 : StableHlo.after hostOps1 W (Proc.devRef .tc main_v23)
    = msgs (W (Proc.devRef .tc main_v12)) (W (Proc.devRef .tc main_arg3)) (W (Proc.devRef .tc main_arg4)) := by
  after_results <;> rfl
theorem s1_v24 : StableHlo.after hostOps1 W (Proc.devRef .tc main_v24) = rows2 (W (Proc.devRef .tc main_arg2)) := by
  after_results <;> rfl

/-! ## Between the second and the third launch -/

theorem s2_v26 : StableHlo.after hostOps2 W (Proc.devRef .tc main_v26)
    = addf (W (Proc.devRef .tc main_v13)) (W (Proc.devRef .tc main_v25)) := by
  after_results <;> rfl
theorem s2_v36 : StableHlo.after hostOps2 W (Proc.devRef .tc main_v36)
    = msgs (W (Proc.devRef .tc main_v25)) (W (Proc.devRef .tc main_arg3)) (W (Proc.devRef .tc main_arg4)) := by
  after_results <;> rfl
theorem s2_v37 : StableHlo.after hostOps2 W (Proc.devRef .tc main_v37) = rows2 (W (Proc.devRef .tc main_arg2)) := by
  after_results <;> rfl

/-! ## After the third launch -/

theorem s3_v42 : StableHlo.after hostOps3 W (Proc.devRef .tc main_v42)
    = res1 (mean (W (Proc.devRef .tc main_v26)) (W (Proc.devRef .tc main_v38))) := by
  after_results <;> rfl
theorem s3_v43 : StableHlo.after hostOps3 W (Proc.devRef .tc main_v43)
    = res2 (mean (W (Proc.devRef .tc main_v26)) (W (Proc.devRef .tc main_v38))) := by
  after_results <;> rfl

end Cert.KernelIdeal.Stretches

end
-- ==== Proof.Spec.lean ====
/-
  The segment sum both programs compute in every layer, as one function of the edge destinations and the messages:
  row r of the result, column q, is the sum over all 1200000 edges e of the message row e at column q when the edge's
  destination, a 32-bit word read as a signed integer, equals r, and of zero otherwise. An edge whose destination is
  negative or at least 150000 meets no row and contributes nothing.
-/
import Idealize.ShloMosaic.PureOps.Ideal
import Idealize.ShloMosaic.Lib.ValueIdx

noncomputable section

namespace Cert.SegSum

open Idealize.ShloMosaic Idealize.ShloMosaic.ValueIdx

/-- The edges, the messages (one row of 64 per edge) and the result (one row of 64 per node), as literal shapes. -/
abbrev SE : Shape := ⟨1, ![1200000]⟩
abbrev SEx64 : Shape := ⟨2, ![1200000, 64]⟩
abbrev SNx64 : Shape := ⟨2, ![150000, 64]⟩

/-- Row `o 0`, column `o 1` of the segment sum of `msgs` by the destinations `rows`. -/
def segsum (rows : SE.Idx → BitVec 32) (msgs : SEx64.Idx → EReal) : SNx64.Idx → EReal :=
  fun o => ∑ e : Fin 1200000, if (rows (ix1 e)).toInt = ((o 0).val : ℤ) then msgs (ix2 e (o 1)) else 0

end Cert.SegSum

end
-- ==== Proof.KernelIdeal.Results.lean ====
/-
  The kernel's three results as explicit functions of its five arguments, at the extended reals.
  With e = ego, and layer x = segment sum by the destinations of msgs x: x₁ = layer e, x₂ = layer x₁, x₃ = layer x₂;
  the results are e itself and the first 50000 / last 100000 rows of (((e + x₁) + x₂) + x₃) / 4.
  Each step reads one buffer at one boundary of the program: a host stretch's result by the stretch lemmas, a launch's
  result array by the launch's value (the segment sum of what the launch found in its two input arrays), any other
  buffer by "nothing in between writes it".
-/
import proofs.«425571_j63591285785042_1_alg».proof.Proof.KernelIdeal.Run
import proofs.«425571_j63591285785042_1_alg».proof.Proof.KernelIdeal.Stretches
import proofs.«425571_j63591285785042_1_alg».proof.Proof.Spec
import Idealize.ShloMosaic.Lib.ValueLayout

set_option maxRecDepth 16384

noncomputable section

namespace Cert.KernelIdeal.Results

open Cert.KernelIdeal Cert.KernelIdeal.Gen Cert.KernelIdeal.Run Cert.KernelIdeal.Stretches
open Idealize.ShloMosaic Idealize.ShloMosaic.TcCoe Idealize.ShloMosaic.ValueIdx Idealize.SL.Sem

/-- The segment sum with the destinations given as one row of 1200000 words (the form a launch finds them in). -/
def seg2 (r2 : IVec S1x1200000 32) (ms : FVec Ideal S1200000x64 .f32) : FVec Ideal S150000x64 .f32 :=
  fun o => ∑ e : Fin 1200000, if (r2 (ix2 (0 : Fin 1) e)).toInt = ((o 0).val : ℤ) then ms (ix2 e (o 1)) else 0

/-- Reading the reshaped destinations at (0, e) is reading word e. -/
theorem seg2_rows2 (rows : IVec S1200000 32) (ms : FVec Ideal S1200000x64 .f32) :
    seg2 (rows2 rows) ms = Cert.SegSum.segsum rows ms := by
  funext o
  unfold seg2 Cert.SegSum.segsum rows2
  simp only [shapeCast_a_1a_apply]

/-- One layer: the segment sum by the destinations of the messages drawn from x. -/
def layer (x : FVec Ideal S150000x64 .f32) (rows cols : IVec S1200000 32) (vals : FVec Ideal S1200000 .f32) :
    FVec Ideal S150000x64 .f32 :=
  Cert.SegSum.segsum rows (msgs x cols vals)

variable (m : (ℓ : Loc nD τ sig) → Buf (Elt Ideal) ℓ) (ρ : Dev nD → PrngReg)

/-- The argument arrays on core c, at their literal types. -/
abbrev a0 (c : Dev nD) : FVec Ideal S50000x64 .f32 := m ((c : Thread nD τ).loc main_arg0)
abbrev a1 (c : Dev nD) : FVec Ideal S100000x64 .f32 := m ((c : Thread nD τ).loc main_arg1)
abbrev a2 (c : Dev nD) : IVec S1200000 32 := m ((c : Thread nD τ).loc main_arg2)
abbrev a3 (c : Dev nD) : IVec S1200000 32 := m ((c : Thread nD τ).loc main_arg3)
abbrev a4 (c : Dev nD) : FVec Ideal S1200000 .f32 := m ((c : Thread nD τ).loc main_arg4)

/-- The layer outputs and the running totals. -/
def e0 (c : Dev nD) : FVec Ideal S150000x64 .f32 := ego (a0 m c) (a1 m c)
def x1 (c : Dev nD) : FVec Ideal S150000x64 .f32 := layer (e0 m c) (a2 m c) (a3 m c) (a4 m c)
def x2 (c : Dev nD) : FVec Ideal S150000x64 .f32 := layer (x1 m c) (a2 m c) (a3 m c) (a4 m c)
def x3 (c : Dev nD) : FVec Ideal S150000x64 .f32 := layer (x2 m c) (a2 m c) (a3 m c) (a4 m c)
def out (c : Dev nD) : FVec Ideal S150000x64 .f32 := mean (addf (addf (e0 m c) (x1 m c)) (x2 m c)) (x3 m c)

/-! ## The launches' values, as taken from the launch modules -/

/-- What each launch's value module proves: the launch's result array after its run is the segment sum of the two input
    arrays the launch found. -/
def LaunchValue0 : Prop := ∀ (V : (c : Dev nD) → (b : Ref sig .tc) → Buf (Elt Ideal) ((c : Thread nD τ).loc b)) (c : Dev nD),
  (Region0.dat V c).arrAt 2 cfg0.N = seg2 (V c (Pipeline.arrRef spec0 0)) (V c (Pipeline.arrRef spec0 1))
def LaunchValue1 : Prop := ∀ (V : (c : Dev nD) → (b : Ref sig .tc) → Buf (Elt Ideal) ((c : Thread nD τ).loc b)) (c : Dev nD),
  (Region1.dat V c).arrAt 2 cfg1.N = seg2 (V c (Pipeline.arrRef spec1 0)) (V c (Pipeline.arrRef spec1 1))
def LaunchValue2 : Prop := ∀ (V : (c : Dev nD) → (b : Ref sig .tc) → Buf (Elt Ideal) ((c : Thread nD τ).loc b)) (c : Dev nD),
  (Region2.dat V c).arrAt 2 cfg2.N = seg2 (V c (Pipeline.arrRef spec2 0)) (V c (Pipeline.arrRef spec2 1))

variable (h0 : LaunchValue0) (h1 : LaunchValue1) (h2 : LaunchValue2)

/-! ## Arguments are never written -/

theorem W1_arg2 (c : Dev nD) : W1 m ρ c (Proc.devRef .tc main_arg2) = a2 m c := W1_of m ρ c main_arg2 (by decide)
theorem W1_arg3 (c : Dev nD) : W1 m ρ c (Proc.devRef .tc main_arg3) = a3 m c := W1_of m ρ c main_arg3 (by decide)
theorem W1_arg4 (c : Dev nD) : W1 m ρ c (Proc.devRef .tc main_arg4) = a4 m c := W1_of m ρ c main_arg4 (by decide)
theorem W2_arg2 (c : Dev nD) : W2 m ρ c (Proc.devRef .tc main_arg2) = a2 m c := (W2_of_ne m ρ c main_arg2 (by decide)).trans (W1_arg2 m ρ c)
theorem W2_arg3 (c : Dev nD) : W2 m ρ c (Proc.devRef .tc main_arg3) = a3 m c := (W2_of_ne m ρ c main_arg3 (by decide)).trans (W1_arg3 m ρ c)
theorem W2_arg4 (c : Dev nD) : W2 m ρ c (Proc.devRef .tc main_arg4) = a4 m c := (W2_of_ne m ρ c main_arg4 (by decide)).trans (W1_arg4 m ρ c)
theorem W3_arg2 (c : Dev nD) : W3 m ρ c (Proc.devRef .tc main_arg2) = a2 m c := (W3_of m ρ c main_arg2 (by decide)).trans (W2_arg2 m ρ c)
theorem W3_arg3 (c : Dev nD) : W3 m ρ c (Proc.devRef .tc main_arg3) = a3 m c := (W3_of m ρ c main_arg3 (by decide)).trans (W2_arg3 m ρ c)
theorem W3_arg4 (c : Dev nD) : W3 m ρ c (Proc.devRef .tc main_arg4) = a4 m c := (W3_of m ρ c main_arg4 (by decide)).trans (W2_arg4 m ρ c)
theorem W4_arg2 (c : Dev nD) : W4 m ρ c (Proc.devRef .tc main_arg2) = a2 m c := (W4_of_ne m ρ c main_arg2 (by decide)).trans (W3_arg2 m ρ c)
theorem W4_arg3 (c : Dev nD) : W4 m ρ c (Proc.devRef .tc main_arg3) = a3 m c := (W4_of_ne m ρ c main_arg3 (by decide)).trans (W3_arg3 m ρ c)
theorem W4_arg4 (c : Dev nD) : W4 m ρ c (Proc.devRef .tc main_arg4) = a4 m c := (W4_of_ne m ρ c main_arg4 (by decide)).trans (W3_arg4 m ρ c)

/-! ## The first layer -/

theorem W1_v0 (c : Dev nD) : W1 m ρ c (Proc.devRef .tc main_v0) = e0 m c := s0_v0 (W0 m ρ c)
theorem W1_v10 (c : Dev nD) : W1 m ρ c (Proc.devRef .tc main_v10) = msgs (e0 m c) (a3 m c) (a4 m c) := s0_v10 (W0 m ρ c)
theorem W1_v11 (c : Dev nD) : W1 m ρ c (Proc.devRef .tc main_v11) = rows2 (a2 m c) := s0_v11 (W0 m ρ c)

include h0 in
theorem W2_v12 (c : Dev nD) : W2 m ρ c (Proc.devRef .tc main_v12) = x1 m c := by
  refine (W2_arr m ρ c 2).trans ((h0 (Vin0 m ρ) c).trans ?_)
  show seg2 (W1 m ρ c (Proc.devRef .tc main_v11)) (W1 m ρ c (Proc.devRef .tc main_v10)) = _
  rw [W1_v11, W1_v10, seg2_rows2]; rfl

theorem W2_v0 (c : Dev nD) : W2 m ρ c (Proc.devRef .tc main_v0) = e0 m c := (W2_of_ne m ρ c main_v0 (by decide)).trans (W1_v0 m ρ c)

/-! ## The second layer -/

include h0 in
theorem W3_v13 (c : Dev nD) : W3 m ρ c (Proc.devRef .tc main_v13) = addf (e0 m c) (x1 m c) := by
  refine (s1_v13 (W2 m ρ c)).trans ?_; rw [W2_v0, W2_v12 m ρ h0]
include h0 in
theorem W3_v23 (c : Dev nD) : W3 m ρ c (Proc.devRef .tc main_v23) = msgs (x1 m c) (a3 m c) (a4 m c) := by
  refine (s1_v23 (W2 m ρ c)).trans ?_; rw [W2_v12 m ρ h0, W2_arg3, W2_arg4]
theorem W3_v24 (c : Dev nD) : W3 m ρ c (Proc.devRef .tc main_v24) = rows2 (a2 m c) := by
  refine (s1_v24 (W2 m ρ c)).trans ?_; rw [W2_arg2]

include h0 h1 in
theorem W4_v25 (c : Dev nD) : W4 m ρ c (Proc.devRef .tc main_v25) = x2 m c := by
  refine (W4_arr m ρ c 2).trans ((h1 (Vin1 m ρ) c).trans ?_)
  show seg2 (W3 m ρ c (Proc.devRef .tc main_v24)) (W3 m ρ c (Proc.devRef .tc main_v23)) = _
  rw [W3_v24, W3_v23 m ρ h0, seg2_rows2]; rfl

include h0 in
theorem W4_v13 (c : Dev nD) : W4 m ρ c (Proc.devRef .tc main_v13) = addf (e0 m c) (x1 m c) :=
  (W4_of_ne m ρ c main_v13 (by decide)).trans (W3_v13 m ρ h0 c)

/-! ## The third layer -/

include h0 h1 in
theorem W5_v26 (c : Dev nD) : W5 m ρ c (Proc.devRef .tc main_v26) = addf (addf (e0 m c) (x1 m c)) (x2 m c) := by
  refine (s2_v26 (W4 m ρ c)).trans ?_; rw [W4_v13 m ρ h0, W4_v25 m ρ h0 h1]
include h0 h1 in
theorem W5_v36 (c : Dev nD) : W5 m ρ c (Proc.devRef .tc main_v36) = msgs (x2 m c) (a3 m c) (a4 m c) := by
  refine (s2_v36 (W4 m ρ c)).trans ?_; rw [W4_v25 m ρ h0 h1, W4_arg3, W4_arg4]
theorem W5_v37 (c : Dev nD) : W5 m ρ c (Proc.devRef .tc main_v37) = rows2 (a2 m c) := by
  refine (s2_v37 (W4 m ρ c)).trans ?_; rw [W4_arg2]

include h0 h1 h2 in
theorem W6_v38 (c : Dev nD) : W6 m ρ c (Proc.devRef .tc main_v38) = x3 m c := by
  refine (W6_arr m ρ c 2).trans ((h2 (Vin2 m ρ) c).trans ?_)
  show seg2 (W5 m ρ c (Proc.devRef .tc main_v37)) (W5 m ρ c (Proc.devRef .tc main_v36)) = _
  rw [W5_v37, W5_v36 m ρ h0 h1, seg2_rows2]; rfl

include h0 h1 in
theorem W6_v26 (c : Dev nD) : W6 m ρ c (Proc.devRef .tc main_v26) = addf (addf (e0 m c) (x1 m c)) (x2 m c) :=
  (W6_of_ne m ρ c main_v26 (by decide)).trans (W5_v26 m ρ h0 h1 c)

/-! ## The results -/

include h0 h1 h2 in
theorem W7_v42 (c : Dev nD) : W7 m ρ c (Proc.devRef .tc main_v42) = res1 (out m c) := by
  refine (s3_v42 (W6 m ρ c)).trans ?_; rw [W6_v26 m ρ h0 h1, W6_v38 m ρ h0 h1 h2]; rfl
include h0 h1 h2 in
theorem W7_v43 (c : Dev nD) : W7 m ρ c (Proc.devRef .tc main_v43) = res2 (out m c) := by
  refine (s3_v43 (W6 m ρ c)).trans ?_; rw [W6_v26 m ρ h0 h1, W6_v38 m ρ h0 h1 h2]; rfl

/-- The stacked embedding table is written once, before the first launch, and never again. -/
theorem W7_v0 (c : Dev nD) : W7 m ρ c (Proc.devRef .tc main_v0) = e0 m c :=
  (W7_of m ρ c main_v0 (by decide)).trans <| (W6_of_ne m ρ c main_v0 (by decide)).trans <| (W5_of m ρ c main_v0 (by decide)).trans <|
    (W4_of_ne m ρ c main_v0 (by decide)).trans <| (W3_of m ρ c main_v0 (by decide)).trans <| W2_v0 m ρ c

include h0 h1 h2 in
/-- THE KERNEL'S RUN WITH ITS RESULTS NAMED: every weakly fair execution terminates with the three results at e, the
    author rows and the paper rows of the mean, and the five arguments unchanged. -/
theorem run_values :
    θ_run defs (onTc (τ := τ) (main (F := Ideal))) ⟨m, fun _ => 0, ρ⟩ (fun r => ∀ c : Dev nD,
      r.2.mem ((c.tc : Thread nD τ).loc main_v0) = e0 m c
      ∧ r.2.mem ((c.tc : Thread nD τ).loc main_v42) = res1 (out m c)
      ∧ r.2.mem ((c.tc : Thread nD τ).loc main_v43) = res2 (out m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v0 (by decide))).trans (W7_v0 m ρ c),
     (h c _ (mem_uc main_v42 (by decide))).trans (W7_v42 m ρ h0 h1 h2 c),
     (h c _ (mem_uc main_v43 (by decide))).trans (W7_v43 m ρ h0 h1 h2 c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Results

end
-- ==== Proof.KernelIdeal.Region0.Pieces.lean ====
/-
  Segment sum, one launch: what each case of the body leaves, in closed form.
  At a point of the first edge tile (j = 0) the scratch is zeroed and then receives zeros + (0/1 matrix) · messages; at a
  point of a later edge tile (j ≠ 0) it receives xs + (0/1 matrix) · messages, xs the running sum it was found at. In both
  cases the output block's buffer receives a copy of the scratch. Every load and store of the body goes through the whole
  rectangle at offset zero of its buffer: such a load reads the buffer's contents, such a store, made last, leaves its
  payload whatever was stored before, and a load after it reads that payload back. So the scratch and the output buffer
  both end at the update's payload, over the two input blocks as given and over zeros (j = 0) or xs (j ≠ 0).
-/
import proofs.«425571_j63591285785042_1_alg».proof.Proof.KernelIdeal.Region0.Data
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every rectangle the body loads or stores through is zero in both coordinates. -/
private theorem hz : (![0, 0] : Fin 2 → Nat) = fun _ => 0 := funext fun a => by fin_cases a <;> rfl

/-! ## The first edge tile: zeros, then the update over zeros -/

/-- At j = 0 the scratch ends at zeros + (0/1 matrix) · messages: of the two whole-buffer stores the later one (the
    update) decides, and the running sum it read is what the earlier one (the zeroing) left. -/
theorem sout_A_eq (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) :
    sout_A c i arg2 harg2 arg3 harg3 arg4 harg4 arg5 harg5 hc x0 x1 = k0_pay2 i x0 x1 (k0_pay1 (F := F)) := by
  unfold sout_A
  rw [View.read_writes_eq_canon _ _ _ (scover_A c i arg2 harg2 arg3 harg3 arg4 harg4 arg5 harg5 hc x0 x1)]
  unfold kernelRun_A
  dsimp only
  sl_unfold_words
  rw [View.canon_cons_unit_zero (S := S1200x64) hz, View.readCov_unit_zero (S := S1200x64) _ hz]
  simp only [View.readAt_eq_ld, harg2.read_unread, harg3.read_unread, View.ld_unit_zero (S := S1x9600) hz, View.ld_unit_zero (S := S9600x64) hz]

/-- At j = 0 the output buffer ends at the same: its one store copies what a whole-buffer load of the scratch read
    after the update, which is the update's payload. -/
theorem out_A_eq (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) :
    out_A c i arg2 harg2 arg3 harg3 arg4 harg4 arg5 harg5 hc x0 x1 = k0_pay2 i x0 x1 (k0_pay1 (F := F)) := by
  unfold out_A
  rw [View.read_writes_eq_canon _ _ _ (cover_A c i arg2 harg2 arg3 harg3 arg4 harg4 arg5 harg5 hc x0 x1)]
  unfold kernelRun_A
  dsimp only
  sl_unfold_words
  rw [View.canon_unit_zero (S := S1200x64) hz, View.readCov_cons_toLoadRect, View.readCov_unit_zero (S := S1200x64) _ hz]
  simp only [View.readAt_eq_ld, harg2.read_unread, harg3.read_unread, View.ld_unit_zero (S := S1x9600) hz, View.ld_unit_zero (S := S9600x64) hz]

/-! ## A later edge tile: the update over the running sum -/

/-- At j ≠ 0 the scratch ends at xs + (0/1 matrix) · messages: one whole-buffer store, of the update over the running
    sum xs the scratch was found at. -/
theorem sout_B_eq (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) :
    sout_B c i arg2 harg2 arg3 harg3 arg4 harg4 arg5 harg5 hc x0 x1 xs = k0_pay2 i x0 x1 xs := by
  unfold sout_B
  rw [View.read_writes_eq_canon _ _ _ (scover_B c i arg2 harg2 arg3 harg3 arg4 harg4 arg5 harg5 hc x0 x1 xs)]
  unfold kernelRun_B
  dsimp only
  sl_unfold_words
  rw [View.canon_unit_zero (S := S1200x64) hz]
  simp only [View.readAt_eq_ld, harg2.read_unread, harg3.read_unread, harg5.read_unread, View.ld_unit_zero (S := S1x9600) hz, View.ld_unit_zero (S := S9600x64) hz, View.ld_unit_zero (S := S1200x64) hz]

/-- At j ≠ 0 the output buffer ends at the same: a copy of the scratch read back after the update. -/
theorem out_B_eq (c : Dev nD) (i : grid0.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) :
    out_B c i arg2 harg2 arg3 harg3 arg4 harg4 arg5 harg5 hc x0 x1 xs = k0_pay2 i x0 x1 xs := by
  unfold out_B
  rw [View.read_writes_eq_canon _ _ _ (cover_B c i arg2 harg2 arg3 harg3 arg4 harg4 arg5 harg5 hc x0 x1 xs)]
  unfold kernelRun_B
  dsimp only
  sl_unfold_words
  rw [View.canon_unit_zero (S := S1200x64) hz, View.readCov_unit_zero (S := S1200x64) _ hz]
  simp only [View.readAt_eq_ld, harg2.read_unread, harg3.read_unread, harg5.read_unread, View.ld_unit_zero (S := S1x9600) hz, View.ld_unit_zero (S := S9600x64) hz, View.ld_unit_zero (S := S1200x64) hz]

end Cert.KernelIdeal.Region0

end
-- ==== Proof.KernelIdeal.Payload.lean ====
import proofs.«425571_j63591285785042_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
# The body's two stored blocks, read at an index, over the extended reals

Each launch of the message-passing step works on a block of 1200 destination rows (block number `i₀`, so the rows
`1200·i₀ + p`, `p < 1200`) and a chunk of 9600 edges. Its body stores two values into the running sum:

* on the first chunk, the zero block;
* on every chunk, the running sum plus the product of the 0/1 matrix `M(p, k) = [row 1200·i₀ + p is edge k's destination]`
  with the chunk's messages `v15`.

Read at `(p, q)` the second one is `v18(p, q) + ∑ₖ [dst(k) = 1200·i₀ + p] · v15(k, q)`. The steps: the row number
`1200·i₀ + p` is below `2³¹`, so as a 32-bit word it does not wrap and a word equals it exactly when its signed reading
does; the comparison bit, widened and converted, is the extended real `1` or `0`; the change of format is the
identity on extended reals; the product into the zero block is the sum over the 9600 common coordinates; and
`1 · x = x`, `0 · x = 0`.
-/

open scoped BigOperators

namespace Cert.KernelIdeal.Payload

open Cert.KernelIdeal Cert.KernelIdeal.Gen Idealize.ShloMosaic Idealize.ShloMosaic.ValueIdx

noncomputable section

/-! ## Words -/

/-- `a · 1200 + p` computed on 32-bit words is the word of the natural number `1200·a + p` (reduction mod `2³²` is a
    ring homomorphism). -/
theorem row_word (a p : ℕ) :
    BitVec.ofNat 32 a * 1200#32 + BitVec.ofNat 32 p = BitVec.ofNat 32 (1200 * a + p) := by
  rw [BitVec.ofNat_add, BitVec.ofNat_mul, BitVec.mul_comm]

/-- For `n < 2³¹` a 32-bit word is the word of `n` exactly when its signed reading is `n`. -/
theorem ofNat_eq_iff_toInt (w : BitVec 32) (n : ℕ) (hn : n < 2 ^ 31) :
    BitVec.ofNat 32 n = w ↔ w.toInt = (n : ℤ) := by
  constructor
  · rintro rfl
    rw [BitVec.toInt_eq_toNat_cond, BitVec.toNat_ofNat]
    omega
  · intro h
    apply BitVec.eq_of_toInt_eq
    rw [h, BitVec.toInt_eq_toNat_cond, BitVec.toNat_ofNat]
    omega

/-- The comparison bit of the word of `n` (`n < 2³¹`) with a word `w`, widened to 32 bits and converted to a float, is
    the extended real `1` when `w` reads `n` and `0` otherwise. -/
theorem indicator_val (w : BitVec 32) (n : ℕ) (hn : n < 2 ^ 31) :
    (FloatOps.sitofp (F := Ideal) .f32 ((IntOp.cmpi .eq (BitVec.ofNat 32 n) w).setWidth 32) : EReal)
      = if w.toInt = (n : ℤ) then 1 else 0 := by
  by_cases h : BitVec.ofNat 32 n = w
  · rw [if_pos ((ofNat_eq_iff_toInt w n hn).mp h)]
    subst h
    have : IntOp.cmpi .eq (BitVec.ofNat 32 n) (BitVec.ofNat 32 n) = 1#1 := by simp [IntOp.cmpi]
    rw [this]
    show (((BitVec.setWidth 32 1#1).toInt : ℝ) : EReal) = 1
    norm_num
  · rw [if_neg (fun h' => h ((ofNat_eq_iff_toInt w n hn).mpr h'))]
    have : IntOp.cmpi .eq (BitVec.ofNat 32 n) w = 0#1 := by
      show BitVec.ofBool (BitVec.ofNat 32 n == w) = 0#1
      rw [beq_eq_false_iff_ne.mpr h]
      rfl
    rw [this]
    show (((BitVec.setWidth 32 0#1).toInt : ℝ) : EReal) = 0
    norm_num

/-! ## The operand indices of the contraction

The product contracts the left operand's axis 1 with the right operand's axis 0: at output index `j` and contraction
position `c` the left operand is read at `(j₀, c)` and the right one at `(c, j₁)`. -/

theorem lhs_0 (j : S1200x64.Idx) (c : dot_S1200x9600_S9600x64_S1200x64_1_0_0_1_n_n.contr.Idx) :
    (dot_S1200x9600_S9600x64_S1200x64_1_0_0_1_n_n.lhsIdx j c 0).val = (j 0).val := by
  unfold DotDims.lhsIdx
  rw [dif_neg (show ¬(0 : Fin S1200x9600.rank) ∈ dot_S1200x9600_S9600x64_S1200x64_1_0_0_1_n_n.lhsBatch by decide),
    dif_pos (show (0 : Fin S1200x9600.rank) ∈ dot_S1200x9600_S9600x64_S1200x64_1_0_0_1_n_n.lhsNonContracting by decide)]
  rfl

theorem lhs_1 (j : S1200x64.Idx) (c : dot_S1200x9600_S9600x64_S1200x64_1_0_0_1_n_n.contr.Idx) :
    (dot_S1200x9600_S9600x64_S1200x64_1_0_0_1_n_n.lhsIdx j c 1).val = (c ⟨0, by decide⟩).val :=
  dot_S1200x9600_S9600x64_S1200x64_1_0_0_1_n_n.lhsIdx_val_of_single rfl j c

theorem rhs_0 (j : S1200x64.Idx) (c : dot_S1200x9600_S9600x64_S1200x64_1_0_0_1_n_n.contr.Idx) :
    (dot_S1200x9600_S9600x64_S1200x64_1_0_0_1_n_n.rhsIdx j c 0).val = (c ⟨0, by decide⟩).val :=
  dot_S1200x9600_S9600x64_S1200x64_1_0_0_1_n_n.rhsIdx_val_of_single rfl j c

theorem rhs_1 (j : S1200x64.Idx) (c : dot_S1200x9600_S9600x64_S1200x64_1_0_0_1_n_n.contr.Idx) :
    (dot_S1200x9600_S9600x64_S1200x64_1_0_0_1_n_n.rhsIdx j c 1).val = (j 1).val := by
  unfold DotDims.rhsIdx
  rw [dif_neg (show ¬(1 : Fin S9600x64.rank) ∈ dot_S1200x9600_S9600x64_S1200x64_1_0_0_1_n_n.rhsBatch by decide),
    dif_pos (show (1 : Fin S9600x64.rank) ∈ dot_S1200x9600_S9600x64_S1200x64_1_0_0_1_n_n.rhsNonContracting by decide)]
  rfl

/-- The product of a [1200, 9600] matrix by a [9600, 64] matrix into the zero block, at (p, q): the sum over the 9600
    common coordinates of the products of the entries. -/
theorem matmul_zero_apply (A : FVec Ideal S1200x9600 .bf16) (B : FVec Ideal S9600x64 .bf16) (p : Fin 1200) (q : Fin 64) :
    matmul dot_S1200x9600_S9600x64_S1200x64_1_0_0_1_n_n none A B (constant (F := Ideal) S1200x64 .f32 0x00000000#32) (ix2 p q)
      = ∑ k : Fin 9600, A (ix2 p k) * B (ix2 k q) := by
  simp only [matmul]
  rw [Ideal.matmul_constant_zero_apply,
    ← Equiv.sum_comp (contrEquiv1 dot_S1200x9600_S9600x64_S1200x64_1_0_0_1_n_n 9600 rfl rfl).symm]
  refine Finset.sum_congr rfl fun k _ => ?_
  have hk := contrEquiv1_symm_val dot_S1200x9600_S9600x64_S1200x64_1_0_0_1_n_n 9600 rfl rfl k
  have el : dot_S1200x9600_S9600x64_S1200x64_1_0_0_1_n_n.lhsIdx (ix2 p q)
      ((contrEquiv1 dot_S1200x9600_S9600x64_S1200x64_1_0_0_1_n_n 9600 rfl rfl).symm k) = ix2 p k :=
    funext fun a => Fin.ext (by
      match a with
      | ⟨0, _⟩ => exact lhs_0 _ _
      | ⟨1, _⟩ => exact (lhs_1 _ _).trans hk)
  have er : dot_S1200x9600_S9600x64_S1200x64_1_0_0_1_n_n.rhsIdx (ix2 p q)
      ((contrEquiv1 dot_S1200x9600_S9600x64_S1200x64_1_0_0_1_n_n 9600 rfl rfl).symm k) = ix2 k q :=
    funext fun a => Fin.ext (by
      match a with
      | ⟨0, _⟩ => exact (rhs_0 _ _).trans hk
      | ⟨1, _⟩ => exact rhs_1 _ _)
  rw [el, er]

/-! ## The comparison matrix -/

/-- Entry (p, k) of the comparison of the column of row numbers `a + p` (the word `a` spread down a column, plus the
    row counter) with the row of words `v7`, both spread to [1200, 9600]: the comparison of `a + p` with `v7(0, k)`. -/
theorem mask_apply (a : BitVec 32) (v7 : IVec S1x9600 32) (p : Fin 1200) (k : Fin 9600)
    (hι : S1200x1.Iotas .tc 32 [0]) (hc : S1x9600.ShapeCasts S1x9600)
    (hb1 : S1200x1.Broadcasts S1200x9600) (hb2 : S1x9600.Broadcasts S1200x9600) :
    cmpi .eq (broadcastTo S1200x9600 (addi (broadcast S1200x1 a) (iota .tc S1200x1 32 [0] hι)) hb1)
        (broadcastTo S1200x9600 (shapeCast S1x9600 v7 hc) hb2) (ix2 p k)
      = IntOp.cmpi .eq (a + BitVec.ofNat 32 p.val) (v7 (ix2 (0 : Fin 1) k)) := by
  show IntOp.cmpi .eq (broadcastTo S1200x9600 _ hb1 (ix2 p k)) (broadcastTo S1200x9600 _ hb2 (ix2 p k)) = _
  rw [broadcastTo_apply _ hb1 (ix2 p k) (ix2 p (0 : Fin 1)) (by
        intro a; match a with | ⟨0, _⟩ => rfl | ⟨1, _⟩ => rfl),
    broadcastTo_apply _ hb2 (ix2 p k) (ix2 (0 : Fin 1) k) (by
        intro a; match a with | ⟨0, _⟩ => rfl | ⟨1, _⟩ => rfl),
    shapeCast_self]
  show IntOp.cmpi .eq (IntOp.addi a (iota .tc S1200x1 32 [0] hι (ix2 p (0 : Fin 1)))) _ = _
  rw [iota_single_apply]
  rfl

/-! ## The first launch -/

/-- The block stored on the first chunk is zero everywhere. -/
theorem k0_pay1_apply (y : S1200x64.Idx) : k0_pay1 (F := Ideal) y = 0 := by
  unfold k0_pay1
  rw [shapeCast_self]
  show Ideal.ofBits .f32 0x00000000#32 = 0
  exact Ideal.ofBits_zero_f32

/-- The block stored on every chunk, at (p, q): the running sum there plus the sum, over the chunk's edges whose
    destination is row `1200·i₀ + p`, of the messages' column `q`. -/
theorem k0_pay2_apply (i : grid0.Coords) (v7 : Vec Ideal S1x9600 .i32) (v15 : Vec Ideal S9600x64 .f32)
    (v18 : Vec Ideal S1200x64 .f32) (p : Fin 1200) (q : Fin 64) :
    k0_pay2 (F := Ideal) i v7 v15 v18 (ix2 p q)
      = v18 (ix2 p q) + ∑ k : Fin 9600,
          if (v7 (ix2 (0 : Fin 1) k)).toInt = ((1200 * (i 0).val + p.val : ℕ) : ℤ) then v15 (ix2 k q) else 0 := by
  have hi : (i 0).val < 125 := (i 0).isLt
  have hp := p.isLt
  have hn : 1200 * (i 0).val + p.val < 2 ^ 31 := by omega
  unfold k0_pay2
  rw [shapeCast_self, addf_apply]
  congr 1
  rw [matmul_zero_apply]
  refine Finset.sum_congr rfl fun k _ => ?_
  rw [truncf_apply, truncf_apply, shapeCast_self v15, sitofp_apply, extui_apply, mask_apply]
  show FloatOps.sitofp (F := Ideal) .f32
      ((IntOp.cmpi .eq (BitVec.ofNat 32 (i 0).val * 1200#32 + BitVec.ofNat 32 p.val) (v7 (ix2 (0 : Fin 1) k))).setWidth 32)
        * v15 (ix2 k q) = _
  rw [row_word, indicator_val _ _ hn]
  split_ifs
  · exact one_mul _
  · exact zero_mul _

/-! ## The second and third launches: the same grid and the same body -/

theorem k1_pay1_eq : k1_pay1 (F := Ideal) = k0_pay1 (F := Ideal) := rfl
theorem k1_pay2_eq : @k1_pay2 Ideal _ = @k0_pay2 Ideal _ := rfl
theorem k2_pay1_eq : k2_pay1 (F := Ideal) = k0_pay1 (F := Ideal) := rfl
theorem k2_pay2_eq : @k2_pay2 Ideal _ = @k0_pay2 Ideal _ := rfl

theorem k1_pay1_apply (y : S1200x64.Idx) : k1_pay1 (F := Ideal) y = 0 := k0_pay1_apply y

theorem k1_pay2_apply (i : grid1.Coords) (v7 : Vec Ideal S1x9600 .i32) (v15 : Vec Ideal S9600x64 .f32)
    (v18 : Vec Ideal S1200x64 .f32) (p : Fin 1200) (q : Fin 64) :
    k1_pay2 (F := Ideal) i v7 v15 v18 (ix2 p q)
      = v18 (ix2 p q) + ∑ k : Fin 9600,
          if (v7 (ix2 (0 : Fin 1) k)).toInt = ((1200 * (i 0).val + p.val : ℕ) : ℤ) then v15 (ix2 k q) else 0 :=
  k0_pay2_apply i v7 v15 v18 p q

theorem k2_pay1_apply (y : S1200x64.Idx) : k2_pay1 (F := Ideal) y = 0 := k0_pay1_apply y

theorem k2_pay2_apply (i : grid2.Coords) (v7 : Vec Ideal S1x9600 .i32) (v15 : Vec Ideal S9600x64 .f32)
    (v18 : Vec Ideal S1200x64 .f32) (p : Fin 1200) (q : Fin 64) :
    k2_pay2 (F := Ideal) i v7 v15 v18 (ix2 p q)
      = v18 (ix2 p q) + ∑ k : Fin 9600,
          if (v7 (ix2 (0 : Fin 1) k)).toInt = ((1200 * (i 0).val + p.val : ℕ) : ℤ) then v15 (ix2 k q) else 0 :=
  k0_pay2_apply i v7 v15 v18 p q

end

end Cert.KernelIdeal.Payload
-- ==== Proof.KernelIdeal.Region0.Value.lean ====
/-
  Segment sum, one launch: the VALUE of the launch over the extended reals. The result array ends holding the segment
  sum of the messages by the destinations: row r, column q is the sum over all 1200000 edges e of the message of e at
  column q when the destination of e, a 32-bit word read as a signed integer, is r, and of zero otherwise.
  The grid point t = 125·i + j handles row tile i (rows 1200·i + p, p < 1200) against edge tile j (edges 9600·j + k,
  k < 9600). The blocks the body loads are the arrays read at those offsets. By induction on the point, after point t
  the scratch holds, at (p, q), the sum of the contributions to row 1200·i + p of the edges below 9600·(j + 1): at
  j = 0 the body adds the tile's contributions to zero, at j ≠ 0 to what the point before left; only 0 + x = x and
  the splitting of a sum over an initial segment of the naturals are used, never finiteness. The output block's buffer
  holds a copy of the scratch at every point; it is written back after j = 124, when the sum runs over all edges, so
  each write-back is row tile i of the segment sum, and the row tiles cover the array.
-/
import proofs.«425571_j63591285785042_1_alg».proof.Proof.KernelIdeal.Region0.Pieces
import proofs.«425571_j63591285785042_1_alg».proof.Proof.KernelIdeal.Payload
import Idealize.ShloMosaic.Lib.Pipeline.Value
import Idealize.ShloMosaic.Lib.ValueIdx
import Idealize.ShloMosaic.PureOps.Ideal
import Mathlib.Algebra.BigOperators.Fin
import Mathlib.Algebra.BigOperators.Intervals

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The destinations and the messages as the launch finds them, at their literal types. -/
abbrev rowsArr (c : Dev nD) : Vec Ideal S1x1200000 .i32 := V c (Pipeline.arrRef spec0 0)
abbrev msgArr (c : Dev nD) : Vec Ideal S1200000x64 .f32 := V c (Pipeline.arrRef spec0 1)
/-- Their blocks at a point. -/
abbrev rowsBlk (c : Dev nD) (t : Fin cfg0.N) : Vec Ideal S1x9600 .i32 := iblk V c 0 t
abbrev msgBlk (c : Dev nD) (t : Fin cfg0.N) : Vec Ideal S9600x64 .f32 := iblk V c 1 t

/-! ## The grid: point t = 125·i + j -/

theorem stride0 : grid0.stride 0 = 125 := by decide
theorem stride1 : grid0.stride 1 = 1 := by decide

/-- The row tile of point t is t / 125, -/
theorem coords0 (t : Fin cfg0.N) : ((grid0.coords t) 0).val = t.val / 125 := by
  have hN : cfg0.N = 15625 := N_0
  have ht := t.isLt
  show t.val / grid0.stride 0 % 125 = _
  rw [stride0]; omega

/-- and its edge tile is t % 125. -/
theorem coords1 (t : Fin cfg0.N) : ((grid0.coords t) 1).val = t.val % 125 := by
  show t.val / grid0.stride 1 % 125 = _
  rw [stride1]; omega

/-- The destinations' block index: (0, j). -/
theorem index0_0 (t : Fin cfg0.N) : win0_0.index t 0 = 0 := rfl
theorem index0_1 (t : Fin cfg0.N) : win0_0.index t 1 = t.val % 125 := by
  show (BitVec.ofNat 32 ((grid0.coords t) 1).val).toNat = _
  rw [coords1, BitVec.toNat_ofNat]; omega
/-- The messages' block index: (j, 0). -/
theorem index1_0 (t : Fin cfg0.N) : win0_1.index t 0 = t.val % 125 := by
  show (BitVec.ofNat 32 ((grid0.coords t) 1).val).toNat = _
  rw [coords1, BitVec.toNat_ofNat]; omega
theorem index1_1 (t : Fin cfg0.N) : win0_1.index t 1 = 0 := rfl
/-- The result's block index: (i, 0). -/
theorem index2_0 (t : Fin cfg0.N) : win0_2.index t 0 = t.val / 125 := by
  have hN : cfg0.N = 15625 := N_0
  have ht := t.isLt
  show (BitVec.ofNat 32 ((grid0.coords t) 0).val).toNat = _
  rw [coords0, BitVec.toNat_ofNat]; omega
theorem index2_1 (t : Fin cfg0.N) : win0_2.index t 1 = 0 := rfl

/-! ## The input blocks, read off the arrays -/

/-- Edge tile j's destinations are the destinations of the edges 9600·j + k. -/
theorem rowsBlk_apply (c : Dev nD) (t : Fin cfg0.N) (k : Fin 9600) (e : Fin 1200000) (he : e.val = 9600 * (t.val % 125) + k.val) :
    rowsBlk V c t (ix2 (0 : Fin 1) k) = rowsArr V c (ix2 (0 : Fin 1) e) := by
  show rowsArr V c (((cfg0.win 0).blk t).view.emb (ix2 (0 : Fin 1) k)) = _
  refine congrArg (rowsArr V c) ?_
  funext a; apply Fin.ext
  match a with
  | ⟨0, _⟩ => show win0_0.index t 0 * 1 + 1 * 0 = 0; rw [index0_0]
  | ⟨1, _⟩ => show win0_0.index t 1 * 9600 + 1 * k.val = e.val; rw [index0_1]; omega

/-- Edge tile j's messages are the messages of the edges 9600·j + k. -/
theorem msgBlk_apply (c : Dev nD) (t : Fin cfg0.N) (k : Fin 9600) (q : Fin 64) (e : Fin 1200000) (he : e.val = 9600 * (t.val % 125) + k.val) :
    msgBlk V c t (ix2 k q) = msgArr V c (ix2 e q) := by
  show msgArr V c (((cfg0.win 1).blk t).view.emb (ix2 k q)) = _
  refine congrArg (msgArr V c) ?_
  funext a; apply Fin.ext
  match a with
  | ⟨0, _⟩ => show win0_1.index t 0 * 9600 + 1 * k.val = e.val; rw [index1_0]; omega
  | ⟨1, _⟩ => show win0_1.index t 1 * 64 + 1 * q.val = q.val; rw [index1_1]; omega

/-! ## The running sum over the edges -/

/-- Edge e's contribution to row r, column q: its message when its destination is r, else zero (and zero past the
    last edge). -/
def term (c : Dev nD) (r : ℕ) (q : Fin 64) (e : ℕ) : EReal :=
  if h : e < 1200000 then
    (if ((rowsArr V c) (ix2 (0 : Fin 1) ⟨e, h⟩)).toInt = (r : ℤ) then (msgArr V c) (ix2 ⟨e, h⟩ q) else 0)
  else 0

/-- One edge tile's contributions, as the body's 0/1-matrix product spells them, are the contributions of the edges
    9600·j + k, k < 9600. -/
theorem tile_sum (c : Dev nD) (t : Fin cfg0.N) (p : Fin 1200) (q : Fin 64) :
    (∑ k : Fin 9600, if ((rowsBlk V c t) (ix2 (0 : Fin 1) k)).toInt = ((1200 * ((grid0.coords t) 0).val + p.val : ℕ) : ℤ)
        then (msgBlk V c t) (ix2 k q) else 0)
      = ∑ x ∈ Finset.range 9600, term V c (1200 * (t.val / 125) + p.val) q (9600 * (t.val % 125) + x) := by
  rw [Finset.sum_range]
  refine Finset.sum_congr rfl fun k _ => ?_
  have he : 9600 * (t.val % 125) + k.val < 1200000 := by have := k.isLt; omega
  unfold term
  rw [dif_pos he, rowsBlk_apply V c t k ⟨_, he⟩ rfl, msgBlk_apply V c t k q ⟨_, he⟩ rfl, coords0]

/-- Adding edge tile j's contributions to the sum over the edges before it gives the sum over the edges up to its end. -/
theorem acc_step (c : Dev nD) (t : Fin cfg0.N) (p : Fin 1200) (q : Fin 64) (xs : EReal)
    (hxs : xs = ∑ e ∈ Finset.range (9600 * (t.val % 125)), term V c (1200 * (t.val / 125) + p.val) q e) :
    xs + (∑ k : Fin 9600, if ((rowsBlk V c t) (ix2 (0 : Fin 1) k)).toInt = ((1200 * ((grid0.coords t) 0).val + p.val : ℕ) : ℤ)
        then (msgBlk V c t) (ix2 k q) else 0)
      = ∑ e ∈ Finset.range (9600 * (t.val % 125 + 1)), term V c (1200 * (t.val / 125) + p.val) q e := by
  rw [tile_sum, hxs, show 9600 * (t.val % 125 + 1) = 9600 * (t.val % 125) + 9600 from by omega, Finset.sum_range_add]

/-! ## The invariant: after point t = 125·i + j the scratch holds the sum over the edges below 9600·(j+1) -/

theorem acc_eq (c : Dev nD) (n : ℕ) : ∀ (hn : n < cfg0.N) (p : Fin 1200) (q : Fin 64),
    (outsAt V c n hn).2 (ix2 p q)
      = ∑ e ∈ Finset.range (9600 * (n % 125 + 1)), term V c (1200 * (n / 125) + p.val) q e := by
  induction n using Nat.strong_induction_on with
  | _ n ih =>
    intro hn p q
    by_cases h0 : n % 125 = 0
    · rw [outsAt_A V c ⟨n, hn⟩ h0]
      dsimp only
      refine (congrFun (sout_A_eq (F := Ideal) c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)) (ix2 p q)).trans ?_
      refine (Payload.k0_pay2_apply (grid0.coords ⟨n, hn⟩) (rowsBlk V c ⟨n, hn⟩) (msgBlk V c ⟨n, hn⟩) (k0_pay1 (F := Ideal)) p q).trans ?_
      refine acc_step V c ⟨n, hn⟩ p q _ ?_
      rw [Payload.k0_pay1_apply]
      show (0 : EReal) = ∑ e ∈ Finset.range (9600 * (n % 125)), _
      rw [h0, Nat.mul_zero, Finset.range_zero, Finset.sum_empty]
    · rw [outsAt_B V c ⟨n, hn⟩ h0]
      dsimp only
      refine (congrFun (sout_B_eq (F := Ideal) c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2) (ix2 p q)).trans ?_
      refine (Payload.k0_pay2_apply (grid0.coords ⟨n, hn⟩) (rowsBlk V c ⟨n, hn⟩) (msgBlk V c ⟨n, hn⟩) (outsAt V c (n - 1) (Nat.lt_of_le_of_lt (Nat.sub_le _ _) hn)).2 p q).trans ?_
      refine acc_step V c ⟨n, hn⟩ p q _ ?_
      have e1 : (n - 1) % 125 + 1 = n % 125 := by omega
      have e2 : (n - 1) / 125 = n / 125 := by omega
      refine (ih (n - 1) (by omega) _ p q).trans ?_
      show _ = ∑ e ∈ Finset.range (9600 * (n % 125)), term V c (1200 * (n / 125) + p.val) q e
      rw [e1, e2]

/-- The output block's buffer holds the same as the scratch after every point. -/
theorem out_eq_acc (c : Dev nD) (n : ℕ) (hn : n < cfg0.N) : (outsAt V c n hn).1 = (outsAt V c n hn).2 := by
  by_cases h0 : n % 125 = 0
  · rw [outsAt_A V c ⟨n, hn⟩ h0]
    dsimp only
    exact (out_A_eq (F := Ideal) c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)).trans
      (sout_A_eq (F := Ideal) c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)).symm
  · rw [outsAt_B V c ⟨n, hn⟩ h0]
    dsimp only
    exact (out_B_eq (F := Ideal) c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2).trans
      (sout_B_eq (F := Ideal) c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2).symm

/-! ## The result array -/

/-- The segment sum of the messages by the destinations: row `o 0`, column `o 1` is the sum over all edges of the
    edge's message at that column when the edge's destination is that row. -/
abbrev target (c : Dev nD) : Vec Ideal S150000x64 .f32 :=
  fun o => ∑ e : Fin 1200000, if ((rowsArr V c) (ix2 (0 : Fin 1) e)).toInt = ((o 0).val : ℤ) then (msgArr V c) (ix2 e (o 1)) else 0

/-- The sum of the contributions of all 1200000 edges, as a sum over the edges themselves. -/
theorem sum_all (c : Dev nD) (r : ℕ) (q : Fin 64) :
    ∑ e ∈ Finset.range 1200000, term V c r q e
      = ∑ e : Fin 1200000, if ((rowsArr V c) (ix2 (0 : Fin 1) e)).toInt = (r : ℤ) then (msgArr V c) (ix2 e q) else 0 := by
  rw [Finset.sum_range]
  refine Finset.sum_congr rfl fun e _ => ?_
  unfold term
  exact dif_pos e.isLt

/-- After the last edge tile (j = 124) the scratch holds row tile i of the segment sum. -/
theorem acc_final (c : Dev nD) (t : Fin cfg0.N) (h124 : t.val % 125 = 124) (p : Fin 1200) (q : Fin 64) (o : S150000x64.Idx)
    (ho0 : (o 0).val = 1200 * (t.val / 125) + p.val) (ho1 : o 1 = q) :
    (outsAt V c t.val t.isLt).2 (ix2 p q) = target V c o := by
  rw [acc_eq V c t.val t.isLt p q, h124, show 9600 * (124 + 1) = 1200000 from rfl, sum_all]
  show _ = ∑ e : Fin 1200000, if ((rowsArr V c) (ix2 (0 : Fin 1) e)).toInt = ((o 0).val : ℤ) then (msgArr V c) (ix2 e (o 1)) else 0
  rw [ho0, ho1]

/-- What a point of the last edge tile writes back is its row tile of any function of the rows that the scratch
    holds there. -/
theorem flushed_eq_of (c : Dev nD) (G : Vec Ideal S150000x64 .f32)
    (hG : ∀ t : Fin cfg0.N, t.val % 125 = 124 → ∀ (p : Fin 1200) (q : Fin 64) (o : S150000x64.Idx),
      (o 0).val = 1200 * (t.val / 125) + p.val → o 1 = q → (outsAt V c t.val t.isLt).2 (ix2 p q) = G o)
    (t : Fin cfg0.N) (hf : (cfg0.win 2).flush t = true) :
    (dat V c).flushed 2 t = ((cfg0.win 2).blk t).view.read (Elt Ideal) G := by
  have h124 : t.val % 125 = 124 := (flush0_2 t).mp hf
  show (cfg0.win 2).cut (grid0.coords t) ((dat V c).after 2 t) = _
  rw [after_2, out_eq_acc]
  funext y
  show (outsAt V c t.val t.isLt).2 y = G (((cfg0.win 2).blk t).view.emb y)
  refine (congrArg _ (eq_ix2 y)).trans ?_
  refine hG t h124 (y 0) (y 1) _ ?_ ?_
  · show win0_2.index t 0 * 1200 + 1 * (y 0).val = 1200 * (t.val / 125) + (y 0).val
    rw [index2_0]; omega
  · apply Fin.ext
    show win0_2.index t 1 * 64 + 1 * (y 1).val = (y 1).val
    rw [index2_1]; omega

/-- Every row is in the block of a point of the last edge tile: row r in that of point 125·(r / 1200) + 124. -/
theorem covered (o : S150000x64.Idx) :
    ∃ t : Fin cfg0.N, (cfg0.win 2).flush t = true ∧ o ∈ ((cfg0.win 2).blk t).view.set := by
  have hN : cfg0.N = 15625 := N_0
  have h0 : (o 0).val < 150000 := (o 0).isLt
  have h1 : (o 1).val < 64 := (o 1).isLt
  obtain ⟨t, htv⟩ : ∃ t : Fin cfg0.N, t.val = 125 * ((o 0).val / 1200) + 124 := ⟨⟨_, by omega⟩, rfl⟩
  refine ⟨t, (flush0_2 t).mpr (by omega), ?_⟩
  show o ∈ ((View.whole main_v12).slice (win0_2.rect t)).set
  rw [View.set_slice_whole, Rect.mem_set_unit]
  intro a
  match a with
  | ⟨0, _⟩ =>
    show win0_2.index t 0 * 1200 ≤ (o 0).val ∧ (o 0).val < win0_2.index t 0 * 1200 + 1200
    rw [index2_0]; omega
  | ⟨1, _⟩ =>
    show win0_2.index t 1 * 64 ≤ (o 1).val ∧ (o 1).val < win0_2.index t 1 * 64 + 64
    rw [index2_1]; omega

/-- THE VALUE OF THE LAUNCH: its result array ends holding the segment sum of the messages by the destinations. -/
theorem arr_final (c : Dev nD) :
    (dat V c).arrAt 2 cfg0.N
      = fun o => ∑ e : Fin 1200000, if ((rowsArr V c) (ix2 (0 : Fin 1) e)).toInt = ((o 0).val : ℤ) then (msgArr V c) (ix2 e (o 1)) else 0 :=
  (dat V c).arrAt_eq_of_cover 2 (target V c) (flushed_eq_of V c (target V c) (acc_final V c)) covered

end Cert.KernelIdeal.Region0
end
-- ==== Proof.KernelIdeal.Region1.Pieces.lean ====
/-
  Segment sum, one launch: what each case of the body leaves, in closed form.
  At a point of the first edge tile (j = 0) the scratch is zeroed and then receives zeros + (0/1 matrix) · messages; at a
  point of a later edge tile (j ≠ 0) it receives xs + (0/1 matrix) · messages, xs the running sum it was found at. In both
  cases the output block's buffer receives a copy of the scratch. Every load and store of the body goes through the whole
  rectangle at offset zero of its buffer: such a load reads the buffer's contents, such a store, made last, leaves its
  payload whatever was stored before, and a load after it reads that payload back. So the scratch and the output buffer
  both end at the update's payload, over the two input blocks as given and over zeros (j = 0) or xs (j ≠ 0).
-/
import proofs.«425571_j63591285785042_1_alg».proof.Proof.KernelIdeal.Region1.Data
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every rectangle the body loads or stores through is zero in both coordinates. -/
private theorem hz : (![0, 0] : Fin 2 → Nat) = fun _ => 0 := funext fun a => by fin_cases a <;> rfl

/-! ## The first edge tile: zeros, then the update over zeros -/

/-- At j = 0 the scratch ends at zeros + (0/1 matrix) · messages: of the two whole-buffer stores the later one (the
    update) decides, and the running sum it read is what the earlier one (the zeroing) left. -/
theorem sout_A_eq (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) :
    sout_A c i arg2 harg2 arg3 harg3 arg4 harg4 arg5 harg5 hc x0 x1 = k1_pay2 i x0 x1 (k1_pay1 (F := F)) := by
  unfold sout_A
  rw [View.read_writes_eq_canon _ _ _ (scover_A c i arg2 harg2 arg3 harg3 arg4 harg4 arg5 harg5 hc x0 x1)]
  unfold kernelRun_A
  dsimp only
  sl_unfold_words
  rw [View.canon_cons_unit_zero (S := S1200x64) hz, View.readCov_unit_zero (S := S1200x64) _ hz]
  simp only [View.readAt_eq_ld, harg2.read_unread, harg3.read_unread, View.ld_unit_zero (S := S1x9600) hz, View.ld_unit_zero (S := S9600x64) hz]

/-- At j = 0 the output buffer ends at the same: its one store copies what a whole-buffer load of the scratch read
    after the update, which is the update's payload. -/
theorem out_A_eq (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) :
    out_A c i arg2 harg2 arg3 harg3 arg4 harg4 arg5 harg5 hc x0 x1 = k1_pay2 i x0 x1 (k1_pay1 (F := F)) := by
  unfold out_A
  rw [View.read_writes_eq_canon _ _ _ (cover_A c i arg2 harg2 arg3 harg3 arg4 harg4 arg5 harg5 hc x0 x1)]
  unfold kernelRun_A
  dsimp only
  sl_unfold_words
  rw [View.canon_unit_zero (S := S1200x64) hz, View.readCov_cons_toLoadRect, View.readCov_unit_zero (S := S1200x64) _ hz]
  simp only [View.readAt_eq_ld, harg2.read_unread, harg3.read_unread, View.ld_unit_zero (S := S1x9600) hz, View.ld_unit_zero (S := S9600x64) hz]

/-! ## A later edge tile: the update over the running sum -/

/-- At j ≠ 0 the scratch ends at xs + (0/1 matrix) · messages: one whole-buffer store, of the update over the running
    sum xs the scratch was found at. -/
theorem sout_B_eq (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) :
    sout_B c i arg2 harg2 arg3 harg3 arg4 harg4 arg5 harg5 hc x0 x1 xs = k1_pay2 i x0 x1 xs := by
  unfold sout_B
  rw [View.read_writes_eq_canon _ _ _ (scover_B c i arg2 harg2 arg3 harg3 arg4 harg4 arg5 harg5 hc x0 x1 xs)]
  unfold kernelRun_B
  dsimp only
  sl_unfold_words
  rw [View.canon_unit_zero (S := S1200x64) hz]
  simp only [View.readAt_eq_ld, harg2.read_unread, harg3.read_unread, harg5.read_unread, View.ld_unit_zero (S := S1x9600) hz, View.ld_unit_zero (S := S9600x64) hz, View.ld_unit_zero (S := S1200x64) hz]

/-- At j ≠ 0 the output buffer ends at the same: a copy of the scratch read back after the update. -/
theorem out_B_eq (c : Dev nD) (i : grid1.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) :
    out_B c i arg2 harg2 arg3 harg3 arg4 harg4 arg5 harg5 hc x0 x1 xs = k1_pay2 i x0 x1 xs := by
  unfold out_B
  rw [View.read_writes_eq_canon _ _ _ (cover_B c i arg2 harg2 arg3 harg3 arg4 harg4 arg5 harg5 hc x0 x1 xs)]
  unfold kernelRun_B
  dsimp only
  sl_unfold_words
  rw [View.canon_unit_zero (S := S1200x64) hz, View.readCov_unit_zero (S := S1200x64) _ hz]
  simp only [View.readAt_eq_ld, harg2.read_unread, harg3.read_unread, harg5.read_unread, View.ld_unit_zero (S := S1x9600) hz, View.ld_unit_zero (S := S9600x64) hz, View.ld_unit_zero (S := S1200x64) hz]

end Cert.KernelIdeal.Region1

end
-- ==== Proof.KernelIdeal.Region1.Value.lean ====
/-
  Segment sum, one launch: the VALUE of the launch over the extended reals. The result array ends holding the segment
  sum of the messages by the destinations: row r, column q is the sum over all 1200000 edges e of the message of e at
  column q when the destination of e, a 32-bit word read as a signed integer, is r, and of zero otherwise.
  The grid point t = 125·i + j handles row tile i (rows 1200·i + p, p < 1200) against edge tile j (edges 9600·j + k,
  k < 9600). The blocks the body loads are the arrays read at those offsets. By induction on the point, after point t
  the scratch holds, at (p, q), the sum of the contributions to row 1200·i + p of the edges below 9600·(j + 1): at
  j = 0 the body adds the tile's contributions to zero, at j ≠ 0 to what the point before left; only 0 + x = x and
  the splitting of a sum over an initial segment of the naturals are used, never finiteness. The output block's buffer
  holds a copy of the scratch at every point; it is written back after j = 124, when the sum runs over all edges, so
  each write-back is row tile i of the segment sum, and the row tiles cover the array.
-/
import proofs.«425571_j63591285785042_1_alg».proof.Proof.KernelIdeal.Region1.Pieces
import proofs.«425571_j63591285785042_1_alg».proof.Proof.KernelIdeal.Payload
import Idealize.ShloMosaic.Lib.Pipeline.Value
import Idealize.ShloMosaic.Lib.ValueIdx
import Idealize.ShloMosaic.PureOps.Ideal
import Mathlib.Algebra.BigOperators.Fin
import Mathlib.Algebra.BigOperators.Intervals

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The destinations and the messages as the launch finds them, at their literal types. -/
abbrev rowsArr (c : Dev nD) : Vec Ideal S1x1200000 .i32 := V c (Pipeline.arrRef spec1 0)
abbrev msgArr (c : Dev nD) : Vec Ideal S1200000x64 .f32 := V c (Pipeline.arrRef spec1 1)
/-- Their blocks at a point. -/
abbrev rowsBlk (c : Dev nD) (t : Fin cfg1.N) : Vec Ideal S1x9600 .i32 := iblk V c 0 t
abbrev msgBlk (c : Dev nD) (t : Fin cfg1.N) : Vec Ideal S9600x64 .f32 := iblk V c 1 t

/-! ## The grid: point t = 125·i + j -/

theorem stride0 : grid1.stride 0 = 125 := by decide
theorem stride1 : grid1.stride 1 = 1 := by decide

/-- The row tile of point t is t / 125, -/
theorem coords0 (t : Fin cfg1.N) : ((grid1.coords t) 0).val = t.val / 125 := by
  have hN : cfg1.N = 15625 := N_1
  have ht := t.isLt
  show t.val / grid1.stride 0 % 125 = _
  rw [stride0]; omega

/-- and its edge tile is t % 125. -/
theorem coords1 (t : Fin cfg1.N) : ((grid1.coords t) 1).val = t.val % 125 := by
  show t.val / grid1.stride 1 % 125 = _
  rw [stride1]; omega

/-- The destinations' block index: (0, j). -/
theorem index0_0 (t : Fin cfg1.N) : win1_0.index t 0 = 0 := rfl
theorem index0_1 (t : Fin cfg1.N) : win1_0.index t 1 = t.val % 125 := by
  show (BitVec.ofNat 32 ((grid1.coords t) 1).val).toNat = _
  rw [coords1, BitVec.toNat_ofNat]; omega
/-- The messages' block index: (j, 0). -/
theorem index1_0 (t : Fin cfg1.N) : win1_1.index t 0 = t.val % 125 := by
  show (BitVec.ofNat 32 ((grid1.coords t) 1).val).toNat = _
  rw [coords1, BitVec.toNat_ofNat]; omega
theorem index1_1 (t : Fin cfg1.N) : win1_1.index t 1 = 0 := rfl
/-- The result's block index: (i, 0). -/
theorem index2_0 (t : Fin cfg1.N) : win1_2.index t 0 = t.val / 125 := by
  have hN : cfg1.N = 15625 := N_1
  have ht := t.isLt
  show (BitVec.ofNat 32 ((grid1.coords t) 0).val).toNat = _
  rw [coords0, BitVec.toNat_ofNat]; omega
theorem index2_1 (t : Fin cfg1.N) : win1_2.index t 1 = 0 := rfl

/-! ## The input blocks, read off the arrays -/

/-- Edge tile j's destinations are the destinations of the edges 9600·j + k. -/
theorem rowsBlk_apply (c : Dev nD) (t : Fin cfg1.N) (k : Fin 9600) (e : Fin 1200000) (he : e.val = 9600 * (t.val % 125) + k.val) :
    rowsBlk V c t (ix2 (0 : Fin 1) k) = rowsArr V c (ix2 (0 : Fin 1) e) := by
  show rowsArr V c (((cfg1.win 0).blk t).view.emb (ix2 (0 : Fin 1) k)) = _
  refine congrArg (rowsArr V c) ?_
  funext a; apply Fin.ext
  match a with
  | ⟨0, _⟩ => show win1_0.index t 0 * 1 + 1 * 0 = 0; rw [index0_0]
  | ⟨1, _⟩ => show win1_0.index t 1 * 9600 + 1 * k.val = e.val; rw [index0_1]; omega

/-- Edge tile j's messages are the messages of the edges 9600·j + k. -/
theorem msgBlk_apply (c : Dev nD) (t : Fin cfg1.N) (k : Fin 9600) (q : Fin 64) (e : Fin 1200000) (he : e.val = 9600 * (t.val % 125) + k.val) :
    msgBlk V c t (ix2 k q) = msgArr V c (ix2 e q) := by
  show msgArr V c (((cfg1.win 1).blk t).view.emb (ix2 k q)) = _
  refine congrArg (msgArr V c) ?_
  funext a; apply Fin.ext
  match a with
  | ⟨0, _⟩ => show win1_1.index t 0 * 9600 + 1 * k.val = e.val; rw [index1_0]; omega
  | ⟨1, _⟩ => show win1_1.index t 1 * 64 + 1 * q.val = q.val; rw [index1_1]; omega

/-! ## The running sum over the edges -/

/-- Edge e's contribution to row r, column q: its message when its destination is r, else zero (and zero past the
    last edge). -/
def term (c : Dev nD) (r : ℕ) (q : Fin 64) (e : ℕ) : EReal :=
  if h : e < 1200000 then
    (if ((rowsArr V c) (ix2 (0 : Fin 1) ⟨e, h⟩)).toInt = (r : ℤ) then (msgArr V c) (ix2 ⟨e, h⟩ q) else 0)
  else 0

/-- One edge tile's contributions, as the body's 0/1-matrix product spells them, are the contributions of the edges
    9600·j + k, k < 9600. -/
theorem tile_sum (c : Dev nD) (t : Fin cfg1.N) (p : Fin 1200) (q : Fin 64) :
    (∑ k : Fin 9600, if ((rowsBlk V c t) (ix2 (0 : Fin 1) k)).toInt = ((1200 * ((grid1.coords t) 0).val + p.val : ℕ) : ℤ)
        then (msgBlk V c t) (ix2 k q) else 0)
      = ∑ x ∈ Finset.range 9600, term V c (1200 * (t.val / 125) + p.val) q (9600 * (t.val % 125) + x) := by
  rw [Finset.sum_range]
  refine Finset.sum_congr rfl fun k _ => ?_
  have he : 9600 * (t.val % 125) + k.val < 1200000 := by have := k.isLt; omega
  unfold term
  rw [dif_pos he, rowsBlk_apply V c t k ⟨_, he⟩ rfl, msgBlk_apply V c t k q ⟨_, he⟩ rfl, coords0]

/-- Adding edge tile j's contributions to the sum over the edges before it gives the sum over the edges up to its end. -/
theorem acc_step (c : Dev nD) (t : Fin cfg1.N) (p : Fin 1200) (q : Fin 64) (xs : EReal)
    (hxs : xs = ∑ e ∈ Finset.range (9600 * (t.val % 125)), term V c (1200 * (t.val / 125) + p.val) q e) :
    xs + (∑ k : Fin 9600, if ((rowsBlk V c t) (ix2 (0 : Fin 1) k)).toInt = ((1200 * ((grid1.coords t) 0).val + p.val : ℕ) : ℤ)
        then (msgBlk V c t) (ix2 k q) else 0)
      = ∑ e ∈ Finset.range (9600 * (t.val % 125 + 1)), term V c (1200 * (t.val / 125) + p.val) q e := by
  rw [tile_sum, hxs, show 9600 * (t.val % 125 + 1) = 9600 * (t.val % 125) + 9600 from by omega, Finset.sum_range_add]

/-! ## The invariant: after point t = 125·i + j the scratch holds the sum over the edges below 9600·(j+1) -/

theorem acc_eq (c : Dev nD) (n : ℕ) : ∀ (hn : n < cfg1.N) (p : Fin 1200) (q : Fin 64),
    (outsAt V c n hn).2 (ix2 p q)
      = ∑ e ∈ Finset.range (9600 * (n % 125 + 1)), term V c (1200 * (n / 125) + p.val) q e := by
  induction n using Nat.strong_induction_on with
  | _ n ih =>
    intro hn p q
    by_cases h0 : n % 125 = 0
    · rw [outsAt_A V c ⟨n, hn⟩ h0]
      dsimp only
      refine (congrFun (sout_A_eq (F := Ideal) c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)) (ix2 p q)).trans ?_
      refine (Payload.k1_pay2_apply (grid1.coords ⟨n, hn⟩) (rowsBlk V c ⟨n, hn⟩) (msgBlk V c ⟨n, hn⟩) (k1_pay1 (F := Ideal)) p q).trans ?_
      refine acc_step V c ⟨n, hn⟩ p q _ ?_
      rw [Payload.k1_pay1_apply]
      show (0 : EReal) = ∑ e ∈ Finset.range (9600 * (n % 125)), _
      rw [h0, Nat.mul_zero, Finset.range_zero, Finset.sum_empty]
    · rw [outsAt_B V c ⟨n, hn⟩ h0]
      dsimp only
      refine (congrFun (sout_B_eq (F := Ideal) c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2) (ix2 p q)).trans ?_
      refine (Payload.k1_pay2_apply (grid1.coords ⟨n, hn⟩) (rowsBlk V c ⟨n, hn⟩) (msgBlk V c ⟨n, hn⟩) (outsAt V c (n - 1) (Nat.lt_of_le_of_lt (Nat.sub_le _ _) hn)).2 p q).trans ?_
      refine acc_step V c ⟨n, hn⟩ p q _ ?_
      have e1 : (n - 1) % 125 + 1 = n % 125 := by omega
      have e2 : (n - 1) / 125 = n / 125 := by omega
      refine (ih (n - 1) (by omega) _ p q).trans ?_
      show _ = ∑ e ∈ Finset.range (9600 * (n % 125)), term V c (1200 * (n / 125) + p.val) q e
      rw [e1, e2]

/-- The output block's buffer holds the same as the scratch after every point. -/
theorem out_eq_acc (c : Dev nD) (n : ℕ) (hn : n < cfg1.N) : (outsAt V c n hn).1 = (outsAt V c n hn).2 := by
  by_cases h0 : n % 125 = 0
  · rw [outsAt_A V c ⟨n, hn⟩ h0]
    dsimp only
    exact (out_A_eq (F := Ideal) c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)).trans
      (sout_A_eq (F := Ideal) c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)).symm
  · rw [outsAt_B V c ⟨n, hn⟩ h0]
    dsimp only
    exact (out_B_eq (F := Ideal) c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2).trans
      (sout_B_eq (F := Ideal) c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2).symm

/-! ## The result array -/

/-- The segment sum of the messages by the destinations: row `o 0`, column `o 1` is the sum over all edges of the
    edge's message at that column when the edge's destination is that row. -/
abbrev target (c : Dev nD) : Vec Ideal S150000x64 .f32 :=
  fun o => ∑ e : Fin 1200000, if ((rowsArr V c) (ix2 (0 : Fin 1) e)).toInt = ((o 0).val : ℤ) then (msgArr V c) (ix2 e (o 1)) else 0

/-- The sum of the contributions of all 1200000 edges, as a sum over the edges themselves. -/
theorem sum_all (c : Dev nD) (r : ℕ) (q : Fin 64) :
    ∑ e ∈ Finset.range 1200000, term V c r q e
      = ∑ e : Fin 1200000, if ((rowsArr V c) (ix2 (0 : Fin 1) e)).toInt = (r : ℤ) then (msgArr V c) (ix2 e q) else 0 := by
  rw [Finset.sum_range]
  refine Finset.sum_congr rfl fun e _ => ?_
  unfold term
  exact dif_pos e.isLt

/-- After the last edge tile (j = 124) the scratch holds row tile i of the segment sum. -/
theorem acc_final (c : Dev nD) (t : Fin cfg1.N) (h124 : t.val % 125 = 124) (p : Fin 1200) (q : Fin 64) (o : S150000x64.Idx)
    (ho0 : (o 0).val = 1200 * (t.val / 125) + p.val) (ho1 : o 1 = q) :
    (outsAt V c t.val t.isLt).2 (ix2 p q) = target V c o := by
  rw [acc_eq V c t.val t.isLt p q, h124, show 9600 * (124 + 1) = 1200000 from rfl, sum_all]
  show _ = ∑ e : Fin 1200000, if ((rowsArr V c) (ix2 (0 : Fin 1) e)).toInt = ((o 0).val : ℤ) then (msgArr V c) (ix2 e (o 1)) else 0
  rw [ho0, ho1]

/-- What a point of the last edge tile writes back is its row tile of any function of the rows that the scratch
    holds there. -/
theorem flushed_eq_of (c : Dev nD) (G : Vec Ideal S150000x64 .f32)
    (hG : ∀ t : Fin cfg1.N, t.val % 125 = 124 → ∀ (p : Fin 1200) (q : Fin 64) (o : S150000x64.Idx),
      (o 0).val = 1200 * (t.val / 125) + p.val → o 1 = q → (outsAt V c t.val t.isLt).2 (ix2 p q) = G o)
    (t : Fin cfg1.N) (hf : (cfg1.win 2).flush t = true) :
    (dat V c).flushed 2 t = ((cfg1.win 2).blk t).view.read (Elt Ideal) G := by
  have h124 : t.val % 125 = 124 := (flush1_2 t).mp hf
  show (cfg1.win 2).cut (grid1.coords t) ((dat V c).after 2 t) = _
  rw [after_2, out_eq_acc]
  funext y
  show (outsAt V c t.val t.isLt).2 y = G (((cfg1.win 2).blk t).view.emb y)
  refine (congrArg _ (eq_ix2 y)).trans ?_
  refine hG t h124 (y 0) (y 1) _ ?_ ?_
  · show win1_2.index t 0 * 1200 + 1 * (y 0).val = 1200 * (t.val / 125) + (y 0).val
    rw [index2_0]; omega
  · apply Fin.ext
    show win1_2.index t 1 * 64 + 1 * (y 1).val = (y 1).val
    rw [index2_1]; omega

/-- Every row is in the block of a point of the last edge tile: row r in that of point 125·(r / 1200) + 124. -/
theorem covered (o : S150000x64.Idx) :
    ∃ t : Fin cfg1.N, (cfg1.win 2).flush t = true ∧ o ∈ ((cfg1.win 2).blk t).view.set := by
  have hN : cfg1.N = 15625 := N_1
  have h0 : (o 0).val < 150000 := (o 0).isLt
  have h1 : (o 1).val < 64 := (o 1).isLt
  obtain ⟨t, htv⟩ : ∃ t : Fin cfg1.N, t.val = 125 * ((o 0).val / 1200) + 124 := ⟨⟨_, by omega⟩, rfl⟩
  refine ⟨t, (flush1_2 t).mpr (by omega), ?_⟩
  show o ∈ ((View.whole main_v25).slice (win1_2.rect t)).set
  rw [View.set_slice_whole, Rect.mem_set_unit]
  intro a
  match a with
  | ⟨0, _⟩ =>
    show win1_2.index t 0 * 1200 ≤ (o 0).val ∧ (o 0).val < win1_2.index t 0 * 1200 + 1200
    rw [index2_0]; omega
  | ⟨1, _⟩ =>
    show win1_2.index t 1 * 64 ≤ (o 1).val ∧ (o 1).val < win1_2.index t 1 * 64 + 64
    rw [index2_1]; omega

/-- THE VALUE OF THE LAUNCH: its result array ends holding the segment sum of the messages by the destinations. -/
theorem arr_final (c : Dev nD) :
    (dat V c).arrAt 2 cfg1.N
      = fun o => ∑ e : Fin 1200000, if ((rowsArr V c) (ix2 (0 : Fin 1) e)).toInt = ((o 0).val : ℤ) then (msgArr V c) (ix2 e (o 1)) else 0 :=
  (dat V c).arrAt_eq_of_cover 2 (target V c) (flushed_eq_of V c (target V c) (acc_final V c)) covered

end Cert.KernelIdeal.Region1
end
-- ==== Proof.KernelIdeal.Region2.Pieces.lean ====
/-
  Segment sum, one launch: what each case of the body leaves, in closed form.
  At a point of the first edge tile (j = 0) the scratch is zeroed and then receives zeros + (0/1 matrix) · messages; at a
  point of a later edge tile (j ≠ 0) it receives xs + (0/1 matrix) · messages, xs the running sum it was found at. In both
  cases the output block's buffer receives a copy of the scratch. Every load and store of the body goes through the whole
  rectangle at offset zero of its buffer: such a load reads the buffer's contents, such a store, made last, leaves its
  payload whatever was stored before, and a load after it reads that payload back. So the scratch and the output buffer
  both end at the update's payload, over the two input blocks as given and over zeros (j = 0) or xs (j ≠ 0).
-/
import proofs.«425571_j63591285785042_1_alg».proof.Proof.KernelIdeal.Region2.Data
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every rectangle the body loads or stores through is zero in both coordinates. -/
private theorem hz : (![0, 0] : Fin 2 → Nat) = fun _ => 0 := funext fun a => by fin_cases a <;> rfl

/-! ## The first edge tile: zeros, then the update over zeros -/

/-- At j = 0 the scratch ends at zeros + (0/1 matrix) · messages: of the two whole-buffer stores the later one (the
    update) decides, and the running sum it read is what the earlier one (the zeroing) left. -/
theorem sout_A_eq (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) :
    sout_A c i arg2 harg2 arg3 harg3 arg4 harg4 arg5 harg5 hc x0 x1 = k2_pay2 i x0 x1 (k2_pay1 (F := F)) := by
  unfold sout_A
  rw [View.read_writes_eq_canon _ _ _ (scover_A c i arg2 harg2 arg3 harg3 arg4 harg4 arg5 harg5 hc x0 x1)]
  unfold kernelRun_A
  dsimp only
  sl_unfold_words
  rw [View.canon_cons_unit_zero (S := S1200x64) hz, View.readCov_unit_zero (S := S1200x64) _ hz]
  simp only [View.readAt_eq_ld, harg2.read_unread, harg3.read_unread, View.ld_unit_zero (S := S1x9600) hz, View.ld_unit_zero (S := S9600x64) hz]

/-- At j = 0 the output buffer ends at the same: its one store copies what a whole-buffer load of the scratch read
    after the update, which is the update's payload. -/
theorem out_A_eq (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : cond i) (x0 : Vec F S1x9600 .i32) (x1 : Vec F S9600x64 .f32) :
    out_A c i arg2 harg2 arg3 harg3 arg4 harg4 arg5 harg5 hc x0 x1 = k2_pay2 i x0 x1 (k2_pay1 (F := F)) := by
  unfold out_A
  rw [View.read_writes_eq_canon _ _ _ (cover_A c i arg2 harg2 arg3 harg3 arg4 harg4 arg5 harg5 hc x0 x1)]
  unfold kernelRun_A
  dsimp only
  sl_unfold_words
  rw [View.canon_unit_zero (S := S1200x64) hz, View.readCov_cons_toLoadRect, View.readCov_unit_zero (S := S1200x64) _ hz]
  simp only [View.readAt_eq_ld, harg2.read_unread, harg3.read_unread, View.ld_unit_zero (S := S1x9600) hz, View.ld_unit_zero (S := S9600x64) hz]

/-! ## A later edge tile: the update over the running sum -/

/-- At j ≠ 0 the scratch ends at xs + (0/1 matrix) · messages: one whole-buffer store, of the update over the running
    sum xs the scratch was found at. -/
theorem sout_B_eq (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) :
    sout_B c i arg2 harg2 arg3 harg3 arg4 harg4 arg5 harg5 hc x0 x1 xs = k2_pay2 i x0 x1 xs := by
  unfold sout_B
  rw [View.read_writes_eq_canon _ _ _ (scover_B c i arg2 harg2 arg3 harg3 arg4 harg4 arg5 harg5 hc x0 x1 xs)]
  unfold kernelRun_B
  dsimp only
  sl_unfold_words
  rw [View.canon_unit_zero (S := S1200x64) hz]
  simp only [View.readAt_eq_ld, harg2.read_unread, harg3.read_unread, harg5.read_unread, View.ld_unit_zero (S := S1x9600) hz, View.ld_unit_zero (S := S9600x64) hz, View.ld_unit_zero (S := S1200x64) hz]

/-- At j ≠ 0 the output buffer ends at the same: a copy of the scratch read back after the update. -/
theorem out_B_eq (c : Dev nD) (i : grid2.Coords) (arg2 : Memref sig .tc .vmem S1x9600 .i32) (harg2 : arg2.IsWhole) (arg3 : Memref sig .tc .vmem S9600x64 .f32) (harg3 : arg3.IsWhole) (arg4 : Memref sig .tc .vmem S1200x64 .f32) (harg4 : arg4.IsWhole) (arg5 : Memref sig .tc .vmem S1200x64 .f32) (harg5 : arg5.IsWhole) (hc : ¬cond i) (x0 : Vec F S1x9600 .i32) (x1 : Vec F S9600x64 .f32) (xs : Vec F S1200x64 .f32) :
    out_B c i arg2 harg2 arg3 harg3 arg4 harg4 arg5 harg5 hc x0 x1 xs = k2_pay2 i x0 x1 xs := by
  unfold out_B
  rw [View.read_writes_eq_canon _ _ _ (cover_B c i arg2 harg2 arg3 harg3 arg4 harg4 arg5 harg5 hc x0 x1 xs)]
  unfold kernelRun_B
  dsimp only
  sl_unfold_words
  rw [View.canon_unit_zero (S := S1200x64) hz, View.readCov_unit_zero (S := S1200x64) _ hz]
  simp only [View.readAt_eq_ld, harg2.read_unread, harg3.read_unread, harg5.read_unread, View.ld_unit_zero (S := S1x9600) hz, View.ld_unit_zero (S := S9600x64) hz, View.ld_unit_zero (S := S1200x64) hz]

end Cert.KernelIdeal.Region2

end
-- ==== Proof.KernelIdeal.Region2.Value.lean ====
/-
  Segment sum, one launch: the VALUE of the launch over the extended reals. The result array ends holding the segment
  sum of the messages by the destinations: row r, column q is the sum over all 1200000 edges e of the message of e at
  column q when the destination of e, a 32-bit word read as a signed integer, is r, and of zero otherwise.
  The grid point t = 125·i + j handles row tile i (rows 1200·i + p, p < 1200) against edge tile j (edges 9600·j + k,
  k < 9600). The blocks the body loads are the arrays read at those offsets. By induction on the point, after point t
  the scratch holds, at (p, q), the sum of the contributions to row 1200·i + p of the edges below 9600·(j + 1): at
  j = 0 the body adds the tile's contributions to zero, at j ≠ 0 to what the point before left; only 0 + x = x and
  the splitting of a sum over an initial segment of the naturals are used, never finiteness. The output block's buffer
  holds a copy of the scratch at every point; it is written back after j = 124, when the sum runs over all edges, so
  each write-back is row tile i of the segment sum, and the row tiles cover the array.
-/
import proofs.«425571_j63591285785042_1_alg».proof.Proof.KernelIdeal.Region2.Pieces
import proofs.«425571_j63591285785042_1_alg».proof.Proof.KernelIdeal.Payload
import Idealize.ShloMosaic.Lib.Pipeline.Value
import Idealize.ShloMosaic.Lib.ValueIdx
import Idealize.ShloMosaic.PureOps.Ideal
import Mathlib.Algebra.BigOperators.Fin
import Mathlib.Algebra.BigOperators.Intervals

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The destinations and the messages as the launch finds them, at their literal types. -/
abbrev rowsArr (c : Dev nD) : Vec Ideal S1x1200000 .i32 := V c (Pipeline.arrRef spec2 0)
abbrev msgArr (c : Dev nD) : Vec Ideal S1200000x64 .f32 := V c (Pipeline.arrRef spec2 1)
/-- Their blocks at a point. -/
abbrev rowsBlk (c : Dev nD) (t : Fin cfg2.N) : Vec Ideal S1x9600 .i32 := iblk V c 0 t
abbrev msgBlk (c : Dev nD) (t : Fin cfg2.N) : Vec Ideal S9600x64 .f32 := iblk V c 1 t

/-! ## The grid: point t = 125·i + j -/

theorem stride0 : grid2.stride 0 = 125 := by decide
theorem stride1 : grid2.stride 1 = 1 := by decide

/-- The row tile of point t is t / 125, -/
theorem coords0 (t : Fin cfg2.N) : ((grid2.coords t) 0).val = t.val / 125 := by
  have hN : cfg2.N = 15625 := N_2
  have ht := t.isLt
  show t.val / grid2.stride 0 % 125 = _
  rw [stride0]; omega

/-- and its edge tile is t % 125. -/
theorem coords1 (t : Fin cfg2.N) : ((grid2.coords t) 1).val = t.val % 125 := by
  show t.val / grid2.stride 1 % 125 = _
  rw [stride1]; omega

/-- The destinations' block index: (0, j). -/
theorem index0_0 (t : Fin cfg2.N) : win2_0.index t 0 = 0 := rfl
theorem index0_1 (t : Fin cfg2.N) : win2_0.index t 1 = t.val % 125 := by
  show (BitVec.ofNat 32 ((grid2.coords t) 1).val).toNat = _
  rw [coords1, BitVec.toNat_ofNat]; omega
/-- The messages' block index: (j, 0). -/
theorem index1_0 (t : Fin cfg2.N) : win2_1.index t 0 = t.val % 125 := by
  show (BitVec.ofNat 32 ((grid2.coords t) 1).val).toNat = _
  rw [coords1, BitVec.toNat_ofNat]; omega
theorem index1_1 (t : Fin cfg2.N) : win2_1.index t 1 = 0 := rfl
/-- The result's block index: (i, 0). -/
theorem index2_0 (t : Fin cfg2.N) : win2_2.index t 0 = t.val / 125 := by
  have hN : cfg2.N = 15625 := N_2
  have ht := t.isLt
  show (BitVec.ofNat 32 ((grid2.coords t) 0).val).toNat = _
  rw [coords0, BitVec.toNat_ofNat]; omega
theorem index2_1 (t : Fin cfg2.N) : win2_2.index t 1 = 0 := rfl

/-! ## The input blocks, read off the arrays -/

/-- Edge tile j's destinations are the destinations of the edges 9600·j + k. -/
theorem rowsBlk_apply (c : Dev nD) (t : Fin cfg2.N) (k : Fin 9600) (e : Fin 1200000) (he : e.val = 9600 * (t.val % 125) + k.val) :
    rowsBlk V c t (ix2 (0 : Fin 1) k) = rowsArr V c (ix2 (0 : Fin 1) e) := by
  show rowsArr V c (((cfg2.win 0).blk t).view.emb (ix2 (0 : Fin 1) k)) = _
  refine congrArg (rowsArr V c) ?_
  funext a; apply Fin.ext
  match a with
  | ⟨0, _⟩ => show win2_0.index t 0 * 1 + 1 * 0 = 0; rw [index0_0]
  | ⟨1, _⟩ => show win2_0.index t 1 * 9600 + 1 * k.val = e.val; rw [index0_1]; omega

/-- Edge tile j's messages are the messages of the edges 9600·j + k. -/
theorem msgBlk_apply (c : Dev nD) (t : Fin cfg2.N) (k : Fin 9600) (q : Fin 64) (e : Fin 1200000) (he : e.val = 9600 * (t.val % 125) + k.val) :
    msgBlk V c t (ix2 k q) = msgArr V c (ix2 e q) := by
  show msgArr V c (((cfg2.win 1).blk t).view.emb (ix2 k q)) = _
  refine congrArg (msgArr V c) ?_
  funext a; apply Fin.ext
  match a with
  | ⟨0, _⟩ => show win2_1.index t 0 * 9600 + 1 * k.val = e.val; rw [index1_0]; omega
  | ⟨1, _⟩ => show win2_1.index t 1 * 64 + 1 * q.val = q.val; rw [index1_1]; omega

/-! ## The running sum over the edges -/

/-- Edge e's contribution to row r, column q: its message when its destination is r, else zero (and zero past the
    last edge). -/
def term (c : Dev nD) (r : ℕ) (q : Fin 64) (e : ℕ) : EReal :=
  if h : e < 1200000 then
    (if ((rowsArr V c) (ix2 (0 : Fin 1) ⟨e, h⟩)).toInt = (r : ℤ) then (msgArr V c) (ix2 ⟨e, h⟩ q) else 0)
  else 0

/-- One edge tile's contributions, as the body's 0/1-matrix product spells them, are the contributions of the edges
    9600·j + k, k < 9600. -/
theorem tile_sum (c : Dev nD) (t : Fin cfg2.N) (p : Fin 1200) (q : Fin 64) :
    (∑ k : Fin 9600, if ((rowsBlk V c t) (ix2 (0 : Fin 1) k)).toInt = ((1200 * ((grid2.coords t) 0).val + p.val : ℕ) : ℤ)
        then (msgBlk V c t) (ix2 k q) else 0)
      = ∑ x ∈ Finset.range 9600, term V c (1200 * (t.val / 125) + p.val) q (9600 * (t.val % 125) + x) := by
  rw [Finset.sum_range]
  refine Finset.sum_congr rfl fun k _ => ?_
  have he : 9600 * (t.val % 125) + k.val < 1200000 := by have := k.isLt; omega
  unfold term
  rw [dif_pos he, rowsBlk_apply V c t k ⟨_, he⟩ rfl, msgBlk_apply V c t k q ⟨_, he⟩ rfl, coords0]

/-- Adding edge tile j's contributions to the sum over the edges before it gives the sum over the edges up to its end. -/
theorem acc_step (c : Dev nD) (t : Fin cfg2.N) (p : Fin 1200) (q : Fin 64) (xs : EReal)
    (hxs : xs = ∑ e ∈ Finset.range (9600 * (t.val % 125)), term V c (1200 * (t.val / 125) + p.val) q e) :
    xs + (∑ k : Fin 9600, if ((rowsBlk V c t) (ix2 (0 : Fin 1) k)).toInt = ((1200 * ((grid2.coords t) 0).val + p.val : ℕ) : ℤ)
        then (msgBlk V c t) (ix2 k q) else 0)
      = ∑ e ∈ Finset.range (9600 * (t.val % 125 + 1)), term V c (1200 * (t.val / 125) + p.val) q e := by
  rw [tile_sum, hxs, show 9600 * (t.val % 125 + 1) = 9600 * (t.val % 125) + 9600 from by omega, Finset.sum_range_add]

/-! ## The invariant: after point t = 125·i + j the scratch holds the sum over the edges below 9600·(j+1) -/

theorem acc_eq (c : Dev nD) (n : ℕ) : ∀ (hn : n < cfg2.N) (p : Fin 1200) (q : Fin 64),
    (outsAt V c n hn).2 (ix2 p q)
      = ∑ e ∈ Finset.range (9600 * (n % 125 + 1)), term V c (1200 * (n / 125) + p.val) q e := by
  induction n using Nat.strong_induction_on with
  | _ n ih =>
    intro hn p q
    by_cases h0 : n % 125 = 0
    · rw [outsAt_A V c ⟨n, hn⟩ h0]
      dsimp only
      refine (congrFun (sout_A_eq (F := Ideal) c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)) (ix2 p q)).trans ?_
      refine (Payload.k2_pay2_apply (grid2.coords ⟨n, hn⟩) (rowsBlk V c ⟨n, hn⟩) (msgBlk V c ⟨n, hn⟩) (k2_pay1 (F := Ideal)) p q).trans ?_
      refine acc_step V c ⟨n, hn⟩ p q _ ?_
      rw [Payload.k2_pay1_apply]
      show (0 : EReal) = ∑ e ∈ Finset.range (9600 * (n % 125)), _
      rw [h0, Nat.mul_zero, Finset.range_zero, Finset.sum_empty]
    · rw [outsAt_B V c ⟨n, hn⟩ h0]
      dsimp only
      refine (congrFun (sout_B_eq (F := Ideal) c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2) (ix2 p q)).trans ?_
      refine (Payload.k2_pay2_apply (grid2.coords ⟨n, hn⟩) (rowsBlk V c ⟨n, hn⟩) (msgBlk V c ⟨n, hn⟩) (outsAt V c (n - 1) (Nat.lt_of_le_of_lt (Nat.sub_le _ _) hn)).2 p q).trans ?_
      refine acc_step V c ⟨n, hn⟩ p q _ ?_
      have e1 : (n - 1) % 125 + 1 = n % 125 := by omega
      have e2 : (n - 1) / 125 = n / 125 := by omega
      refine (ih (n - 1) (by omega) _ p q).trans ?_
      show _ = ∑ e ∈ Finset.range (9600 * (n % 125)), term V c (1200 * (n / 125) + p.val) q e
      rw [e1, e2]

/-- The output block's buffer holds the same as the scratch after every point. -/
theorem out_eq_acc (c : Dev nD) (n : ℕ) (hn : n < cfg2.N) : (outsAt V c n hn).1 = (outsAt V c n hn).2 := by
  by_cases h0 : n % 125 = 0
  · rw [outsAt_A V c ⟨n, hn⟩ h0]
    dsimp only
    exact (out_A_eq (F := Ideal) c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)).trans
      (sout_A_eq (F := Ideal) c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) ((hcond ⟨n, hn⟩).mpr h0) (rowsBlk V c ⟨n, hn⟩) (msgBlk V c ⟨n, hn⟩)).symm
  · rw [outsAt_B V c ⟨n, hn⟩ h0]
    dsimp only
    exact (out_B_eq (F := Ideal) c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2).trans
      (sout_B_eq (F := Ideal) c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) scM (Memref.isWhole_whole _) (fun h => h0 ((hcond ⟨n, hn⟩).mp h)) (rowsBlk V c ⟨n, hn⟩) (msgBlk V c ⟨n, hn⟩) (outsAt V c (n - 1) (Nat.lt_of_le_of_lt (Nat.sub_le _ _) hn)).2).symm

/-! ## The result array -/

/-- The segment sum of the messages by the destinations: row `o 0`, column `o 1` is the sum over all edges of the
    edge's message at that column when the edge's destination is that row. -/
abbrev target (c : Dev nD) : Vec Ideal S150000x64 .f32 :=
  fun o => ∑ e : Fin 1200000, if ((rowsArr V c) (ix2 (0 : Fin 1) e)).toInt = ((o 0).val : ℤ) then (msgArr V c) (ix2 e (o 1)) else 0

/-- The sum of the contributions of all 1200000 edges, as a sum over the edges themselves. -/
theorem sum_all (c : Dev nD) (r : ℕ) (q : Fin 64) :
    ∑ e ∈ Finset.range 1200000, term V c r q e
      = ∑ e : Fin 1200000, if ((rowsArr V c) (ix2 (0 : Fin 1) e)).toInt = (r : ℤ) then (msgArr V c) (ix2 e q) else 0 := by
  rw [Finset.sum_range]
  refine Finset.sum_congr rfl fun e _ => ?_
  unfold term
  exact dif_pos e.isLt

/-- After the last edge tile (j = 124) the scratch holds row tile i of the segment sum. -/
theorem acc_final (c : Dev nD) (t : Fin cfg2.N) (h124 : t.val % 125 = 124) (p : Fin 1200) (q : Fin 64) (o : S150000x64.Idx)
    (ho0 : (o 0).val = 1200 * (t.val / 125) + p.val) (ho1 : o 1 = q) :
    (outsAt V c t.val t.isLt).2 (ix2 p q) = target V c o := by
  rw [acc_eq V c t.val t.isLt p q, h124, show 9600 * (124 + 1) = 1200000 from rfl, sum_all]
  show _ = ∑ e : Fin 1200000, if ((rowsArr V c) (ix2 (0 : Fin 1) e)).toInt = ((o 0).val : ℤ) then (msgArr V c) (ix2 e (o 1)) else 0
  rw [ho0, ho1]

/-- What a point of the last edge tile writes back is its row tile of any function of the rows that the scratch
    holds there. -/
theorem flushed_eq_of (c : Dev nD) (G : Vec Ideal S150000x64 .f32)
    (hG : ∀ t : Fin cfg2.N, t.val % 125 = 124 → ∀ (p : Fin 1200) (q : Fin 64) (o : S150000x64.Idx),
      (o 0).val = 1200 * (t.val / 125) + p.val → o 1 = q → (outsAt V c t.val t.isLt).2 (ix2 p q) = G o)
    (t : Fin cfg2.N) (hf : (cfg2.win 2).flush t = true) :
    (dat V c).flushed 2 t = ((cfg2.win 2).blk t).view.read (Elt Ideal) G := by
  have h124 : t.val % 125 = 124 := (flush2_2 t).mp hf
  show (cfg2.win 2).cut (grid2.coords t) ((dat V c).after 2 t) = _
  rw [after_2, out_eq_acc]
  funext y
  show (outsAt V c t.val t.isLt).2 y = G (((cfg2.win 2).blk t).view.emb y)
  refine (congrArg _ (eq_ix2 y)).trans ?_
  refine hG t h124 (y 0) (y 1) _ ?_ ?_
  · show win2_2.index t 0 * 1200 + 1 * (y 0).val = 1200 * (t.val / 125) + (y 0).val
    rw [index2_0]; omega
  · apply Fin.ext
    show win2_2.index t 1 * 64 + 1 * (y 1).val = (y 1).val
    rw [index2_1]; omega

/-- Every row is in the block of a point of the last edge tile: row r in that of point 125·(r / 1200) + 124. -/
theorem covered (o : S150000x64.Idx) :
    ∃ t : Fin cfg2.N, (cfg2.win 2).flush t = true ∧ o ∈ ((cfg2.win 2).blk t).view.set := by
  have hN : cfg2.N = 15625 := N_2
  have h0 : (o 0).val < 150000 := (o 0).isLt
  have h1 : (o 1).val < 64 := (o 1).isLt
  obtain ⟨t, htv⟩ : ∃ t : Fin cfg2.N, t.val = 125 * ((o 0).val / 1200) + 124 := ⟨⟨_, by omega⟩, rfl⟩
  refine ⟨t, (flush2_2 t).mpr (by omega), ?_⟩
  show o ∈ ((View.whole main_v38).slice (win2_2.rect t)).set
  rw [View.set_slice_whole, Rect.mem_set_unit]
  intro a
  match a with
  | ⟨0, _⟩ =>
    show win2_2.index t 0 * 1200 ≤ (o 0).val ∧ (o 0).val < win2_2.index t 0 * 1200 + 1200
    rw [index2_0]; omega
  | ⟨1, _⟩ =>
    show win2_2.index t 1 * 64 ≤ (o 1).val ∧ (o 1).val < win2_2.index t 1 * 64 + 64
    rw [index2_1]; omega

/-- THE VALUE OF THE LAUNCH: its result array ends holding the segment sum of the messages by the destinations. -/
theorem arr_final (c : Dev nD) :
    (dat V c).arrAt 2 cfg2.N
      = fun o => ∑ e : Fin 1200000, if ((rowsArr V c) (ix2 (0 : Fin 1) e)).toInt = ((o 0).val : ℤ) then (msgArr V c) (ix2 e (o 1)) else 0 :=
  (dat V c).arrAt_eq_of_cover 2 (target V c) (flushed_eq_of V c (target V c) (acc_final V c)) covered

end Cert.KernelIdeal.Region2
end
-- ==== Proof.RefValue.lean ====
/-
  The reference's results as explicit functions of the argument arrays.

  The reference runs three rounds of message passing over the joined node table `ego` (the 50000 rows of the first
  argument above the 100000 rows of the second): a round multiplies, for every edge `e`, the row of the current table
  that the edge's source names by the edge's weight, and adds the product into the row of a zero table that the edge's
  destination names. Written in StableHLO the last step is a scatter with an `add` body over 1200000 scatter indices.
  At the ideal instance that scatter is the exact sum of the updates that land on each element, an update landing
  outside the table contributing nothing. For the dimension numbers of this program update `(e, q)` lands on
  element `(r, q')` exactly when the destination word of edge `e`, read as a signed integer, is `r`, and `q = q'`;
  so the scatter into a zero table is the segment sum `Cert.SegSum.segsum` of the messages by the destinations
  (`scatter_eq`). With every scatter rewritten so, the three results are `ego` and the two row blocks of
  `(ego + x₁ + x₂ + x₃) / 4`, `x₁ = layer ego`, `x₂ = layer x₁`, `x₃ = layer x₂` (`ref_run`).
-/
import proofs.«425571_j63591285785042_1_alg».proof.Proof.Gen.ReferenceIdeal.Read
import proofs.«425571_j63591285785042_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Idealize.ShloMosaic.TcCoe Idealize.SL.Sem
open Cert.ReferenceIdeal Cert.ReferenceIdeal.Gen

/-! ## The scatter's dimension numbers, axis by axis

The operand is `[150000, 64]`, the scatter indices `[1200000, 1]` (index vector on axis 1, of length one, naming
operand axis 0), the updates `[1200000, 64]` (axis 1 the window axis, going to operand axis 1; operand axis 0 is
inserted). -/

local notation "D" => scatter_S150000x64_S1200000x1_S1200000x64_1_0_0_1

/-- On operand axis 0 the window of update `j` starts at the signed destination word of edge `j 0`. -/
theorem start0 (j : S1200000x64.Idx) (idx : IVec S1200000x1 32) :
    ScatterDims.start D j idx 0 = (idx (ix2 (j 0) 0)).toInt := by
  unfold ScatterDims.start
  rw [dif_pos (show (0 : Fin 2) ∈ (D).scatterDimsToOperandDims from List.mem_singleton.mpr rfl)]
  congr 2
  funext b
  refine Fin.ext ?_
  match b with
  | ⟨0, _⟩ => rfl
  | ⟨1, _⟩ => rfl

/-- On operand axis 1, which no scatter index names, it starts at `0`. -/
theorem start1 (j : S1200000x64.Idx) (idx : IVec S1200000x1 32) :
    ScatterDims.start D j idx 1 = 0 := by
  unfold ScatterDims.start
  rw [dif_neg (show ¬ (1 : Fin 2) ∈ (D).scatterDimsToOperandDims from
    (by decide : ¬ (1 : Fin 2) ∈ ([0] : List (Fin 2))))]

/-- Operand axis 0 is inserted: the window coordinate there is `0`. -/
theorem window0 (j : S1200000x64.Idx) : ScatterDims.window D j 0 = 0 := by
  unfold ScatterDims.window
  rw [dif_neg (show ¬ (0 : Fin 2) ∈ (D).sKept from
    (by decide : ¬ (0 : Fin S150000x64.rank) ∈ S150000x64.kept [0]))]

/-- On operand axis 1 the window coordinate is the update's column. -/
theorem window1 (j : S1200000x64.Idx) : ScatterDims.window D j 1 = (j 1).val := by
  unfold ScatterDims.window
  rw [dif_pos (show (1 : Fin 2) ∈ (D).sKept from
    (by decide : (1 : Fin S150000x64.rank) ∈ S150000x64.kept [0]))]
  rfl

/-- Update `(e, q)` lands on element `o` exactly when edge `e`'s destination word, read signed, is the row `o 0`
    and `q` is the column `o 1`: a destination that is negative or at least 150000 lands nowhere. -/
theorem resultIdx_eq_some_iff (j : S1200000x64.Idx) (idx : IVec S1200000x1 32) (o : S150000x64.Idx) :
    ScatterDims.resultIdx? D j idx = some o ↔ (idx (ix2 (j 0) 0)).toInt = ((o 0).val : ℤ) ∧ j 1 = o 1 := by
  have ho0 : (o 0).val < 150000 := idx2_lt0 o
  have ho1 : (o 1).val < 64 := idx2_lt1 o
  have hj1 : (j 1).val < 64 := idx2_lt1 j
  unfold ScatterDims.resultIdx?
  split
  · rename_i h
    rw [Option.some.injEq]
    constructor
    · intro heq
      have e0 := congrArg (fun f => (f 0).val) heq
      have e1 := congrArg (fun f => (f 1).val) heq
      simp only [start0, start1, window0, window1] at e0 e1
      have h0 := h 0
      rw [start0, window0] at h0
      refine ⟨by omega, Fin.ext (by omega)⟩
    · rintro ⟨e0, e1⟩
      funext a
      refine Fin.ext ?_
      match a with
      | ⟨0, _⟩ =>
        show (ScatterDims.start D j idx 0 + (ScatterDims.window D j 0 : ℤ)).toNat = (o 0).val
        rw [start0, window0]; omega
      | ⟨1, _⟩ =>
        show (ScatterDims.start D j idx 1 + (ScatterDims.window D j 1 : ℤ)).toNat = (o 1).val
        rw [start1, window1, e1]; omega
  · rename_i h
    constructor
    · intro heq; exact absurd heq (by simp)
    · rintro ⟨e0, e1⟩
      exfalso
      apply h
      intro a
      match a with
      | ⟨0, _⟩ =>
        show 0 ≤ ScatterDims.start D j idx 0 + (ScatterDims.window D j 0 : ℤ)
          ∧ ScatterDims.start D j idx 0 + (ScatterDims.window D j 0 : ℤ) < (150000 : ℕ)
        rw [start0, window0]; omega
      | ⟨1, _⟩ =>
        show 0 ≤ ScatterDims.start D j idx 1 + (ScatterDims.window D j 1 : ℤ)
          ∧ ScatterDims.start D j idx 1 + (ScatterDims.window D j 1 : ℤ) < (64 : ℕ)
        rw [start1, window1]; omega

/-! ## The scatter into a zero table is the segment sum -/

/-- The scatter indices at `(e, 0)` are the destination word of edge `e`. -/
theorem rows_bcast_apply (rows : IVec S1200000 32) (e : Fin 1200000) :
    broadcastInDim S1200000x1 ![0] bcast_S1200000_S1200000x1_0 rows (ix2 e 0) = rows (ix1 e) :=
  broadcastInDim_apply _ _ rows _ (ix1 e) (fun a => match a with | ⟨0, _⟩ => rfl)

/-- The operand of the scatter is zero everywhere. -/
theorem zero_bcast_apply (o : S150000x64.Idx) :
    broadcastInDim S150000x64 ![] bcast_S_S150000x64 (constant (F := Ideal) S_ .f32 0x00000000#32) o = (0 : EReal) := by
  rw [broadcastInDim_apply _ _ _ o ix0 (fun a => a.elim0), constant_apply]
  exact Ideal.ofBits_zero_f32

/-- At the ideal instance the host's accumulating scatter is the exact sum. -/
theorem host_eq (x : FVec Ideal S150000x64 .f32) (idx : IVec S1200000x1 32) (upd : FVec Ideal S1200000x64 .f32) :
    Host.scatterAdd (F := Ideal) D x idx upd = Ideal.hostScatterAdd D x idx upd := rfl

/-- The ideal scatter at one element, over any operand, indices and updates: the operand's element plus the sum over
    all updates of those that land on the element. -/
theorem scatter_at (x : S150000x64.Idx → EReal) (idx : IVec S1200000x1 32) (upd : S1200000x64.Idx → EReal) (o : S150000x64.Idx) :
    Ideal.hostScatterAdd D x idx upd o
      = x o + ∑ j : S1200000x64.Idx, if ScatterDims.resultIdx? D j idx = some o then upd j else 0 := by
  unfold Ideal.hostScatterAdd
  rw [Finset.sum_filter]

/-- For the indices this program scatters by — the destinations, one per edge — update `(e, q)` lands on element
    `(r, q')` exactly when edge `e`'s signed destination is `r` and `q = q'`. -/
theorem lands_iff (rows : IVec S1200000 32) (e : Fin 1200000) (q : Fin 64) (r : Fin 150000) (q' : Fin 64) :
    ScatterDims.resultIdx? D (ix2 e q) (broadcastInDim S1200000x1 ![0] bcast_S1200000_S1200000x1_0 rows) = some (ix2 r q')
      ↔ (rows (ix1 e)).toInt = (r.val : ℤ) ∧ q = q' := by
  rw [resultIdx_eq_some_iff]
  show (broadcastInDim S1200000x1 ![0] bcast_S1200000_S1200000x1_0 rows (ix2 e 0)).toInt = (r.val : ℤ) ∧ q = q' ↔ _
  rw [rows_bcast_apply]

/-- THE SCATTER INTO A ZERO TABLE IS THE SEGMENT SUM: element `(r, q')` of the result is the sum over the edges whose
    signed destination is `r` of the message row's column `q'`. -/
theorem scatter_eq (rows : IVec S1200000 32) (msgs : FVec Ideal S1200000x64 .f32) :
    Host.scatterAdd (F := Ideal) D
      (broadcastInDim S150000x64 ![] bcast_S_S150000x64 (constant (F := Ideal) S_ .f32 0x00000000#32))
      (broadcastInDim S1200000x1 ![0] bcast_S1200000_S1200000x1_0 rows) msgs
    = Cert.SegSum.segsum rows msgs := by
  funext o
  obtain ⟨r, q', rfl⟩ : ∃ (r : Fin 150000) (q' : Fin 64), o = ix2 r q' := ⟨o 0, o 1, eq_ix2 o⟩
  rw [host_eq, scatter_at, zero_bcast_apply, zero_add, sum_idx2]
  unfold Cert.SegSum.segsum
  show _ = ∑ e : Fin 1200000, if (rows (ix1 e)).toInt = (r.val : ℤ) then msgs (ix2 e q') else 0
  refine Finset.sum_congr rfl (fun e _ => ?_)
  -- the updates of edge `e`: only column `q'` can land on `(r, q')`, and it does when the destination is `r`
  have hq : ∀ q : Fin 64,
      (if ScatterDims.resultIdx? D (ix2 e q) (broadcastInDim S1200000x1 ![0] bcast_S1200000_S1200000x1_0 rows) = some (ix2 r q')
        then msgs (ix2 e q) else 0)
      = if q = q' then (if (rows (ix1 e)).toInt = (r.val : ℤ) then msgs (ix2 e q) else 0) else 0 := by
    intro q
    by_cases hA : (rows (ix1 e)).toInt = (r.val : ℤ)
    · by_cases hB : q = q'
      · rw [if_pos ((lands_iff rows e q r q').2 ⟨hA, hB⟩), if_pos hB, if_pos hA]
      · rw [if_neg (fun h => hB ((lands_iff rows e q r q').1 h).2), if_neg hB]
    · by_cases hB : q = q'
      · rw [if_neg (fun h => hA ((lands_iff rows e q r q').1 h).1), if_pos hB, if_neg hA]
      · rw [if_neg (fun h => hA ((lands_iff rows e q r q').1 h).1), if_neg hB]
  rw [Finset.sum_congr rfl (fun q _ => hq q), Finset.sum_ite_eq' Finset.univ q', if_pos (Finset.mem_univ _)]

/-! ## The reference's results as functions of the five arguments

`a0`, `a1` the two node tables, `rows` the edges' destinations, `cols` their sources, `vals` their weights. -/

/-- The messages of one round from the table `x`: row `e` is the weight of edge `e` times the row of `x` that the
    edge's source names — a negative source counted from the end of the table, as `x[cols]` does, and the row then
    clamped into the table, as the model's gather clamps its start index (PureOps/Dims.lean `GatherDims.start`).
    The reference's own term, operation by operation. -/
def msgs (x : FVec Ideal S150000x64 .f32) (cols : IVec S1200000 32) (vals : FVec Ideal S1200000 .f32) :
    FVec Ideal S1200000x64 .f32 :=
  mulf (broadcastInDim S1200000x64 ![0, 1] bcast_S1200000x1_S1200000x64_0_1 (broadcastInDim S1200000x1 ![0] bcast_S1200000_S1200000x1_0 vals))
    (Host.gather gather_S150000x64_S1200000x1_S1200000x64_1_0_n_n_0_1_164 x
      (broadcastInDim S1200000x1 ![0] bcast_S1200000_S1200000x1_0
        (select (cmpi .slt cols (broadcastInDim S1200000 ![] bcast_S_S1200000 (constantI S_ 32 0#32)))
          (addi cols (broadcastInDim S1200000 ![] bcast_S_S1200000 (constantI S_ 32 150000#32))) cols)))

/-- One round: the segment sum of the round's messages by the edges' destinations. -/
def layer (x : FVec Ideal S150000x64 .f32) (rows cols : IVec S1200000 32) (vals : FVec Ideal S1200000 .f32) :
    FVec Ideal S150000x64 .f32 :=
  Cert.SegSum.segsum rows (msgs x cols vals)

/-- The joined node table: the first argument's 50000 rows above the second's 100000. -/
def ego (a0 : FVec Ideal S50000x64 .f32) (a1 : FVec Ideal S100000x64 .f32) : FVec Ideal S150000x64 .f32 :=
  concatenate S150000x64 0 [⟨S50000x64, a0⟩, ⟨S100000x64, a1⟩] concatenates_S50000x64_S100000x64_S150000x64_d0

/-- The mean of the joined table and the three rounds' tables: `(ego + x₁ + x₂ + x₃) / 4`, each round run on the
    table the round before it produced. -/
def mean (a0 : FVec Ideal S50000x64 .f32) (a1 : FVec Ideal S100000x64 .f32) (rows cols : IVec S1200000 32)
    (vals : FVec Ideal S1200000 .f32) : FVec Ideal S150000x64 .f32 :=
  Host.divf
    (addf (addf (addf (ego a0 a1) (layer (ego a0 a1) rows cols vals))
        (layer (layer (ego a0 a1) rows cols vals) rows cols vals))
      (layer (layer (layer (ego a0 a1) rows cols vals) rows cols vals) rows cols vals))
    (broadcastInDim S150000x64 ![] bcast_S_S150000x64 (constant (F := Ideal) S_ .f32 0x40800000#32))

/-- The second result: rows `[0, 50000)` of the mean. -/
def res1 (a0 : FVec Ideal S50000x64 .f32) (a1 : FVec Ideal S100000x64 .f32) (rows cols : IVec S1200000 32)
    (vals : FVec Ideal S1200000 .f32) : FVec Ideal S50000x64 .f32 :=
  extractStridedSlice S50000x64 ![0, 0] (mean a0 a1 rows cols vals) slices_S150000x64_S50000x64_0_0

/-- The third result: rows `[50000, 150000)` of the mean. -/
def res2 (a0 : FVec Ideal S50000x64 .f32) (a1 : FVec Ideal S100000x64 .f32) (rows cols : IVec S1200000 32)
    (vals : FVec Ideal S1200000 .f32) : FVec Ideal S100000x64 .f32 :=
  extractStridedSlice S100000x64 ![50000, 0] (mean a0 a1 rows cols vals) slices_S150000x64_S100000x64_50000_0

/-! ## The same with each round still written as the scatter, and the two agree -/

/-- One round as the reference spells it: the messages scattered, with addition, into a zero table. -/
def layerS (x : FVec Ideal S150000x64 .f32) (rows cols : IVec S1200000 32) (vals : FVec Ideal S1200000 .f32) :
    FVec Ideal S150000x64 .f32 :=
  Host.scatterAdd (F := Ideal) D
    (broadcastInDim S150000x64 ![] bcast_S_S150000x64 (constant (F := Ideal) S_ .f32 0x00000000#32))
    (broadcastInDim S1200000x1 ![0] bcast_S1200000_S1200000x1_0 rows) (msgs x cols vals)

theorem layerS_eq (x : FVec Ideal S150000x64 .f32) (rows cols : IVec S1200000 32) (vals : FVec Ideal S1200000 .f32) :
    layerS x rows cols vals = layer x rows cols vals :=
  scatter_eq rows (msgs x cols vals)

/-- The mean over the rounds spelt as scatters. -/
def meanS (a0 : FVec Ideal S50000x64 .f32) (a1 : FVec Ideal S100000x64 .f32) (rows cols : IVec S1200000 32)
    (vals : FVec Ideal S1200000 .f32) : FVec Ideal S150000x64 .f32 :=
  Host.divf
    (addf (addf (addf (ego a0 a1) (layerS (ego a0 a1) rows cols vals))
        (layerS (layerS (ego a0 a1) rows cols vals) rows cols vals))
      (layerS (layerS (layerS (ego a0 a1) rows cols vals) rows cols vals) rows cols vals))
    (broadcastInDim S150000x64 ![] bcast_S_S150000x64 (constant (F := Ideal) S_ .f32 0x40800000#32))

theorem meanS_eq (a0 : FVec Ideal S50000x64 .f32) (a1 : FVec Ideal S100000x64 .f32) (rows cols : IVec S1200000 32)
    (vals : FVec Ideal S1200000 .f32) : meanS a0 a1 rows cols vals = mean a0 a1 rows cols vals := by
  unfold meanS mean
  rw [layerS_eq, layerS_eq, layerS_eq]

/-! ## The run

The reference's run ends with each result at the operations' composed term of the arguments. Read operation by
operation (the generated `val_main_vN`, one per operation, each over the ones before it), that term is the one above
with every round spelt as its scatter; so it is the one with every round a segment sum. -/

open Cert.ReferenceIdeal.Read in
/-- The first operation's value is the joined table. -/
theorem v0_eq (x0 : FVec Ideal S50000x64 .f32) (x1 : FVec Ideal S100000x64 .f32) :
    val_main_v0 (F := Ideal) x0 x1 = ego x0 x1 := rfl

open Cert.ReferenceIdeal.Read in
/-- The first round's messages are `msgs` of the joined table. -/
theorem v10_eq (x0 : FVec Ideal S50000x64 .f32) (x1 : FVec Ideal S100000x64 .f32) (x3 : IVec S1200000 32)
    (x4 : FVec Ideal S1200000 .f32) :
    val_main_v10 (F := Ideal) x0 x1 x3 x4 = msgs (val_main_v0 (F := Ideal) x0 x1) x3 x4 := rfl

open Cert.ReferenceIdeal.Read in
/-- The first round. -/
theorem v13_eq (x0 : FVec Ideal S50000x64 .f32) (x1 : FVec Ideal S100000x64 .f32) (x2 x3 : IVec S1200000 32)
    (x4 : FVec Ideal S1200000 .f32) :
    val_main_v13 (F := Ideal) x0 x1 x2 x3 x4 = layerS (val_main_v0 (F := Ideal) x0 x1) x2 x3 x4 := by
  unfold val_main_v13 layerS
  rw [v10_eq]
  rfl

open Cert.ReferenceIdeal.Read in
/-- The second round's messages are `msgs` of the first round's table. -/
theorem v24_eq (x0 : FVec Ideal S50000x64 .f32) (x1 : FVec Ideal S100000x64 .f32) (x2 x3 : IVec S1200000 32)
    (x4 : FVec Ideal S1200000 .f32) :
    val_main_v24 (F := Ideal) x0 x1 x2 x3 x4 = msgs (val_main_v13 (F := Ideal) x0 x1 x2 x3 x4) x3 x4 := rfl

open Cert.ReferenceIdeal.Read in
/-- The second round. -/
theorem v27_eq (x0 : FVec Ideal S50000x64 .f32) (x1 : FVec Ideal S100000x64 .f32) (x2 x3 : IVec S1200000 32)
    (x4 : FVec Ideal S1200000 .f32) :
    val_main_v27 (F := Ideal) x0 x1 x2 x3 x4 = layerS (val_main_v13 (F := Ideal) x0 x1 x2 x3 x4) x2 x3 x4 := by
  unfold val_main_v27 layerS
  rw [v24_eq]
  rfl

open Cert.ReferenceIdeal.Read in
/-- The third round's messages are `msgs` of the second round's table. -/
theorem v38_eq (x0 : FVec Ideal S50000x64 .f32) (x1 : FVec Ideal S100000x64 .f32) (x2 x3 : IVec S1200000 32)
    (x4 : FVec Ideal S1200000 .f32) :
    val_main_v38 (F := Ideal) x0 x1 x2 x3 x4 = msgs (val_main_v27 (F := Ideal) x0 x1 x2 x3 x4) x3 x4 := rfl

open Cert.ReferenceIdeal.Read in
/-- The third round. -/
theorem v41_eq (x0 : FVec Ideal S50000x64 .f32) (x1 : FVec Ideal S100000x64 .f32) (x2 x3 : IVec S1200000 32)
    (x4 : FVec Ideal S1200000 .f32) :
    val_main_v41 (F := Ideal) x0 x1 x2 x3 x4 = layerS (val_main_v27 (F := Ideal) x0 x1 x2 x3 x4) x2 x3 x4 := by
  unfold val_main_v41 layerS
  rw [v38_eq]
  rfl

open Cert.ReferenceIdeal.Read in
/-- The quotient by four of the joined table plus the three rounds' tables. -/
theorem v44_eq (x0 : FVec Ideal S50000x64 .f32) (x1 : FVec Ideal S100000x64 .f32) (x2 x3 : IVec S1200000 32)
    (x4 : FVec Ideal S1200000 .f32) :
    val_main_v44 (F := Ideal) x0 x1 x2 x3 x4 = meanS x0 x1 x2 x3 x4 := by
  unfold val_main_v44 val_main_v42 val_main_v28 val_main_v14 meanS
  rw [v41_eq, v27_eq, v13_eq, v0_eq]
  rfl

open Cert.ReferenceIdeal.Read in
theorem res1_eq (m : (ℓ : Loc nD τ sig) → Buf (Elt Ideal) ℓ) (c : Dev nD) :
    Cert.ReferenceIdeal.Value.res_main_v45 (F := Ideal) m c
      = res1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v45_eq]
  unfold val_main_v45 res1
  rw [v44_eq, meanS_eq]

open Cert.ReferenceIdeal.Read in
theorem res2_eq (m : (ℓ : Loc nD τ sig) → Buf (Elt Ideal) ℓ) (c : Dev nD) :
    Cert.ReferenceIdeal.Value.res_main_v46 (F := Ideal) m c
      = res2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v46_eq]
  unfold val_main_v46 res2
  rw [v44_eq, meanS_eq]

/-- THE REFERENCE'S RUN, with every scatter read as the segment sum: from any memory with zero counters every weakly
    fair execution of the reference ends with the first result at the joined table, the second and third at the two
    row blocks of the mean over the rounds, and the five arguments unchanged. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v0)
            = ego (m ((c.tc : Thread nD τ).loc main_arg0)) (m ((c.tc : Thread nD τ).loc main_arg1))
        ∧ r.2.mem ((c.tc : Thread nD τ).loc main_v45)
            = res1 (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4))
        ∧ r.2.mem ((c.tc : Thread nD τ).loc main_v46)
            = res2 (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run Cert.ReferenceIdeal.defs _ _).mono
    (fun _ h c => ⟨(h c).1, (h c).2.1.trans (res1_eq m c), (h c).2.2.1.trans (res2_eq m c), (h c).2.2.2⟩)
    (Cert.ReferenceIdeal.Value.run (F := Ideal) m ρ)

end Cert.ReferenceIdeal.RefValue

end
-- ==== Proof.lean ====
/-
  LightGCN message passing, kernel against reference, over the extended reals.

  Both programs stack the author and paper tables into ego (150000 × 64) and run three layers
      x ↦ segment sum, by the edges' destinations, of (edge weight × row of x at the edge's source),
  adding each layer's output to a running total that starts at ego; the results are ego and the author / paper rows of
  the total divided by 4. The reference computes the segment sum by a scatter-add into a zero table. The kernel computes
  it in a launch over a 125 × 125 grid: for row tile i and edge tile j it multiplies the 0/1 matrix
  [row id = destination of edge] (1200 × 9600) with the tile's messages (9600 × 64) and accumulates over j in a scratch,
  writing the row tile back after the last j. At the extended reals 0 · x = 0 and 1 · x = x for every x, and sums may be
  regrouped freely, so the accumulated products are exactly the sum of the messages whose destination is the row — the
  scatter-add's value, an out-of-range destination contributing nothing on either side. No finiteness is used.

  The frames: the word-level kernel and its idealization run to the end from any memory — each launch's body obligation is
  the two-case run of the body (first edge tile: scratch zeroed; later tiles: scratch carried) under an invariant that
  holds the scratch at the running sum — and leave the arguments untouched; the reference is host operations only.
-/
import proofs.«425571_j63591285785042_1_alg».proof.Defs
import proofs.«425571_j63591285785042_1_alg».proof.Proof.Gen.Kernel
import proofs.«425571_j63591285785042_1_alg».proof.Proof.Gen.KernelIdeal
import proofs.«425571_j63591285785042_1_alg».proof.Proof.Gen.ReferenceIdeal
import proofs.«425571_j63591285785042_1_alg».proof.Proof.Gen.Pre_finite_inputs
import proofs.«425571_j63591285785042_1_alg».proof.Proof.Kernel.Run
import proofs.«425571_j63591285785042_1_alg».proof.Proof.KernelIdeal.Results
import proofs.«425571_j63591285785042_1_alg».proof.Proof.KernelIdeal.Region0.Value
import proofs.«425571_j63591285785042_1_alg».proof.Proof.KernelIdeal.Region1.Value
import proofs.«425571_j63591285785042_1_alg».proof.Proof.KernelIdeal.Region2.Value
import proofs.«425571_j63591285785042_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The three launches' values, in the form the results module takes -/

theorem launch0 : Cert.KernelIdeal.Results.LaunchValue0 := fun V c => Cert.KernelIdeal.Region0.arr_final V c
theorem launch1 : Cert.KernelIdeal.Results.LaunchValue1 := fun V c => Cert.KernelIdeal.Region1.arr_final V c
theorem launch2 : Cert.KernelIdeal.Results.LaunchValue2 := fun V c => Cert.KernelIdeal.Region2.arr_final V c

/-! ## The two programs spell the same functions -/

section Agree

/-- The stacked table, spelt by either program. -/
theorem ego_agree (a0 : FVec Ideal Cert.KernelIdeal.S50000x64 .f32) (a1 : FVec Ideal Cert.KernelIdeal.S100000x64 .f32) :
    Cert.KernelIdeal.Stretches.ego a0 a1 = Cert.ReferenceIdeal.RefValue.ego a0 a1 := rfl

/-- A layer's messages, spelt by either program: the same operations on the same operands. -/
theorem msgs_agree (x : FVec Ideal Cert.KernelIdeal.S150000x64 .f32) (cols : IVec Cert.KernelIdeal.S1200000 32)
    (vals : FVec Ideal Cert.KernelIdeal.S1200000 .f32) :
    Cert.KernelIdeal.Stretches.msgs x cols vals = Cert.ReferenceIdeal.RefValue.msgs x cols vals := rfl

/-- A layer: the segment sum of those messages, on both sides. -/
theorem layer_agree (x : FVec Ideal Cert.KernelIdeal.S150000x64 .f32) (rows cols : IVec Cert.KernelIdeal.S1200000 32)
    (vals : FVec Ideal Cert.KernelIdeal.S1200000 .f32) :
    Cert.KernelIdeal.Results.layer x rows cols vals = Cert.ReferenceIdeal.RefValue.layer x rows cols vals := by
  unfold Cert.KernelIdeal.Results.layer Cert.ReferenceIdeal.RefValue.layer
  rw [msgs_agree]

/-- The mean over the four tables: the kernel's (running total + last layer) / 4 is the reference's. -/
theorem mean_agree (m : (ℓ : Loc Cert.KernelIdeal.nD Cert.KernelIdeal.τ Cert.KernelIdeal.sig) → Buf (Elt Ideal) ℓ) (c : Dev Cert.KernelIdeal.nD) :
    Cert.KernelIdeal.Results.out m c
      = Cert.ReferenceIdeal.RefValue.mean (Cert.KernelIdeal.Results.a0 m c) (Cert.KernelIdeal.Results.a1 m c)
          (Cert.KernelIdeal.Results.a2 m c) (Cert.KernelIdeal.Results.a3 m c) (Cert.KernelIdeal.Results.a4 m c) := by
  unfold Cert.KernelIdeal.Results.out Cert.KernelIdeal.Results.x3 Cert.KernelIdeal.Results.x2 Cert.KernelIdeal.Results.x1
    Cert.KernelIdeal.Results.e0 Cert.ReferenceIdeal.RefValue.mean
  simp only [layer_agree, ego_agree]
  rfl

end Agree

/-! ## The claims -/

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem algebraic : Cert.algebraic_KernelIdeal_ReferenceIdeal := by
  intro m ρ m' ρ' _ hagree
  refine ⟨fun c => Cert.KernelIdeal.Results.e0 m c,
    fun c => Cert.KernelIdeal.Stretches.res1 (Cert.KernelIdeal.Results.out m c),
    fun c => Cert.KernelIdeal.Stretches.res2 (Cert.KernelIdeal.Results.out m c),
    Cert.KernelIdeal.Results.run_values m ρ launch0 launch1 launch2, ?_⟩
  refine (θ_run Cert.ReferenceIdeal.defs _ _).mono (fun r h c => ?_) (Cert.ReferenceIdeal.RefValue.ref_run m' ρ')
  obtain ⟨h0, h1, h2, hargs⟩ := h c
  obtain ⟨e0, e1, e2, e3, e4⟩ := hagree c
  refine ⟨h0.trans ?_, h1.trans ?_, h2.trans ?_, hargs⟩
  · rw [e0, e1]; exact (ego_agree _ _).symm
  · show _ = Cert.KernelIdeal.Stretches.res1 (Cert.KernelIdeal.Results.out m c)
    rw [e0, e1, e2, e3, e4, mean_agree]; rfl
  · show _ = Cert.KernelIdeal.Stretches.res2 (Cert.KernelIdeal.Results.out m c)
    rw [e0, e1, e2, e3, e4, mean_agree]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
